-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40x128 : Shape := ⟨3, ![2048, 40, 128]⟩
abbrev S128x128 : Shape := ⟨2, ![128, 128]⟩
abbrev S_ : Shape := ⟨0, ![]⟩

class Facts : Prop where
  bcast_S_S2048x40x128 : S_.BroadcastsInDim S2048x40x128 (![] : Fin 0 → Fin S2048x40x128.rank)
  reducesTo_S2048x40x128_S_d0_1_2 : S2048x40x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2048x40x128 .f32) (main_arg1 : FVec F S128x128 .f32) : IVec S_ 1 :=
  let main_v0 : FVec F S2048x40x128 .f32 := Host.absf main_arg0
  let main_cst : FVec F S_ .f32 := constant S_ .f32 0x7F800000#32
  let main_v1 : FVec F S2048x40x128 .f32 := broadcastInDim S2048x40x128 ![] bcast_S_S2048x40x128 main_cst
  let main_v2 : IVec S2048x40x128 1 := cmpf .olt main_v0 main_v1
  let main_c : IVec S_ 1 := constantI S_ 1 1#1
  let main_v3 : IVec S_ 1 := (fun x v => Host.reduce IntOp.andi x v reducesTo_S2048x40x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S2048x40x128 : Shape := ⟨3, ![2048, 40, 128]⟩
abbrev S128x128 : Shape := ⟨2, ![128, 128]⟩
abbrev S2048x780x128 : Shape := ⟨3, ![2048, 780, 128]⟩
abbrev S16x40x128 : Shape := ⟨3, ![16, 40, 128]⟩
abbrev S16x780x128 : Shape := ⟨3, ![16, 780, 128]⟩
abbrev S640x128 : Shape := ⟨2, ![640, 128]⟩
abbrev S16x1x128 : Shape := ⟨3, ![16, 1, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x40x128, .f32⟩
  | .hbm, ⟨1, _⟩ => ⟨S128x128, .f32⟩
  | .hbm, ⟨2, _⟩ => ⟨S2048x780x128, .f32⟩
  | .local _ .vmem, ⟨0, _⟩ => ⟨S16x40x128, .f32⟩
  | .local _ .vmem, ⟨1, _⟩ => ⟨S16x40x128, .f32⟩
  | .local _ .vmem, ⟨2, _⟩ => ⟨S128x128, .f32⟩
  | .local _ .vmem, ⟨3, _⟩ => ⟨S16x780x128, .f32⟩
  | .local _ .vmem, ⟨4, _⟩ => ⟨S16x780x128, .f32⟩
  | _, _ => ⟨S2048x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x780x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x40x128_S16x40x128_0_0_0 : ∀ a, (![0, 0, 0] : Fin 3 → Nat) a + S16x40x128.size a ≤ S16x40x128.size a
  h_S16x40x128 : 0 < S16x40x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S16x40x128_S640x128 : S16x40x128.ShapeCasts S640x128
  shapeCasts_S640x128_S16x40x128 : S640x128.ShapeCasts S16x40x128
  slices_S16x40x128_o0_0_0_S16x1x128 : S16x40x128.Slices ![0, 0, 0] S16x1x128
  slices_S16x40x128_o0_1_0_S16x1x128 : S16x40x128.Slices ![0, 1, 0] S16x1x128
  slices_S16x40x128_o0_2_0_S16x1x128 : S16x40x128.Slices ![0, 2, 0] S16x1x128
  slices_S16x40x128_o0_3_0_S16x1x128 : S16x40x128.Slices ![0, 3, 0] S16x1x128
  slices_S16x40x128_o0_4_0_S16x1x128 : S16x40x128.Slices ![0, 4, 0] S16x1x128
  slices_S16x40x128_o0_5_0_S16x1x128 : S16x40x128.Slices ![0, 5, 0] S16x1x128
  slices_S16x40x128_o0_6_0_S16x1x128 : S16x40x128.Slices ![0, 6, 0] S16x1x128
  slices_S16x40x128_o0_7_0_S16x1x128 : S16x40x128.Slices ![0, 7, 0] S16x1x128
  slices_S16x40x128_o0_8_0_S16x1x128 : S16x40x128.Slices ![0, 8, 0] S16x1x128
  slices_S16x40x128_o0_9_0_S16x1x128 : S16x40x128.Slices ![0, 9, 0] S16x1x128
  slices_S16x40x128_o0_10_0_S16x1x128 : S16x40x128.Slices ![0, 10, 0] S16x1x128
  slices_S16x40x128_o0_11_0_S16x1x128 : S16x40x128.Slices ![0, 11, 0] S16x1x128
  slices_S16x40x128_o0_12_0_S16x1x128 : S16x40x128.Slices ![0, 12, 0] S16x1x128
  slices_S16x40x128_o0_13_0_S16x1x128 : S16x40x128.Slices ![0, 13, 0] S16x1x128
  slices_S16x40x128_o0_14_0_S16x1x128 : S16x40x128.Slices ![0, 14, 0] S16x1x128
  slices_S16x40x128_o0_15_0_S16x1x128 : S16x40x128.Slices ![0, 15, 0] S16x1x128
  slices_S16x40x128_o0_16_0_S16x1x128 : S16x40x128.Slices ![0, 16, 0] S16x1x128
  slices_S16x40x128_o0_17_0_S16x1x128 : S16x40x128.Slices ![0, 17, 0] S16x1x128
  slices_S16x40x128_o0_18_0_S16x1x128 : S16x40x128.Slices ![0, 18, 0] S16x1x128
  slices_S16x40x128_o0_19_0_S16x1x128 : S16x40x128.Slices ![0, 19, 0] S16x1x128
  slices_S16x40x128_o0_20_0_S16x1x128 : S16x40x128.Slices ![0, 20, 0] S16x1x128
  slices_S16x40x128_o0_21_0_S16x1x128 : S16x40x128.Slices ![0, 21, 0] S16x1x128
  slices_S16x40x128_o0_22_0_S16x1x128 : S16x40x128.Slices ![0, 22, 0] S16x1x128
  slices_S16x40x128_o0_23_0_S16x1x128 : S16x40x128.Slices ![0, 23, 0] S16x1x128
  slices_S16x40x128_o0_24_0_S16x1x128 : S16x40x128.Slices ![0, 24, 0] S16x1x128
  slices_S16x40x128_o0_25_0_S16x1x128 : S16x40x128.Slices ![0, 25, 0] S16x1x128
  slices_S16x40x128_o0_26_0_S16x1x128 : S16x40x128.Slices ![0, 26, 0] S16x1x128
  slices_S16x40x128_o0_27_0_S16x1x128 : S16x40x128.Slices ![0, 27, 0] S16x1x128
  slices_S16x40x128_o0_28_0_S16x1x128 : S16x40x128.Slices ![0, 28, 0] S16x1x128
  slices_S16x40x128_o0_29_0_S16x1x128 : S16x40x128.Slices ![0, 29, 0] S16x1x128
  slices_S16x40x128_o0_30_0_S16x1x128 : S16x40x128.Slices ![0, 30, 0] S16x1x128
  slices_S16x40x128_o0_31_0_S16x1x128 : S16x40x128.Slices ![0, 31, 0] S16x1x128
  slices_S16x40x128_o0_32_0_S16x1x128 : S16x40x128.Slices ![0, 32, 0] S16x1x128
  slices_S16x40x128_o0_33_0_S16x1x128 : S16x40x128.Slices ![0, 33, 0] S16x1x128
  slices_S16x40x128_o0_34_0_S16x1x128 : S16x40x128.Slices ![0, 34, 0] S16x1x128
  slices_S16x40x128_o0_35_0_S16x1x128 : S16x40x128.Slices ![0, 35, 0] S16x1x128
  slices_S16x40x128_o0_36_0_S16x1x128 : S16x40x128.Slices ![0, 36, 0] S16x1x128
  slices_S16x40x128_o0_37_0_S16x1x128 : S16x40x128.Slices ![0, 37, 0] S16x1x128
  slices_S16x40x128_o0_38_0_S16x1x128 : S16x40x128.Slices ![0, 38, 0] S16x1x128
  slices_S16x40x128_o0_39_0_S16x1x128 : S16x40x128.Slices ![0, 39, 0] S16x1x128
  concatenates_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x1x128_S16x780x128_d1 : Shape.Concatenates (S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: S16x1x128 :: []) S16x780x128 1
  inb_S16x780x128_S16x780x128_0_0_0 : ∀ a, (![0, 0, 0] : Fin 3 → Nat) a + S16x780x128.size a ≤ S16x780x128.size a
  h_S16x780x128 : 0 < S16x780x128.numel
  dot_S640x128_S128x128_S640x128_1_0_0_1_n_n_wf : DotDims.WF S640x128 S128x128 S640x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x40x128.size a ≤ S2048x40x128.size a
  hwx0_0 : ∀ i : grid0.Coords, EltTy.bits .f32 = 32 ∨ (Rect.block (s := S2048x40x128) S16x40x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x780x128.size a ≤ S2048x780x128.size a
  hwx0_2 : ∀ i : grid0.Coords, EltTy.bits .f32 = 32 ∨ (Rect.block (s := S2048x780x128) S16x780x128.size (cc0_transform_2 i) (hinb0_2 i)).WholeWords (EltTy.packing .f32)

variable [Facts₀]

def dot_S640x128_S128x128_S640x128_1_0_0_1_n_n : DotDims S640x128 S128x128 S640x128 where
  lhsContracting := [1]
  rhsContracting := [0]
  lhsNonContracting := [0]
  rhsNonContracting := [1]
  lhsBatch := []
  rhsBatch := []
  wf := dot_S640x128_S128x128_S640x128_1_0_0_1_n_n_wf

abbrev win0_0 : Pipeline.Window sig grid0 :=
  Pipeline.Window.ofSpec (Memref.whole main_arg0) S16x40x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x780x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x40x128 : Shape := ⟨3, ![2048, 40, 128]⟩
abbrev S128x128 : Shape := ⟨2, ![128, 128]⟩
abbrev S_ : Shape := ⟨0, ![]⟩
abbrev S40x40 : Shape := ⟨2, ![40, 40]⟩
abbrev S1600 : Shape := ⟨1, ![1600]⟩
abbrev S780 : Shape := ⟨1, ![780]⟩
abbrev S1600x1 : Shape := ⟨2, ![1600, 1]⟩
abbrev S780x1 : Shape := ⟨2, ![780, 1]⟩
abbrev S2048x780x128 : Shape := ⟨3, ![2048, 780, 128]⟩

abbrev nBuf : Space → Nat
  | .hbm => 139
  | .vmem => 0
  | .smem => 0
  | _ => 0

abbrev hbmTy0_0 (i : Nat) : BufTy := match i % 128 with
  | 0 => ⟨S2048x40x128, .f32⟩
  | 1 => ⟨S128x128, .f32⟩
  | 2 => ⟨S2048x40x128, .f32⟩
  | 3 => ⟨S_, .f32⟩
  | 4 => ⟨S40x40, .f32⟩
  | 5 => ⟨S40x40, .i32⟩
  | 6 => ⟨S_, .i32⟩
  | 7 => ⟨S40x40, .i32⟩
  | 8 => ⟨S40x40, .i32⟩
  | 9 => ⟨S40x40, .i32⟩
  | 10 => ⟨S40x40, .i1⟩
  | 11 => ⟨S_, .f32⟩
  | 12 => ⟨S40x40, .f32⟩
  | 13 => ⟨S40x40, .f32⟩
  | 14 => ⟨S_, .f32⟩
  | 15 => ⟨S40x40, .f32⟩
  | 16 => ⟨S40x40, .i1⟩
  | 17 => ⟨S1600, .i1⟩
  | 18 => ⟨S1600, .i32⟩
  | 19 => ⟨S_, .i32⟩
  | 20 => ⟨S_, .i32⟩
  | 21 => ⟨S1600, .i32⟩
  | 22 => ⟨S_, .i32⟩
  | 23 => ⟨S780, .i32⟩
  | 24 => ⟨S_, .i32⟩
  | 25 => ⟨S_, .i32⟩
  | 26 => ⟨S1600, .i32⟩
  | 27 => ⟨S1600, .i32⟩
  | 28 => ⟨S_, .i32⟩
  | 29 => ⟨S1600, .i32⟩
  | 30 => ⟨S1600, .i1⟩
  | 31 => ⟨S_, .i32⟩
  | 32 => ⟨S1600, .i32⟩
  | 33 => ⟨S1600, .i32⟩
  | 34 => ⟨S1600, .i32⟩
  | 35 => ⟨S1600x1, .i32⟩
  | 36 => ⟨S_, .i32⟩
  | 37 => ⟨S1600, .i32⟩
  | 38 => ⟨S780, .i32⟩
  | 39 => ⟨S_, .i32⟩
  | 40 => ⟨S_, .i32⟩
  | 41 => ⟨S780, .i32⟩
  | 42 => ⟨S_, .i32⟩
  | 43 => ⟨S780, .i32⟩
  | 44 => ⟨S780, .i32⟩
  | 45 => ⟨S780, .i32⟩
  | 46 => ⟨S_, .i32⟩
  | 47 => ⟨S780, .i32⟩
  | 48 => ⟨S780, .i1⟩
  | 49 => ⟨S780, .i32⟩
  | 50 => ⟨S780, .i32⟩
  | 51 => ⟨S_, .i32⟩
  | 52 => ⟨S780, .i32⟩
  | 53 => ⟨S780, .i1⟩
  | 54 => ⟨S780, .i1⟩
  | 55 => ⟨S_, .i32⟩
  | 56 => ⟨S780, .i32⟩
  | 57 => ⟨S780, .i32⟩
  | 58 => ⟨S780, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S780, .i32⟩
  | 66 => ⟨S780, .i32⟩
  | 67 => ⟨S_, .i32⟩
  | 68 => ⟨S780, .i32⟩
  | 69 => ⟨S780, .i1⟩
  | 70 => ⟨S_, .i32⟩
  | 71 => ⟨S780, .i32⟩
  | 72 => ⟨S780, .i1⟩
  | 73 => ⟨S_, .i32⟩
  | 74 => ⟨S_, .i1⟩
  | 75 => ⟨S780, .i1⟩
  | 76 => ⟨S780, .i1⟩
  | 77 => ⟨S780, .i1⟩
  | 78 => ⟨S780, .i32⟩
  | 79 => ⟨S780, .i32⟩
  | 80 => ⟨S780, .i32⟩
  | 81 => ⟨S_, .i32⟩
  | 82 => ⟨S780, .i32⟩
  | 83 => ⟨S780, .i32⟩
  | 84 => ⟨S780, .i32⟩
  | 85 => ⟨S_, .i32⟩
  | 86 => ⟨S780, .i32⟩
  | 87 => ⟨S780, .i1⟩
  | 88 => ⟨S780, .i32⟩
  | 89 => ⟨S780, .i32⟩
  | 90 => ⟨S_, .i32⟩
  | 91 => ⟨S780, .i32⟩
  | 92 => ⟨S780, .i1⟩
  | 93 => ⟨S780, .i1⟩
  | 94 => ⟨S_, .i32⟩
  | 95 => ⟨S780, .i32⟩
  | 96 => ⟨S780, .i32⟩
  | 97 => ⟨S780, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S780, .i32⟩
  | 105 => ⟨S780, .i32⟩
  | 106 => ⟨S_, .i32⟩
  | 107 => ⟨S780, .i32⟩
  | 108 => ⟨S780, .i1⟩
  | 109 => ⟨S_, .i32⟩
  | 110 => ⟨S780, .i32⟩
  | 111 => ⟨S780, .i1⟩
  | 112 => ⟨S_, .i32⟩
  | 113 => ⟨S_, .i1⟩
  | 114 => ⟨S780, .i1⟩
  | 115 => ⟨S780, .i1⟩
  | 116 => ⟨S780, .i1⟩
  | 117 => ⟨S780, .i32⟩
  | 118 => ⟨S780, .i32⟩
  | 119 => ⟨S780, .i32⟩
  | 120 => ⟨S_, .i32⟩
  | 121 => ⟨S780, .i32⟩
  | 122 => ⟨S780, .i1⟩
  | 123 => ⟨S_, .i32⟩
  | 124 => ⟨S780, .i32⟩
  | 125 => ⟨S780, .i32⟩
  | 126 => ⟨S780, .i32⟩
  | 127 => ⟨S780x1, .i32⟩
  | _ => ⟨S2048x40x128, .f32⟩

abbrev hbmTy0_1 (i : Nat) : BufTy := match i % 128 with
  | 0 => ⟨S2048x780x128, .f32⟩
  | 1 => ⟨S_, .i32⟩
  | 2 => ⟨S780, .i32⟩
  | 3 => ⟨S780, .i1⟩
  | 4 => ⟨S_, .i32⟩
  | 5 => ⟨S780, .i32⟩
  | 6 => ⟨S780, .i32⟩
  | 7 => ⟨S780, .i32⟩
  | 8 => ⟨S780x1, .i32⟩
  | 9 => ⟨S2048x780x128, .f32⟩
  | 10 => ⟨S2048x780x128, .f32⟩
  | _ => ⟨S2048x40x128, .f32⟩

abbrev hbmTy (i : Nat) : BufTy := match i / 128 with
  | 0 => hbmTy0_0 i
  | 1 => hbmTy0_1 i
  | _ => ⟨S2048x40x128, .f32⟩

abbrev bufTy : (tb : Table) → Fin (tcTables nBuf tb) → BufTy
  | .hbm, ⟨i, _⟩ => hbmTy i
  | _, _ => ⟨S2048x40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_call0_c : Ref sig .tc := ⟨.hbm, 19, rfl⟩
abbrev main_call1_call0_v0 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_call3_call0_c : Ref sig .tc := ⟨.hbm, 39, rfl⟩
abbrev main_call3_call0_v0 : Ref sig .tc := ⟨.hbm, 40, rfl⟩
abbrev main_v16 : Ref sig .tc := ⟨.hbm, 41, rfl⟩
abbrev main_c_5 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_c : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_c_0 : Ref sig .tc := ⟨.hbm, 55, rfl⟩
abbrev main_call4_v11 : Ref sig .tc := ⟨.hbm, 56, rfl⟩
abbrev main_call4_v12 : Ref sig .tc := ⟨.hbm, 57, rfl⟩
abbrev main_v17 : Ref sig .tc := ⟨.hbm, 58, rfl⟩
abbrev main_c_6 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_c_1 : Ref sig .tc := ⟨.hbm, 67, rfl⟩
abbrev main_call5_v5 : Ref sig .tc := ⟨.hbm, 68, rfl⟩
abbrev main_call5_v6 : Ref sig .tc := ⟨.hbm, 69, rfl⟩
abbrev main_call5_c_2 : Ref sig .tc := ⟨.hbm, 70, rfl⟩
abbrev main_call5_v7 : Ref sig .tc := ⟨.hbm, 71, rfl⟩
abbrev main_call5_v8 : Ref sig .tc := ⟨.hbm, 72, rfl⟩
abbrev main_call5_c_3 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_v18 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_c : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_c_0 : Ref sig .tc := ⟨.hbm, 94, rfl⟩
abbrev main_call6_v11 : Ref sig .tc := ⟨.hbm, 95, rfl⟩
abbrev main_call6_v12 : Ref sig .tc := ⟨.hbm, 96, rfl⟩
abbrev main_v19 : Ref sig .tc := ⟨.hbm, 97, rfl⟩
abbrev main_c_8 : Ref sig .tc := ⟨.hbm, 98, rfl⟩
abbrev main_call7_v0 : Ref sig .tc := ⟨.hbm, 99, rfl⟩
abbrev main_call7_c : Ref sig .tc := ⟨.hbm, 100, rfl⟩
abbrev main_call7_v1 : Ref sig .tc := ⟨.hbm, 101, rfl⟩
abbrev main_call7_c_0 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_c_1 : Ref sig .tc := ⟨.hbm, 106, rfl⟩
abbrev main_call7_v5 : Ref sig .tc := ⟨.hbm, 107, rfl⟩
abbrev main_call7_v6 : Ref sig .tc := ⟨.hbm, 108, rfl⟩
abbrev main_call7_c_2 : Ref sig .tc := ⟨.hbm, 109, rfl⟩
abbrev main_call7_v7 : Ref sig .tc := ⟨.hbm, 110, rfl⟩
abbrev main_call7_v8 : Ref sig .tc := ⟨.hbm, 111, rfl⟩
abbrev main_call7_c_3 : Ref sig .tc := ⟨.hbm, 112, rfl⟩
abbrev main_call7_v9 : Ref sig .tc := ⟨.hbm, 113, rfl⟩
abbrev main_call7_v10 : Ref sig .tc := ⟨.hbm, 114, rfl⟩
abbrev main_call7_v11 : Ref sig .tc := ⟨.hbm, 115, rfl⟩
abbrev main_call7_v12 : Ref sig .tc := ⟨.hbm, 116, rfl⟩
abbrev main_call7_v13 : Ref sig .tc := ⟨.hbm, 117, rfl⟩
abbrev main_call7_v14 : Ref sig .tc := ⟨.hbm, 118, rfl⟩
abbrev main_v20 : Ref sig .tc := ⟨.hbm, 119, rfl⟩
abbrev main_c_9 : Ref sig .tc := ⟨.hbm, 120, rfl⟩
abbrev main_v21 : Ref sig .tc := ⟨.hbm, 121, rfl⟩
abbrev main_v22 : Ref sig .tc := ⟨.hbm, 122, rfl⟩
abbrev main_c_10 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩

abbrev nD : Nat := 1
abbrev τ : Topo := Topo.v7x

variable {F : FTy → Type} [FloatOps F]

class Facts₀ : Prop where
  bcast_S_S40x40 : S_.BroadcastsInDim S40x40 (![] : Fin 0 → Fin S40x40.rank)
  shapeCasts_S40x40_S1600 : S40x40.ShapeCasts S1600
  natLt_1_32 : 1 < 32
  bcast_S_S_ : S_.BroadcastsInDim S_ (![] : Fin 0 → Fin S_.rank)
  reduceWindows_S1600_S1600_w1600s1p1599_0 : S1600.ReduceWindows (![1600] : Fin 1 → Nat) ![1] ![1599] ![0] S1600
  h_S_ : 0 < S_.numel
  bcast_S_S780 : S_.BroadcastsInDim S780 (![] : Fin 0 → Fin S780.rank)
  bcast_S_S1600 : S_.BroadcastsInDim S1600 (![] : Fin 0 → Fin S1600.rank)
  bcast_S1600_S1600x1_0 : S1600.BroadcastsInDim S1600x1 (![0] : Fin 1 → Fin S1600x1.rank)
  reduceWindows_S780_S780_w780s1p779_0 : S780.ReduceWindows (![780] : Fin 1 → Nat) ![1] ![779] ![0] S780
  bcast_S780_S780x1_0 : S780.BroadcastsInDim S780x1 (![0] : Fin 1 → Fin S780x1.rank)
  dot_S2048x40x128_S128x128_S2048x40x128_2_0_01_1_n_n_wf : DotDims.WF S2048x40x128 S128x128 S2048x40x128 [2] [0] [0, 1] [1] [] []
  scatter_S780_S1600x1_S1600_n_0_0_1_wf : ScatterDims.WF S780 S1600x1 S1600 [] [0] [0] 1
  gather_S2048x40x128_S780x1_S2048x780x128_02_1_n_n_1_1_20481128_wf : GatherDims.WF S2048x40x128 S780x1 S2048x780x128 [0, 2] [1] [] [1] [] 1 ![2048, 1, 128]

variable [Facts₀]

def dot_S2048x40x128_S128x128_S2048x40x128_2_0_01_1_n_n : DotDims S2048x40x128 S128x128 S2048x40x128 where
  lhsContracting := [2]
  rhsContracting := [0]
  lhsNonContracting := [0, 1]
  rhsNonContracting := [1]
  lhsBatch := []
  rhsBatch := []
  wf := dot_S2048x40x128_S128x128_S2048x40x128_2_0_01_1_n_n_wf
def scatter_S780_S1600x1_S1600_n_0_0_1 : ScatterDims S780 S1600x1 S1600 where
  updateWindowDims := []
  insertedWindowDims := [0]
  scatterDimsToOperandDims := [0]
  indexVectorDim := 1
  wf := scatter_S780_S1600x1_S1600_n_0_0_1_wf
def gather_S2048x40x128_S780x1_S2048x780x128_02_1_n_n_1_1_20481128 : GatherDims S2048x40x128 S780x1 S2048x780x128 where
  offsetDims := [0, 2]
  collapsedSliceDims := [1]
  operandBatchingDims := []
  startIndicesBatchingDims := []
  startIndexMap := [1]
  indexVectorDim := 1
  sliceSizes := ![2048, 1, 128]
  wf := gather_S2048x40x128_S780x1_S2048x780x128_02_1_n_n_1_1_20481128_wf

class Facts : Prop extends Facts₀ where

variable [Facts]
-- ==== Proof.PairTable.lean ====

namespace Cert.PairProducts

/-- The pairs of distinct fields, first field below second, in lexicographic order: position p holds the p-th pair. -/
def pairList : List (Nat × Nat) :=
  [
    (0, 1), (0, 2), (0, 3), (0, 4), (0, 5), (0, 6), (0, 7), (0, 8), (0, 9), (0, 10),
    (0, 11), (0, 12), (0, 13), (0, 14), (0, 15), (0, 16), (0, 17), (0, 18), (0, 19), (0, 20),
    (0, 21), (0, 22), (0, 23), (0, 24), (0, 25), (0, 26), (0, 27), (0, 28), (0, 29), (0, 30),
    (0, 31), (0, 32), (0, 33), (0, 34), (0, 35), (0, 36), (0, 37), (0, 38), (0, 39), (1, 2),
    (1, 3), (1, 4), (1, 5), (1, 6), (1, 7), (1, 8), (1, 9), (1, 10), (1, 11), (1, 12),
    (1, 13), (1, 14), (1, 15), (1, 16), (1, 17), (1, 18), (1, 19), (1, 20), (1, 21), (1, 22),
    (1, 23), (1, 24), (1, 25), (1, 26), (1, 27), (1, 28), (1, 29), (1, 30), (1, 31), (1, 32),
    (1, 33), (1, 34), (1, 35), (1, 36), (1, 37), (1, 38), (1, 39), (2, 3), (2, 4), (2, 5),
    (2, 6), (2, 7), (2, 8), (2, 9), (2, 10), (2, 11), (2, 12), (2, 13), (2, 14), (2, 15),
    (2, 16), (2, 17), (2, 18), (2, 19), (2, 20), (2, 21), (2, 22), (2, 23), (2, 24), (2, 25),
    (2, 26), (2, 27), (2, 28), (2, 29), (2, 30), (2, 31), (2, 32), (2, 33), (2, 34), (2, 35),
    (2, 36), (2, 37), (2, 38), (2, 39), (3, 4), (3, 5), (3, 6), (3, 7), (3, 8), (3, 9),
    (3, 10), (3, 11), (3, 12), (3, 13), (3, 14), (3, 15), (3, 16), (3, 17), (3, 18), (3, 19),
    (3, 20), (3, 21), (3, 22), (3, 23), (3, 24), (3, 25), (3, 26), (3, 27), (3, 28), (3, 29),
    (3, 30), (3, 31), (3, 32), (3, 33), (3, 34), (3, 35), (3, 36), (3, 37), (3, 38), (3, 39),
    (4, 5), (4, 6), (4, 7), (4, 8), (4, 9), (4, 10), (4, 11), (4, 12), (4, 13), (4, 14),
    (4, 15), (4, 16), (4, 17), (4, 18), (4, 19), (4, 20), (4, 21), (4, 22), (4, 23), (4, 24),
    (4, 25), (4, 26), (4, 27), (4, 28), (4, 29), (4, 30), (4, 31), (4, 32), (4, 33), (4, 34),
    (4, 35), (4, 36), (4, 37), (4, 38), (4, 39), (5, 6), (5, 7), (5, 8), (5, 9), (5, 10),
    (5, 11), (5, 12), (5, 13), (5, 14), (5, 15), (5, 16), (5, 17), (5, 18), (5, 19), (5, 20),
    (5, 21), (5, 22), (5, 23), (5, 24), (5, 25), (5, 26), (5, 27), (5, 28), (5, 29), (5, 30),
    (5, 31), (5, 32), (5, 33), (5, 34), (5, 35), (5, 36), (5, 37), (5, 38), (5, 39), (6, 7),
    (6, 8), (6, 9), (6, 10), (6, 11), (6, 12), (6, 13), (6, 14), (6, 15), (6, 16), (6, 17),
    (6, 18), (6, 19), (6, 20), (6, 21), (6, 22), (6, 23), (6, 24), (6, 25), (6, 26), (6, 27),
    (6, 28), (6, 29), (6, 30), (6, 31), (6, 32), (6, 33), (6, 34), (6, 35), (6, 36), (6, 37),
    (6, 38), (6, 39), (7, 8), (7, 9), (7, 10), (7, 11), (7, 12), (7, 13), (7, 14), (7, 15),
    (7, 16), (7, 17), (7, 18), (7, 19), (7, 20), (7, 21), (7, 22), (7, 23), (7, 24), (7, 25),
    (7, 26), (7, 27), (7, 28), (7, 29), (7, 30), (7, 31), (7, 32), (7, 33), (7, 34), (7, 35),
    (7, 36), (7, 37), (7, 38), (7, 39), (8, 9), (8, 10), (8, 11), (8, 12), (8, 13), (8, 14),
    (8, 15), (8, 16), (8, 17), (8, 18), (8, 19), (8, 20), (8, 21), (8, 22), (8, 23), (8, 24),
    (8, 25), (8, 26), (8, 27), (8, 28), (8, 29), (8, 30), (8, 31), (8, 32), (8, 33), (8, 34),
    (8, 35), (8, 36), (8, 37), (8, 38), (8, 39), (9, 10), (9, 11), (9, 12), (9, 13), (9, 14),
    (9, 15), (9, 16), (9, 17), (9, 18), (9, 19), (9, 20), (9, 21), (9, 22), (9, 23), (9, 24),
    (9, 25), (9, 26), (9, 27), (9, 28), (9, 29), (9, 30), (9, 31), (9, 32), (9, 33), (9, 34),
    (9, 35), (9, 36), (9, 37), (9, 38), (9, 39), (10, 11), (10, 12), (10, 13), (10, 14), (10, 15),
    (10, 16), (10, 17), (10, 18), (10, 19), (10, 20), (10, 21), (10, 22), (10, 23), (10, 24), (10, 25),
    (10, 26), (10, 27), (10, 28), (10, 29), (10, 30), (10, 31), (10, 32), (10, 33), (10, 34), (10, 35),
    (10, 36), (10, 37), (10, 38), (10, 39), (11, 12), (11, 13), (11, 14), (11, 15), (11, 16), (11, 17),
    (11, 18), (11, 19), (11, 20), (11, 21), (11, 22), (11, 23), (11, 24), (11, 25), (11, 26), (11, 27),
    (11, 28), (11, 29), (11, 30), (11, 31), (11, 32), (11, 33), (11, 34), (11, 35), (11, 36), (11, 37),
    (11, 38), (11, 39), (12, 13), (12, 14), (12, 15), (12, 16), (12, 17), (12, 18), (12, 19), (12, 20),
    (12, 21), (12, 22), (12, 23), (12, 24), (12, 25), (12, 26), (12, 27), (12, 28), (12, 29), (12, 30),
    (12, 31), (12, 32), (12, 33), (12, 34), (12, 35), (12, 36), (12, 37), (12, 38), (12, 39), (13, 14),
    (13, 15), (13, 16), (13, 17), (13, 18), (13, 19), (13, 20), (13, 21), (13, 22), (13, 23), (13, 24),
    (13, 25), (13, 26), (13, 27), (13, 28), (13, 29), (13, 30), (13, 31), (13, 32), (13, 33), (13, 34),
    (13, 35), (13, 36), (13, 37), (13, 38), (13, 39), (14, 15), (14, 16), (14, 17), (14, 18), (14, 19),
    (14, 20), (14, 21), (14, 22), (14, 23), (14, 24), (14, 25), (14, 26), (14, 27), (14, 28), (14, 29),
    (14, 30), (14, 31), (14, 32), (14, 33), (14, 34), (14, 35), (14, 36), (14, 37), (14, 38), (14, 39),
    (15, 16), (15, 17), (15, 18), (15, 19), (15, 20), (15, 21), (15, 22), (15, 23), (15, 24), (15, 25),
    (15, 26), (15, 27), (15, 28), (15, 29), (15, 30), (15, 31), (15, 32), (15, 33), (15, 34), (15, 35),
    (15, 36), (15, 37), (15, 38), (15, 39), (16, 17), (16, 18), (16, 19), (16, 20), (16, 21), (16, 22),
    (16, 23), (16, 24), (16, 25), (16, 26), (16, 27), (16, 28), (16, 29), (16, 30), (16, 31), (16, 32),
    (16, 33), (16, 34), (16, 35), (16, 36), (16, 37), (16, 38), (16, 39), (17, 18), (17, 19), (17, 20),
    (17, 21), (17, 22), (17, 23), (17, 24), (17, 25), (17, 26), (17, 27), (17, 28), (17, 29), (17, 30),
    (17, 31), (17, 32), (17, 33), (17, 34), (17, 35), (17, 36), (17, 37), (17, 38), (17, 39), (18, 19),
    (18, 20), (18, 21), (18, 22), (18, 23), (18, 24), (18, 25), (18, 26), (18, 27), (18, 28), (18, 29),
    (18, 30), (18, 31), (18, 32), (18, 33), (18, 34), (18, 35), (18, 36), (18, 37), (18, 38), (18, 39),
    (19, 20), (19, 21), (19, 22), (19, 23), (19, 24), (19, 25), (19, 26), (19, 27), (19, 28), (19, 29),
    (19, 30), (19, 31), (19, 32), (19, 33), (19, 34), (19, 35), (19, 36), (19, 37), (19, 38), (19, 39),
    (20, 21), (20, 22), (20, 23), (20, 24), (20, 25), (20, 26), (20, 27), (20, 28), (20, 29), (20, 30),
    (20, 31), (20, 32), (20, 33), (20, 34), (20, 35), (20, 36), (20, 37), (20, 38), (20, 39), (21, 22),
    (21, 23), (21, 24), (21, 25), (21, 26), (21, 27), (21, 28), (21, 29), (21, 30), (21, 31), (21, 32),
    (21, 33), (21, 34), (21, 35), (21, 36), (21, 37), (21, 38), (21, 39), (22, 23), (22, 24), (22, 25),
    (22, 26), (22, 27), (22, 28), (22, 29), (22, 30), (22, 31), (22, 32), (22, 33), (22, 34), (22, 35),
    (22, 36), (22, 37), (22, 38), (22, 39), (23, 24), (23, 25), (23, 26), (23, 27), (23, 28), (23, 29),
    (23, 30), (23, 31), (23, 32), (23, 33), (23, 34), (23, 35), (23, 36), (23, 37), (23, 38), (23, 39),
    (24, 25), (24, 26), (24, 27), (24, 28), (24, 29), (24, 30), (24, 31), (24, 32), (24, 33), (24, 34),
    (24, 35), (24, 36), (24, 37), (24, 38), (24, 39), (25, 26), (25, 27), (25, 28), (25, 29), (25, 30),
    (25, 31), (25, 32), (25, 33), (25, 34), (25, 35), (25, 36), (25, 37), (25, 38), (25, 39), (26, 27),
    (26, 28), (26, 29), (26, 30), (26, 31), (26, 32), (26, 33), (26, 34), (26, 35), (26, 36), (26, 37),
    (26, 38), (26, 39), (27, 28), (27, 29), (27, 30), (27, 31), (27, 32), (27, 33), (27, 34), (27, 35),
    (27, 36), (27, 37), (27, 38), (27, 39), (28, 29), (28, 30), (28, 31), (28, 32), (28, 33), (28, 34),
    (28, 35), (28, 36), (28, 37), (28, 38), (28, 39), (29, 30), (29, 31), (29, 32), (29, 33), (29, 34),
    (29, 35), (29, 36), (29, 37), (29, 38), (29, 39), (30, 31), (30, 32), (30, 33), (30, 34), (30, 35),
    (30, 36), (30, 37), (30, 38), (30, 39), (31, 32), (31, 33), (31, 34), (31, 35), (31, 36), (31, 37),
    (31, 38), (31, 39), (32, 33), (32, 34), (32, 35), (32, 36), (32, 37), (32, 38), (32, 39), (33, 34),
    (33, 35), (33, 36), (33, 37), (33, 38), (33, 39), (34, 35), (34, 36), (34, 37), (34, 38), (34, 39),
    (35, 36), (35, 37), (35, 38), (35, 39), (36, 37), (36, 38), (36, 39), (37, 38), (37, 39), (38, 39) ]

end Cert.PairProducts
-- ==== Proof.PairCount.lean ====
/-
  Where the p-th pair sits in the 40 × 40 grid read row by row, and why counting finds it. Mark cell
  k = 40 r + c when r < c. The number of marked cells among 0 … k is a step function of k that climbs by one
  at each marked cell; so the cells whose count is at most p are exactly the cells before the (p+1)-th marked
  one, and there are as many of them as that cell's position, 40 i + j for the p-th pair (i, j).
-/
import Mathlib.Algebra.BigOperators.Fin
import Mathlib.Data.Fintype.Card
import Mathlib.Data.Fintype.Fin
import Mathlib.Algebra.Order.BigOperators.Group.Finset
import proofs.«140554_j24747601560016_1_alg».proof.Proof.PairTable

open scoped BigOperators

namespace Cert.PairProducts

/-- The p-th pair (a pair of zeros past the end of the list). -/
def pairAt (p : Nat) : Nat × Nat := pairList.getD p (0, 0)

/-- Checked entry by entry: every pair is of two fields, the first below the second. -/
theorem pairs_ordered : (List.range 780).all
    (fun p => decide ((pairAt p).1 < (pairAt p).2 ∧ (pairAt p).2 < 40)) = true := by decide +kernel

theorem pairAt_lt (p : Nat) (hp : p < 780) : (pairAt p).1 < (pairAt p).2 ∧ (pairAt p).2 < 40 :=
  of_decide_eq_true (List.all_eq_true.mp pairs_ordered p (List.mem_range.mpr hp))

/-- Cell k of the grid is marked: its row is below its column. -/
def marked (k : Nat) : Bool := decide (k / 40 < k % 40)

/-- The number of marked cells among 0 … k, in closed form: rows r' < r hold 39 - r' each, row r holds
    c - r up to column c. -/
def countTo (k : Nat) : Nat := 39 * (k / 40) - (k / 40) * (k / 40 - 1) / 2 + (k % 40 - k / 40)

/-- The position of the p-th pair's cell. -/
def cellAt (p : Nat) : Nat := 40 * (pairAt p).1 + (pairAt p).2

theorem countTo_zero : countTo 0 = 0 := by decide
theorem marked_zero : marked 0 = false := by decide
theorem countTo_last : countTo 1599 = 780 := by decide

/-- Checked cell by cell: the count climbs by one exactly at a marked cell. -/
theorem countTo_succ_all : (List.range 1599).all
    (fun k => decide (countTo (k + 1) = countTo k + (if marked (k + 1) then 1 else 0))) = true := by decide +kernel

theorem countTo_succ (k : Nat) (hk : k < 1599) :
    countTo (k + 1) = countTo k + (if marked (k + 1) then 1 else 0) :=
  of_decide_eq_true (List.all_eq_true.mp countTo_succ_all k (List.mem_range.mpr hk))

/-- Checked pair by pair: the p-th pair's cell is the (p+1)-th marked one, the count p just before it and p + 1 at it. -/
theorem countTo_cellAt_all : (List.range 780).all
    (fun p => decide (0 < cellAt p ∧ cellAt p < 1600 ∧ countTo (cellAt p) = p + 1 ∧ countTo (cellAt p - 1) = p)) = true := by
  decide +kernel

theorem countTo_cellAt (p : Nat) (hp : p < 780) :
    0 < cellAt p ∧ cellAt p < 1600 ∧ countTo (cellAt p) = p + 1 ∧ countTo (cellAt p - 1) = p :=
  of_decide_eq_true (List.all_eq_true.mp countTo_cellAt_all p (List.mem_range.mpr hp))

theorem cellAt_div (p : Nat) (hp : p < 780) : cellAt p / 40 = (pairAt p).1 := by
  have := pairAt_lt p hp; unfold cellAt; omega
theorem cellAt_mod (p : Nat) (hp : p < 780) : cellAt p % 40 = (pairAt p).2 := by
  have := pairAt_lt p hp; unfold cellAt; omega

/-- The closed form is the count: the number of marked cells among 0 … k. -/
theorem countTo_eq_sum (k : Nat) (hk : k < 1600) :
    countTo k = ∑ n : Fin 1600, if n.val ≤ k then (if marked n.val then 1 else 0) else 0 := by
  induction k with
  | zero =>
    -- the only cell up to 0 is cell 0, and it is not marked
    rw [countTo_zero]
    symm
    apply Finset.sum_eq_zero
    intro n _
    by_cases h1 : n.val ≤ 0
    · have h0 : n.val = 0 := by omega
      rw [if_pos h1, h0, marked_zero]
      rfl
    · rw [if_neg h1]
  | succ k ih =>
    have hk' : k < 1599 := by omega
    rw [countTo_succ k hk', ih (by omega)]
    -- the summand up to k + 1 is the summand up to k plus the one term at cell k + 1
    have hsplit : ∀ n : Fin 1600, (if n.val ≤ k + 1 then (if marked n.val then 1 else 0) else 0)
        = (if n.val ≤ k then (if marked n.val then 1 else 0) else 0)
          + (if n = (⟨k + 1, hk⟩ : Fin 1600) then (if marked (k + 1) then 1 else 0) else 0) := by
      intro n
      by_cases h1 : n.val ≤ k
      · have h2 : n.val ≤ k + 1 := by omega
        have h3 : n ≠ (⟨k + 1, hk⟩ : Fin 1600) := by
          intro h
          have := congrArg Fin.val h
          simp at this
          omega
        rw [if_pos h1, if_pos h2, if_neg h3, Nat.add_zero]
      · by_cases h2 : n.val = k + 1
        · have h3 : n = (⟨k + 1, hk⟩ : Fin 1600) := Fin.ext h2
          have h4 : n.val ≤ k + 1 := by omega
          rw [if_neg h1, if_pos h4, if_pos h3, h2, Nat.zero_add]
        · have h3 : ¬ n.val ≤ k + 1 := by omega
          have h4 : n ≠ (⟨k + 1, hk⟩ : Fin 1600) := by
            intro h
            exact h2 (by rw [h])
          rw [if_neg h1, if_neg h3, if_neg h4]
    rw [Finset.sum_congr rfl (fun n _ => hsplit n), Finset.sum_add_distrib, Finset.sum_ite_eq']
    rw [if_pos (Finset.mem_univ _)]

theorem countTo_mono {a b : Nat} (hab : a ≤ b) (hb : b < 1600) : countTo a ≤ countTo b := by
  induction b, hab using Nat.le_induction with
  | base => exact le_refl _
  | succ b hab ih =>
    -- one more cell adds zero or one to the count
    rw [countTo_succ b (by omega)]
    exact le_trans (ih (by omega)) (Nat.le_add_right _ _)

theorem countTo_le_780 (k : Nat) (hk : k < 1600) : countTo k ≤ 780 := by
  have h := countTo_mono (show k ≤ 1599 by omega) (by omega)
  rwa [countTo_last] at h

/-- Counting finds the cell: as many cells have count at most p as the p-th pair's cell has position. -/
theorem card_countTo_le (p : Nat) (hp : p < 780) :
    (Finset.univ.filter fun n : Fin 1600 => countTo n.val ≤ p).card = cellAt p := by
  obtain ⟨h0, h1, h2, h3⟩ := countTo_cellAt p hp
  -- the cells with count at most p are exactly the cells before the p-th pair's cell
  have hfilter : (Finset.univ.filter fun n : Fin 1600 => countTo n.val ≤ p)
      = Finset.univ.filter fun n : Fin 1600 => n.val < cellAt p := by
    apply Finset.filter_congr
    intro n _
    constructor
    · intro h
      by_contra hc
      have hc' : cellAt p ≤ n.val := by omega
      have := countTo_mono hc' n.isLt
      omega
    · intro h
      have h' : n.val ≤ cellAt p - 1 := by omega
      have := countTo_mono h' (by omega)
      omega
  rw [hfilter, Fin.card_filter_val_lt]
  omega

/-- The same count, gathered value by value: the cells whose count is exactly v, over v = 0 … p. -/
theorem sum_card_countTo_eq (p : Nat) (hp : p < 780) :
    (∑ v : Fin 780, if v.val ≤ p then (Finset.univ.filter fun n : Fin 1600 => countTo n.val = v.val).card else 0)
      = cellAt p := by
  rw [← card_countTo_le p hp]
  simp only [Finset.card_filter]
  -- both sides count the pairs (cell, value) with value = the cell's count and value ≤ p
  have hpush : ∀ v : Fin 780,
      (if v.val ≤ p then ∑ n : Fin 1600, (if countTo n.val = v.val then 1 else 0) else 0)
        = ∑ n : Fin 1600, if v.val ≤ p then (if countTo n.val = v.val then 1 else 0) else 0 := by
    intro v
    by_cases h : v.val ≤ p
    · simp only [if_pos h]
    · simp only [if_neg h, Finset.sum_const_zero]
  rw [Finset.sum_congr rfl (fun v _ => hpush v), Finset.sum_comm]
  apply Finset.sum_congr rfl
  intro n _
  by_cases h : countTo n.val ≤ p
  · -- the one value that contributes is the cell's own count, a value below 780 since p is
    rw [if_pos h, Finset.sum_eq_single (⟨countTo n.val, by omega⟩ : Fin 780)]
    · rw [if_pos (show (⟨countTo n.val, by omega⟩ : Fin 780).val ≤ p from h), if_pos rfl]
    · intro v _ hv
      have hne : countTo n.val ≠ v.val := fun e => hv (Fin.ext e.symm)
      rw [if_neg hne]
      split_ifs <;> rfl
    · intro hmem
      exact absurd (Finset.mem_univ _) hmem
  · rw [if_neg h]
    apply Finset.sum_eq_zero
    intro v _
    by_cases h1 : v.val ≤ p
    · have hne : countTo n.val ≠ v.val := by omega
      rw [if_pos h1, if_neg hne]
    · rw [if_neg h1]

end Cert.PairProducts
-- ==== Proof.Spec.lean ====
/-
  What both programs compute, as one function of the two argument arrays. Field f of sample b is the row
  x[b, f, ·]; its projection is vid[b, f, d] = Σ_e x[b, f, e] · W[e, d]. The result holds, at the p-th pair
  (i, j) of distinct fields with i < j, in lexicographic order, the product x[b, i, d] · vid[b, j, d].
-/
import Idealize.ShloMosaic.PureOps.Ideal
import Idealize.ShloMosaic.Lib.ValueIdx
import proofs.«140554_j24747601560016_1_alg».proof.Proof.PairCount

noncomputable section

open scoped BigOperators

namespace Cert.PairProducts

open Idealize.ShloMosaic Idealize.ShloMosaic.ValueIdx

abbrev SX : Shape := ⟨3, ![2048, 40, 128]⟩
abbrev SW : Shape := ⟨2, ![128, 128]⟩
abbrev SO : Shape := ⟨3, ![2048, 780, 128]⟩

/-- The first field of the p-th pair. -/
def fieldI (p : Fin 780) : Fin 40 := ⟨(pairAt p.val).1, by have := pairAt_lt p.val p.isLt; omega⟩
/-- The second field of the p-th pair. -/
def fieldJ (p : Fin 780) : Fin 40 := ⟨(pairAt p.val).2, (pairAt_lt p.val p.isLt).2⟩

/-- Field f of sample b projected through W, at column d. -/
def proj (x : SX.Idx → EReal) (W : SW.Idx → EReal) (b : Fin 2048) (f : Fin 40) (d : Fin 128) : EReal :=
  ∑ e : Fin 128, x (ix3 b f e) * W (ix2 e d)

/-- The result at sample b, pair p, column d. -/
def pairProdAt (x : SX.Idx → EReal) (W : SW.Idx → EReal) (b : Fin 2048) (p : Fin 780) (d : Fin 128) : EReal :=
  x (ix3 b (fieldI p) d) * proj x W b (fieldJ p) d

/-- The whole result array. -/
def pairProd (x : SX.Idx → EReal) (W : SW.Idx → EReal) : SO.Idx → EReal :=
  fun i => pairProdAt x W (i 0) (i 1) (i 2)

theorem pairProd_ix3 (x : SX.Idx → EReal) (W : SW.Idx → EReal) (b : Fin 2048) (p : Fin 780) (d : Fin 128) :
    pairProd x W (ix3 b p d) = pairProdAt x W b p d := rfl

end Cert.PairProducts

end
-- ==== Proof.Projection.lean ====
/-
  The projection of a field's row through W, read at one entry, on both sides. The reference contracts the last
  axis of x[2048, 40, 128] with the first of W[128, 128]; the kernel flattens a block of 16 samples to 640 rows,
  multiplies by W into a zero accumulator, and folds the rows back to [16, 40, 128]. Either way the entry at
  (b, f, d) is Σ_e x[b, f, e] · W[e, d]: a change of float format is the identity here, and row 40 b + f of the
  flattened block is row f of sample b.
-/
import proofs.«140554_j24747601560016_1_alg».proof.Proof.Gen.KernelIdeal.Skeleton
import proofs.«140554_j24747601560016_1_alg».proof.Proof.Gen.ReferenceIdeal
import proofs.«140554_j24747601560016_1_alg».proof.Proof.Spec
import Idealize.ShloMosaic.PureOps.Ideal.Laws
import Idealize.ShloMosaic.Lib.ValueIdx
import Idealize.ShloMosaic.Lib.Pipeline.Value

noncomputable section

open scoped BigOperators

namespace Cert.PairProducts.Projection

open Idealize.ShloMosaic Idealize.ShloMosaic.ValueIdx Cert.PairProducts

/-! ## The reference's dimension numbers, axis by axis -/

local notation "DR" => Cert.ReferenceIdeal.dot_S2048x40x128_S128x128_S2048x40x128_2_0_01_1_n_n

private theorem DR_rank : (DR).contr.rank = 1 := rfl
private theorem DR_size : (DR).contr.size ⟨0, by rw [DR_rank]; exact Nat.one_pos⟩ = 128 := rfl

/-- Axis 0 of the left operand is a free axis: it reads the result's axis 0. -/
private theorem r_lhs_0 (j : Cert.ReferenceIdeal.S2048x40x128.Idx) (k : (DR).contr.Idx) :
    ((DR).lhsIdx j k 0).val = (j 0).val := by
  unfold DotDims.lhsIdx
  rw [dif_neg (show ¬ (0 : Fin Cert.ReferenceIdeal.S2048x40x128.rank) ∈ (DR).lhsBatch by decide),
    dif_pos (show (0 : Fin Cert.ReferenceIdeal.S2048x40x128.rank) ∈ (DR).lhsNonContracting by decide)]
  rfl

/-- Axis 1 of the left operand is a free axis: it reads the result's axis 1. -/
private theorem r_lhs_1 (j : Cert.ReferenceIdeal.S2048x40x128.Idx) (k : (DR).contr.Idx) :
    ((DR).lhsIdx j k 1).val = (j 1).val := by
  unfold DotDims.lhsIdx
  rw [dif_neg (show ¬ (1 : Fin Cert.ReferenceIdeal.S2048x40x128.rank) ∈ (DR).lhsBatch by decide),
    dif_pos (show (1 : Fin Cert.ReferenceIdeal.S2048x40x128.rank) ∈ (DR).lhsNonContracting by decide)]
  rfl

/-- Axis 2 of the left operand is the contracted one: it reads the contraction position. -/
private theorem r_lhs_2 (j : Cert.ReferenceIdeal.S2048x40x128.Idx) (k : (DR).contr.Idx) :
    ((DR).lhsIdx j k 2).val = (k ⟨0, by rw [DR_rank]; exact Nat.one_pos⟩).val :=
  (DR).lhsIdx_val_of_single (cl := 2) rfl j k

/-- Axis 0 of the right operand is the contracted one. -/
private theorem r_rhs_0 (j : Cert.ReferenceIdeal.S2048x40x128.Idx) (k : (DR).contr.Idx) :
    ((DR).rhsIdx j k 0).val = (k ⟨0, by rw [DR_rank]; exact Nat.one_pos⟩).val :=
  (DR).rhsIdx_val_of_single (cr := 0) rfl j k

/-- Axis 1 of the right operand is a free axis: it reads the result's last axis. -/
private theorem r_rhs_1 (j : Cert.ReferenceIdeal.S2048x40x128.Idx) (k : (DR).contr.Idx) :
    ((DR).rhsIdx j k 1).val = (j 2).val := by
  unfold DotDims.rhsIdx
  rw [dif_neg (show ¬ (1 : Fin Cert.ReferenceIdeal.S128x128.rank) ∈ (DR).rhsBatch by decide),
    dif_pos (show (1 : Fin Cert.ReferenceIdeal.S128x128.rank) ∈ (DR).rhsNonContracting by decide)]
  rfl

/-- The reference's contraction at an entry. -/
theorem ref_proj (x : FVec Ideal Cert.ReferenceIdeal.S2048x40x128 .f32) (W : FVec Ideal Cert.ReferenceIdeal.S128x128 .f32)
    (b : Fin 2048) (f : Fin 40) (d : Fin 128) :
    Host.dotGeneral Cert.ReferenceIdeal.dot_S2048x40x128_S128x128_S2048x40x128_2_0_01_1_n_n none x W (ix3 b f d)
      = ∑ e : Fin 128, x (ix3 b f e) * W (ix2 e d) := by
  simp only [Host.dotGeneral]
  refine (Ideal.dotGeneral_apply (DR) _ _ x W (ix3 b f d)).trans ?_
  -- the contraction shape has one axis of extent 128: sum over its coordinate instead
  rw [← Equiv.sum_comp (contrEquiv1 (DR) 128 DR_rank DR_size).symm]
  refine Finset.sum_congr rfl fun e _ => ?_
  have hk : (((contrEquiv1 (DR) 128 DR_rank DR_size).symm e) ⟨0, by rw [DR_rank]; exact Nat.one_pos⟩ : ℕ) = e.val :=
    contrEquiv1_symm_val (DR) 128 DR_rank DR_size e
  have hl : (DR).lhsIdx (ix3 b f d) ((contrEquiv1 (DR) 128 DR_rank DR_size).symm e) = ix3 b f e := by
    funext a; apply Fin.ext
    match a with
    | ⟨0, _⟩ => exact r_lhs_0 _ _
    | ⟨1, _⟩ => exact r_lhs_1 _ _
    | ⟨2, _⟩ => exact (r_lhs_2 _ _).trans hk
  have hr : (DR).rhsIdx (ix3 b f d) ((contrEquiv1 (DR) 128 DR_rank DR_size).symm e) = ix2 e d := by
    funext a; apply Fin.ext
    match a with
    | ⟨0, _⟩ => exact (r_rhs_0 _ _).trans hk
    | ⟨1, _⟩ => exact r_rhs_1 _ _
  rw [hl, hr]

/-! ## The kernel's dimension numbers, axis by axis -/

local notation "DK" => Cert.KernelIdeal.dot_S640x128_S128x128_S640x128_1_0_0_1_n_n

private theorem DK_rank : (DK).contr.rank = 1 := rfl
private theorem DK_size : (DK).contr.size ⟨0, by rw [DK_rank]; exact Nat.one_pos⟩ = 128 := rfl

/-- Axis 0 of the left operand is a free axis: it reads the result's row. -/
private theorem k_lhs_0 (j : Cert.KernelIdeal.S640x128.Idx) (k : (DK).contr.Idx) :
    ((DK).lhsIdx j k 0).val = (j 0).val := by
  unfold DotDims.lhsIdx
  rw [dif_neg (show ¬ (0 : Fin Cert.KernelIdeal.S640x128.rank) ∈ (DK).lhsBatch by decide),
    dif_pos (show (0 : Fin Cert.KernelIdeal.S640x128.rank) ∈ (DK).lhsNonContracting by decide)]
  rfl

/-- Axis 1 of the left operand is the contracted one: it reads the contraction position. -/
private theorem k_lhs_1 (j : Cert.KernelIdeal.S640x128.Idx) (k : (DK).contr.Idx) :
    ((DK).lhsIdx j k 1).val = (k ⟨0, by rw [DK_rank]; exact Nat.one_pos⟩).val :=
  (DK).lhsIdx_val_of_single (cl := 1) rfl j k

/-- Axis 0 of the right operand is the contracted one. -/
private theorem k_rhs_0 (j : Cert.KernelIdeal.S640x128.Idx) (k : (DK).contr.Idx) :
    ((DK).rhsIdx j k 0).val = (k ⟨0, by rw [DK_rank]; exact Nat.one_pos⟩).val :=
  (DK).rhsIdx_val_of_single (cr := 0) rfl j k

/-- Axis 1 of the right operand is a free axis: it reads the result's column. -/
private theorem k_rhs_1 (j : Cert.KernelIdeal.S640x128.Idx) (k : (DK).contr.Idx) :
    ((DK).rhsIdx j k 1).val = (j 1).val := by
  unfold DotDims.rhsIdx
  rw [dif_neg (show ¬ (1 : Fin Cert.KernelIdeal.S128x128.rank) ∈ (DK).rhsBatch by decide),
    dif_pos (show (1 : Fin Cert.KernelIdeal.S128x128.rank) ∈ (DK).rhsNonContracting by decide)]
  rfl

/-- Entry (40 b + f, c) of the flattened [640, 128] block and entry (b, f, c) of the [16, 40, 128] block sit at the
    same row-major position. -/
private theorem flat_pos (b : Fin 16) (f : Fin 40) (c : Fin 128) (hrow : 40 * b.val + f.val < 640) :
    (Cert.KernelIdeal.S640x128.rowMajor (ix2 (⟨40 * b.val + f.val, hrow⟩ : Fin 640) c)).val
      = (Cert.KernelIdeal.S16x40x128.rowMajor (ix3 b f c)).val := by
  rw [Shape.rowMajor_val_two, Shape.rowMajor_val_three]
  show (40 * b.val + f.val) * 128 + c.val = (b.val * 40 + f.val) * 128 + c.val
  omega

/-- The kernel's projected block at an entry. -/
theorem kernel_proj (x0 : Vec Ideal Cert.KernelIdeal.S16x40x128 .f32) (x1 : Vec Ideal Cert.KernelIdeal.S128x128 .f32)
    (b : Fin 16) (f : Fin 40) (d : Fin 128) :
    Cert.KernelIdeal.Gen.k0_pay2 (F := Ideal) x0 x1 (ix3 b f d) = ∑ e : Fin 128, x0 (ix3 b f e) * x1 (ix2 e d) := by
  have hrow : 40 * b.val + f.val < 640 := by have := b.isLt; have := f.isLt; omega
  unfold Cert.KernelIdeal.Gen.k0_pay2
  -- folding the rows back: entry (b, f, d) is row 40 b + f, column d of the product
  refine (shapeCast_apply _ _ (ix3 b f d) (ix2 (⟨40 * b.val + f.val, hrow⟩ : Fin 640) d) (flat_pos b f d hrow)).trans ?_
  -- the product into a zero accumulator is the contraction's sum
  simp only [matmul]
  refine (Ideal.matmul_constant_zero_apply (DK) none _ _ (ix2 (⟨40 * b.val + f.val, hrow⟩ : Fin 640) d)).trans ?_
  -- the contraction shape has one axis of extent 128: sum over its coordinate instead
  rw [← Equiv.sum_comp (contrEquiv1 (DK) 128 DK_rank DK_size).symm]
  refine Finset.sum_congr rfl fun e _ => ?_
  have hk : (((contrEquiv1 (DK) 128 DK_rank DK_size).symm e) ⟨0, by rw [DK_rank]; exact Nat.one_pos⟩ : ℕ) = e.val :=
    contrEquiv1_symm_val (DK) 128 DK_rank DK_size e
  have hl : (DK).lhsIdx (ix2 (⟨40 * b.val + f.val, hrow⟩ : Fin 640) d) ((contrEquiv1 (DK) 128 DK_rank DK_size).symm e)
      = ix2 (⟨40 * b.val + f.val, hrow⟩ : Fin 640) e := by
    funext a; apply Fin.ext
    match a with
    | ⟨0, _⟩ => exact k_lhs_0 _ _
    | ⟨1, _⟩ => exact (k_lhs_1 _ _).trans hk
  have hr : (DK).rhsIdx (ix2 (⟨40 * b.val + f.val, hrow⟩ : Fin 640) d) ((contrEquiv1 (DK) 128 DK_rank DK_size).symm e)
      = ix2 e d := by
    funext a; apply Fin.ext
    match a with
    | ⟨0, _⟩ => exact (k_rhs_0 _ _).trans hk
    | ⟨1, _⟩ => exact k_rhs_1 _ _
  rw [hl, hr]
  -- flattening: row 40 b + f of the flattened block is row f of sample b; the format change is the identity
  refine congrArg₂ (· * ·) ?_ rfl
  exact shapeCast_apply _ _ (ix2 (⟨40 * b.val + f.val, hrow⟩ : Fin 640) e) (ix3 b f e) (flat_pos b f e hrow).symm

end Cert.PairProducts.Projection

end
-- ==== Proof.KernelBlock.lean ====
/-
  What one grid step of the kernel leaves in its output block, read at one entry. The body loads a block of 16
  samples and W, projects every field's row through W in one product, cuts the block and the projection into their
  40 field rows, multiplies row i of the block by row j of the projection for each of the 780 pairs (i, j), i < j,
  in lexicographic order, and lays the 780 products side by side along the middle axis. So entry (b, p, d) of the
  block is x[b, i, d] · Σ_e x[b, j, e] · W[e, d] for the p-th pair (i, j).
-/
import proofs.«140554_j24747601560016_1_alg».proof.Proof.KernelIdealFrame
import proofs.«140554_j24747601560016_1_alg».proof.Proof.Projection
import proofs.«140554_j24747601560016_1_alg».proof.Proof.Spec
import Idealize.ShloMosaic.Lib.Pipeline.Value
import Idealize.ShloMosaic.Lib.ValueIdx

noncomputable section

open scoped BigOperators

namespace Cert.PairProducts.KernelBlock

open Cert.KernelIdeal Cert.KernelIdeal.Gen Cert.KernelIdeal.GenP Idealize.ShloMosaic Idealize.ShloMosaic.ValueIdx Cert.PairProducts

theorem hz3 : (![0, 0, 0] : Fin 3 → Nat) = fun _ => 0 := funext fun a => by fin_cases a <;> rfl
theorem hz2 : (![0, 0] : Fin 2 → Nat) = fun _ => 0 := funext fun a => by fin_cases a <;> rfl

/-- Row f of the block's middle axis is a block of it: one row of 40. -/
theorem fieldSlice (f : Fin 40) : S16x40x128.Slices ![0, f.val, 0] S16x1x128 :=
  ⟨rfl, fun a => by
    have hf := f.isLt
    match a with
    | ⟨0, _⟩ => show 0 + 16 ≤ 16; omega
    | ⟨1, _⟩ => show f.val + 1 ≤ 40; omega
    | ⟨2, _⟩ => show 0 + 128 ≤ 128; omega⟩

/-- The p-th product: the first field's row of the block times the second field's row of the projection. -/
def piece (x0 : Vec Ideal S16x40x128 .f32) (x1 : Vec Ideal S128x128 .f32) (p : Fin 780) : FVec Ideal S16x1x128 .f32 :=
  mulf (extractStridedSlice S16x1x128 ![0, (fieldI p).val, 0] x0 (fieldSlice (fieldI p)))
    (extractStridedSlice S16x1x128 ![0, (fieldJ p).val, 0] (k0_pay2 (F := Ideal) x0 x1) (fieldSlice (fieldJ p)))

/-- The 780 products, each one row thick, fill the middle axis of the output block. -/
theorem pieces_fill (x0 : Vec Ideal S16x40x128 .f32) (x1 : Vec Ideal S128x128 .f32) :
    Shape.Concatenates ((List.ofFn fun p : Fin 780 => (⟨S16x1x128, piece x0 x1 p⟩ : (s : Shape) × (s.Idx → EReal))).map (·.1))
      S16x780x128 1 := by
  have hm : (List.ofFn fun p : Fin 780 => (⟨S16x1x128, piece x0 x1 p⟩ : (s : Shape) × (s.Idx → EReal))).map (·.1)
      = List.replicate 780 S16x1x128 := by
    rw [List.map_ofFn]
    exact List.ofFn_const 780 S16x1x128
  rw [hm]
  refine ⟨by simp, fun s hs => ?_, ?_⟩
  · obtain rfl := List.eq_of_mem_replicate hs
    refine ⟨rfl, fun b hb => ?_⟩
    match b with
    | ⟨0, _⟩ => rfl
    | ⟨1, _⟩ => exact absurd rfl hb
    | ⟨2, _⟩ => rfl
  · rw [List.map_replicate, List.sum_replicate]
    rfl

set_option maxRecDepth 100000 in
set_option maxHeartbeats 0 in
/-- What the body stores is the 780 products laid side by side: the printed list of products, pair by pair, is the
    list of the pieces (each printed row offset is the pair table's entry). -/
theorem out_eq (x0 : Vec Ideal S16x40x128 .f32) (x1 : Vec Ideal S128x128 .f32) :
    out0_2 (F := Ideal) x0 x1
      = concatenate S16x780x128 1 (List.ofFn fun p : Fin 780 => (⟨S16x1x128, piece x0 x1 p⟩ : (s : Shape) × (s.Idx → EReal)))
          (pieces_fill x0 x1) := by
  unfold out0_2
  rw [View.canon_unit_zero hz3]
  simp only [View.ld_unit_zero (S := S16x40x128) hz3, View.ld_unit_zero (S := S128x128) hz2]
  rfl

/-- The output block at sample b, pair p, column d. -/
theorem block_apply (x0 : Vec Ideal S16x40x128 .f32) (x1 : Vec Ideal S128x128 .f32) (b : Fin 16) (p : Fin 780) (d : Fin 128) :
    out0_2 (F := Ideal) x0 x1 (ix3 b p d)
      = x0 (ix3 b (fieldI p) d) * ∑ e : Fin 128, x0 (ix3 b (fieldJ p) e) * x1 (ix2 e d) := by
  rw [out_eq]
  have h := concatenate_ofFn_unit_apply (t := S16x780x128) (s₁ := S16x1x128) (1 : Fin 3) (piece x0 x1) (pieces_fill x0 x1)
    rfl rfl (ix3 b p d) p rfl (ix3 b (0 : Fin 1) d) (fun a ha => by
      match a with
      | ⟨0, _⟩ => rfl
      | ⟨1, _⟩ => exact absurd rfl ha
      | ⟨2, _⟩ => rfl)
  rw [h]
  show (extractStridedSlice S16x1x128 ![0, (fieldI p).val, 0] x0 (fieldSlice (fieldI p)) (ix3 b (0 : Fin 1) d))
      * (extractStridedSlice S16x1x128 ![0, (fieldJ p).val, 0] (k0_pay2 (F := Ideal) x0 x1) (fieldSlice (fieldJ p)) (ix3 b (0 : Fin 1) d)) = _
  rw [extractStridedSlice_apply _ _ _ _ (ix3 b (fieldI p) d) (fun a => by
        match a with
        | ⟨0, _⟩ => show b.val = 0 + b.val; omega
        | ⟨1, _⟩ => show (fieldI p).val = (fieldI p).val + 0; omega
        | ⟨2, _⟩ => show d.val = 0 + d.val; omega),
    extractStridedSlice_apply _ _ _ _ (ix3 b (fieldJ p) d) (fun a => by
        match a with
        | ⟨0, _⟩ => show b.val = 0 + b.val; omega
        | ⟨1, _⟩ => show (fieldJ p).val = (fieldJ p).val + 0; omega
        | ⟨2, _⟩ => show d.val = 0 + d.val; omega),
    Projection.kernel_proj]

end Cert.PairProducts.KernelBlock

end
-- ==== Proof.KernelArray.lean ====
/-
  From the kernel's blocks to its result array. Grid step t stages rows 16 t … 16 t + 15 of x and all of W, and
  writes back rows 16 t … 16 t + 15 of the result; what it writes is the specification's array read through that
  block, because an entry of the block depends only on the same sample's rows of x. The 128 steps' blocks tile the
  2048 samples, so after the run the result array is the specification's, and the two arguments are as launched.
-/
import proofs.«140554_j24747601560016_1_alg».proof.Proof.KernelBlock
import Idealize.ShloMosaic.Lib.Pipeline.Value

noncomputable section

open scoped BigOperators

namespace Cert.PairProducts.KernelArray

open Cert.KernelIdeal Cert.KernelIdeal.Gen Cert.KernelIdeal.GenP Idealize.ShloMosaic Idealize.ShloMosaic.TcCoe Idealize.SL.Sem
open Idealize.ShloMosaic.ValueIdx Cert.PairProducts
open Idealize.ShloMosaic.Pipeline (Dat)

variable (m : (ℓ : Loc nD τ sig) → Buf (Elt Ideal) ℓ) (ρ : Dev nD → PrngReg)

/-- The printed index maps over the grid: the x window and the result window move one block of samples per step,
    the W window stays. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem N_eq : cfg0.N = 128 := N_0

/-! ## The frame run, its arrays named -/

/-- What step t writes back to the result window's array: the body's result of the two input blocks at t, read
    through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- After the frame run the result window's array is what the proof data computes from the blocks written back. -/
theorem post2 (r : PUnit × MemSt nD τ sig (Elt Ideal)) (h : Pipeline.FramePost cfgs (dats m) 0 (V m) r) (c : Dev nD) :
    r.2.mem ((c : Thread nD τ).loc main_v0) = (dats m 0 c).arrAt 2 cfg0.N :=
  (h c).1 2

/-- After the frame run x is as launched: its window stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run W is as launched. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with the result array named, the arguments unchanged. -/
theorem run_blocks : θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c, kept_main_arg0 m r h c, kept_main_arg1 m r h c⟩) (run_main m ρ)

/-! ## The blocks are the specification's -/

/-- The x block at step t holds samples 16 t … 16 t + 15. -/
theorem xblk_apply (c : Dev nD) (t : Fin cfg0.N) (b : Fin 16) (f : Fin 40) (d : Fin 128) (hb : 16 * t.val + b.val < 2048) :
    (iblk m c 0 t : Vec Ideal S16x40x128 .f32) (ix3 b f d)
      = (V m c main_arg0 : S2048x40x128.Idx → EReal) (ix3 ⟨16 * t.val + b.val, hb⟩ f d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 16 + 1 * b.val = 16 * t.val + b.val; rw [e0]; omega
  | ⟨1, _⟩ => show win0_0.index t (1 : Fin 3) * 40 + 1 * f.val = f.val; rw [e1]; omega
  | ⟨2, _⟩ => show win0_0.index t (2 : Fin 3) * 128 + 1 * d.val = d.val; rw [e2]; omega

/-- The W block at every step is all of W. -/
theorem wblk_apply (c : Dev nD) (t : Fin cfg0.N) (e : Fin 128) (d : Fin 128) :
    (iblk m c 1 t : Vec Ideal S128x128 .f32) (ix2 e d) = (V m c main_arg1 : S128x128.Idx → EReal) (ix2 e d) := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 128 + 1 * e.val = e.val; rw [e0]; omega
  | ⟨1, _⟩ => show win0_1.index t (1 : Fin 2) * 128 + 1 * d.val = d.val; rw [e1]; omega

/-- What step t writes back is block t of the specification's array of the arguments as the region finds them. -/
theorem flushed_eq (c : Dev nD) (t : Fin cfg0.N) :
    (dats m 0 c).flushed 2 t
      = ((cfg0.win 2).blk t).view.read (Elt Ideal) (pairProd (V m c main_arg0) (V m c main_arg1)) := by
  rw [flushed2]
  obtain ⟨-, -, -, -, -, e20, e21, e22⟩ := idx_facts t
  have ht : t.val < 128 := lt_of_lt_of_eq t.isLt N_eq
  funext j
  obtain ⟨b, p, d, rfl⟩ : ∃ (b : Fin 16) (p : Fin 780) (d : Fin 128), j = ix3 b p d := ⟨j 0, j 1, j 2, eq_ix3 j⟩
  have hb : 16 * t.val + b.val < 2048 := by have := b.isLt; omega
  show out0_2 (F := Ideal) (iblk m c 0 t) (iblk m c 1 t) (ix3 b p d)
      = pairProd (V m c main_arg0) (V m c main_arg1) (((cfg0.win 2).blk t).view.emb (ix3 b p d))
  have hemb : ((cfg0.win 2).blk t).view.emb (ix3 b p d) = (ix3 ⟨16 * t.val + b.val, hb⟩ p d : S2048x780x128.Idx) := by
    funext a
    apply Fin.ext
    match a with
    | ⟨0, _⟩ => show win0_2.index t (0 : Fin 3) * 16 + 1 * b.val = 16 * t.val + b.val; rw [e20]; omega
    | ⟨1, _⟩ => show win0_2.index t (1 : Fin 3) * 780 + 1 * p.val = p.val; rw [e21]; omega
    | ⟨2, _⟩ => show win0_2.index t (2 : Fin 3) * 128 + 1 * d.val = d.val; rw [e22]; omega
  rw [hemb, pairProd_ix3]
  refine (KernelBlock.block_apply (iblk m c 0 t) (iblk m c 1 t) b p d).trans ?_
  simp only [fun f e => xblk_apply m c t b f e hb, wblk_apply m c t]
  rfl

/-- An index of the array is in step t's block iff each coordinate is in the block's range on its axis. -/
theorem mem_blk (t : Fin cfg0.N) (i : S2048x780x128.Idx) :
    i ∈ ((cfg0.win 2).blk t).view.set ↔ ∀ a : Fin 3, win0_2.index t a * S16x780x128.size a ≤ (i a).val
      ∧ (i a).val < win0_2.index t a * S16x780x128.size a + S16x780x128.size a := by
  show i ∈ ((View.whole main_v0).slice (win0_2.rect t)).set ↔ _
  rw [View.set_slice_whole, Rect.mem_set_unit]
  exact Iff.rfl

/-- Every entry of the result array is in some step's block: sample s in step s / 16's. -/
theorem covered (i : S2048x780x128.Idx) :
    ∃ t : Fin cfg0.N, (cfg0.win 2).flush t = true ∧ i ∈ ((cfg0.win 2).blk t).view.set := by
  have hi0 : (i 0).val < 2048 := (i 0).isLt
  have hi1 : (i 1).val < 780 := (i 1).isLt
  have hi2 : (i 2).val < 128 := (i 2).isLt
  have ht : (i 0).val / 16 < cfg0.N := by rw [N_eq]; omega
  obtain ⟨-, -, -, -, -, e20, e21, e22⟩ := idx_facts ⟨(i 0).val / 16, ht⟩
  refine ⟨⟨(i 0).val / 16, ht⟩, flush0_2 _, ?_⟩
  rw [mem_blk]
  intro a
  match a with
  | ⟨0, _⟩ =>
    show win0_2.index ⟨(i 0).val / 16, ht⟩ (0 : Fin 3) * 16 ≤ (i 0).val
      ∧ (i 0).val < win0_2.index ⟨(i 0).val / 16, ht⟩ (0 : Fin 3) * 16 + 16
    rw [e20]; show (i 0).val / 16 * 16 ≤ (i 0).val ∧ (i 0).val < (i 0).val / 16 * 16 + 16; omega
  | ⟨1, _⟩ =>
    show win0_2.index ⟨(i 0).val / 16, ht⟩ (1 : Fin 3) * 780 ≤ (i 1).val
      ∧ (i 1).val < win0_2.index ⟨(i 0).val / 16, ht⟩ (1 : Fin 3) * 780 + 780
    rw [e21]; omega
  | ⟨2, _⟩ =>
    show win0_2.index ⟨(i 0).val / 16, ht⟩ (2 : Fin 3) * 128 ≤ (i 2).val
      ∧ (i 2).val < win0_2.index ⟨(i 0).val / 16, ht⟩ (2 : Fin 3) * 128 + 128
    rw [e22]; omega

/-- The result array after the run is the specification's array of the arguments as launched. -/
theorem final (c : Dev nD) :
    (dats m 0 c).arrAt 2 cfg0.N
      = pairProd (m ((c : Thread nD τ).loc main_arg0)) (m ((c : Thread nD τ).loc main_arg1)) := by
  have h := (dats m 0 c).arrAt_eq_of_cover 2 (pairProd (V m c main_arg0) (V m c main_arg1))
    (fun t _ => flushed_eq m c t) covered
  rw [h, V_main_arg0, V_main_arg1]

/-- The kernel's run, read: the result array at the specification's value, the arguments unchanged. -/
theorem run : θ_run defs (onTc (τ := τ) (main (F := Ideal))) ⟨m, fun _ => 0, ρ⟩ fun r => ∀ c : Dev nD,
      r.2.mem ((c : Thread nD τ).loc main_v0)
          = pairProd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (run_blocks m ρ)

end Cert.PairProducts.KernelArray

end
-- ==== Proof.RefOps.lean ====
/- GENERATED by a script of this unit (a table, no argument): bun scratch/gen_refops.mjs <unit dir> 140554_j24747601560016_1_alg proof/Proof/RefOps.lean -- the reference program's 137 host operations in order,
   every module-local function inlined at its call over that call's buffer record, and per buffer the value its operation leaves there as a
   function of the two argument arrays. -/
import proofs.«140554_j24747601560016_1_alg».proof.ReferenceIdeal
import proofs.«140554_j24747601560016_1_alg».proof.Proof.Gen.ReferenceIdeal
import Idealize.ShloMosaic.Lib.StableHlo.Run

noncomputable section

namespace Cert.ReferenceIdeal.Listed

open Cert.ReferenceIdeal Cert.ReferenceIdeal.Gen Idealize.ShloMosaic Idealize.ShloMosaic.TcCoe Idealize.SL.Sem Idealize.ShloMosaic.StableHlo

section Ops
variable {F : FTy → Type} [FloatOps F]

/-- @main's operations, in order, calls inlined. -/
abbrev ops : List (HloOp τ sig (Elt F)) :=
  [ binary main_arg0 main_arg1 main_v0 ((fun l r => Host.dotGeneral dot_S2048x40x128_S128x128_S2048x40x128_2_0_01_1_n_n none l r) : (⟨S2048x40x128, .f32⟩ : BufTy).Contents (Elt F) → (⟨S128x128, .f32⟩ : BufTy).Contents (Elt F) → (⟨S2048x40x128, .f32⟩ : BufTy).Contents (Elt F)),
    nullary main_cst (constant S_ .f32 0x3F800000#32),
    unary main_cst main_v1 (broadcastInDim S40x40 ![] bcast_S_S40x40 : (⟨S_, .f32⟩ : BufTy).Contents (Elt F) → (⟨S40x40, .f32⟩ : BufTy).Contents (Elt F)),
    TRef.nullary main_call0.v0 (iotaInDim S40x40 32 0),
    TRef.nullary main_call0.c (constantI S_ 32 0#32),
    TRef.unary main_call0.c main_call0.v1 (broadcastInDim S40x40 ![] bcast_S_S40x40),
    TRef.binary main_call0.v0 main_call0.v1 main_call0.v2 addi,
    TRef.nullary main_call0.v3 (iotaInDim S40x40 32 1),
    TRef.binary main_call0.v2 main_call0.v3 main_call0.v4 (cmpi .sge),
    TRef.nullary main_call0.cst (constant S_ .f32 0x00000000#32),
    TRef.unary main_call0.cst main_call0.v5 (broadcastInDim S40x40 ![] bcast_S_S40x40),
    TRef.ternary main_call0.v4 main_call0.v5 ((.of main_v1) : TRef sig ⟨S40x40, .f32⟩) main_call0.v6 select,
    nullary main_cst_0 (constant S_ .f32 0x00000000#32),
    unary main_cst_0 main_v3 (broadcastInDim S40x40 ![] bcast_S_S40x40 : (⟨S_, .f32⟩ : BufTy).Contents (Elt F) → (⟨S40x40, .f32⟩ : BufTy).Contents (Elt F)),
    binary main_v2 main_v3 main_v4 (cmpf .une : (⟨S40x40, .f32⟩ : BufTy).Contents (Elt F) → (⟨S40x40, .f32⟩ : BufTy).Contents (Elt F) → (⟨S40x40, .i1⟩ : BufTy).Contents (Elt F)),
    TRef.reshape ((.of main_v4) : TRef sig ⟨S40x40, .i1⟩) main_call1.v0 rfl shapeCasts_S40x40_S1600,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1600] ![1] ![1599] ![0] x v reduceWindows_S1600_S1600_w1600s1p1599_0 h_S_),
    nullary main_c (constantI S_ 32 0#32),
    unary main_c main_v6 (broadcastInDim S780 ![] bcast_S_S780 : (⟨S_, .i32⟩ : BufTy).Contents (Elt F) → (⟨S780, .i32⟩ : BufTy).Contents (Elt F)),
    nullary main_c_1 (constantI S_ 32 0#32),
    TRef.unary ((.of main_c_1) : TRef sig ⟨S_, .i32⟩) main_call2.v0 id,
    TRef.unary main_call2.v0 main_call2.v1 (broadcastInDim S1600 ![] bcast_S_S1600),
    TRef.binary main_call2.v1 ((.of main_v5) : TRef sig ⟨S1600, .i32⟩) main_call2.v2 maxsi,
    nullary main_c_2 (constantI S_ 32 0#32),
    unary main_c_2 main_v8 (broadcastInDim S1600 ![] bcast_S_S1600 : (⟨S_, .i32⟩ : BufTy).Contents (Elt F) → (⟨S1600, .i32⟩ : BufTy).Contents (Elt F)),
    binary main_v7 main_v8 main_v9 (cmpi .slt : (⟨S1600, .i32⟩ : BufTy).Contents (Elt F) → (⟨S1600, .i32⟩ : BufTy).Contents (Elt F) → (⟨S1600, .i1⟩ : BufTy).Contents (Elt F)),
    nullary main_c_3 (constantI S_ 32 780#32),
    unary main_c_3 main_v10 (broadcastInDim S1600 ![] bcast_S_S1600 : (⟨S_, .i32⟩ : BufTy).Contents (Elt F) → (⟨S1600, .i32⟩ : BufTy).Contents (Elt F)),
    binary main_v7 main_v10 main_v11 (addi : (⟨S1600, .i32⟩ : BufTy).Contents (Elt F) → (⟨S1600, .i32⟩ : BufTy).Contents (Elt F) → (⟨S1600, .i32⟩ : BufTy).Contents (Elt F)),
    ternary main_v9 main_v11 main_v7 main_v12 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v12 main_v13 (broadcastInDim S1600x1 ![0] bcast_S1600_S1600x1_0 : (⟨S1600, .i32⟩ : BufTy).Contents (Elt F) → (⟨S1600x1, .i32⟩ : BufTy).Contents (Elt F)),
    nullary main_c_4 (constantI S_ 32 1#32),
    unary main_c_4 main_v14 (broadcastInDim S1600 ![] bcast_S_S1600 : (⟨S_, .i32⟩ : BufTy).Contents (Elt F) → (⟨S1600, .i32⟩ : BufTy).Contents (Elt F)),
    ternary main_v6 main_v13 main_v14 main_v15 ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)),
    TRef.nullary main_call3.call0.c (constantI S_ 32 0#32),
    TRef.unary main_call3.call0.c main_call3.call0.v0 (broadcastInDim S_ ![] bcast_S_S_),
    TRef.binary ((.of main_v15) : TRef sig ⟨S780, .i32⟩) main_call3.call0.v0 main_call3.call0.v1 (fun x v => Host.reduceWindow IntOp.addi ![780] ![1] ![779] ![0] x v reduceWindows_S780_S780_w780s1p779_0 h_S_),
    nullary main_c_5 (constantI S_ 32 40#32),
    TRef.unary ((.of main_c_5) : TRef sig ⟨S_, .i32⟩) main_call4.v0 (broadcastInDim S780 ![] bcast_S_S780),
    TRef.binary ((.of main_v16) : TRef sig ⟨S780, .i32⟩) main_call4.v0 main_call4.v1 Host.divsi,
    TRef.unary ((.of main_v16) : TRef sig ⟨S780, .i32⟩) main_call4.v2 signi,
    TRef.unary ((.of main_c_5) : TRef sig ⟨S_, .i32⟩) main_call4.v3 signi,
    TRef.unary main_call4.v3 main_call4.v4 (broadcastInDim S780 ![] bcast_S_S780),
    TRef.binary main_call4.v2 main_call4.v4 main_call4.v5 (cmpi .ne),
    TRef.unary ((.of main_c_5) : TRef sig ⟨S_, .i32⟩) main_call4.v6 (broadcastInDim S780 ![] bcast_S_S780),
    TRef.binary ((.of main_v16) : TRef sig ⟨S780, .i32⟩) main_call4.v6 main_call4.v7 Host.remsi,
    TRef.nullary main_call4.c (constantI S_ 32 0#32),
    TRef.unary main_call4.c main_call4.v8 (broadcastInDim S780 ![] bcast_S_S780),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S780 ![] bcast_S_S780),
    TRef.binary main_call4.v1 main_call4.v11 main_call4.v12 subi,
    TRef.ternary main_call4.v10 main_call4.v12 main_call4.v1 main_call4.call0.v0 select,
    nullary main_c_6 (constantI S_ 32 40#32),
    TRef.unary ((.of main_c_6) : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S780 ![] bcast_S_S780),
    TRef.binary ((.of main_v17) : TRef sig ⟨S780, .i32⟩) main_call5.v3 main_call5.v4 Host.remsi,
    TRef.nullary main_call5.c_1 (constantI S_ 32 0#32),
    TRef.unary main_call5.c_1 main_call5.v5 (broadcastInDim S780 ![] bcast_S_S780),
    TRef.binary main_call5.v4 main_call5.v5 main_call5.v6 (cmpi .ne),
    TRef.nullary main_call5.c_2 (constantI S_ 32 0#32),
    TRef.unary main_call5.c_2 main_call5.v7 (broadcastInDim S780 ![] bcast_S_S780),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S780 ![] bcast_S_S780),
    TRef.binary main_call5.v8 main_call5.v10 main_call5.v11 (cmpi .ne),
    TRef.binary main_call5.v11 main_call5.v6 main_call5.v12 andi,
    TRef.unary main_call5.call0.v0 main_call5.v13 (broadcastInDim S780 ![] bcast_S_S780),
    TRef.binary main_call5.v4 main_call5.v13 main_call5.v14 addi,
    TRef.ternary main_call5.v12 main_call5.v14 main_call5.v4 main_call5.v15 select,
    nullary main_c_7 (constantI S_ 32 1#32),
    TRef.unary ((.of main_c_7) : TRef sig ⟨S_, .i32⟩) main_call6.v0 (broadcastInDim S780 ![] bcast_S_S780),
    TRef.binary ((.of main_v16) : TRef sig ⟨S780, .i32⟩) main_call6.v0 main_call6.v1 Host.divsi,
    TRef.unary ((.of main_v16) : TRef sig ⟨S780, .i32⟩) main_call6.v2 signi,
    TRef.unary ((.of main_c_7) : TRef sig ⟨S_, .i32⟩) main_call6.v3 signi,
    TRef.unary main_call6.v3 main_call6.v4 (broadcastInDim S780 ![] bcast_S_S780),
    TRef.binary main_call6.v2 main_call6.v4 main_call6.v5 (cmpi .ne),
    TRef.unary ((.of main_c_7) : TRef sig ⟨S_, .i32⟩) main_call6.v6 (broadcastInDim S780 ![] bcast_S_S780),
    TRef.binary ((.of main_v16) : TRef sig ⟨S780, .i32⟩) main_call6.v6 main_call6.v7 Host.remsi,
    TRef.nullary main_call6.c (constantI S_ 32 0#32),
    TRef.unary main_call6.c main_call6.v8 (broadcastInDim S780 ![] bcast_S_S780),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S780 ![] bcast_S_S780),
    TRef.binary main_call6.v1 main_call6.v11 main_call6.v12 subi,
    TRef.ternary main_call6.v10 main_call6.v12 main_call6.v1 main_call6.call0.v0 select,
    nullary main_c_8 (constantI S_ 32 40#32),
    TRef.unary ((.of main_c_8) : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S780 ![] bcast_S_S780),
    TRef.binary ((.of main_v19) : TRef sig ⟨S780, .i32⟩) main_call7.v3 main_call7.v4 Host.remsi,
    TRef.nullary main_call7.c_1 (constantI S_ 32 0#32),
    TRef.unary main_call7.c_1 main_call7.v5 (broadcastInDim S780 ![] bcast_S_S780),
    TRef.binary main_call7.v4 main_call7.v5 main_call7.v6 (cmpi .ne),
    TRef.nullary main_call7.c_2 (constantI S_ 32 0#32),
    TRef.unary main_call7.c_2 main_call7.v7 (broadcastInDim S780 ![] bcast_S_S780),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S780 ![] bcast_S_S780),
    TRef.binary main_call7.v8 main_call7.v10 main_call7.v11 (cmpi .ne),
    TRef.binary main_call7.v11 main_call7.v6 main_call7.v12 andi,
    TRef.unary main_call7.call0.v0 main_call7.v13 (broadcastInDim S780 ![] bcast_S_S780),
    TRef.binary main_call7.v4 main_call7.v13 main_call7.v14 addi,
    TRef.ternary main_call7.v12 main_call7.v14 main_call7.v4 main_call7.v15 select,
    nullary main_c_9 (constantI S_ 32 0#32),
    unary main_c_9 main_v21 (broadcastInDim S780 ![] bcast_S_S780 : (⟨S_, .i32⟩ : BufTy).Contents (Elt F) → (⟨S780, .i32⟩ : BufTy).Contents (Elt F)),
    binary main_v18 main_v21 main_v22 (cmpi .slt : (⟨S780, .i32⟩ : BufTy).Contents (Elt F) → (⟨S780, .i32⟩ : BufTy).Contents (Elt F) → (⟨S780, .i1⟩ : BufTy).Contents (Elt F)),
    nullary main_c_10 (constantI S_ 32 40#32),
    unary main_c_10 main_v23 (broadcastInDim S780 ![] bcast_S_S780 : (⟨S_, .i32⟩ : BufTy).Contents (Elt F) → (⟨S780, .i32⟩ : BufTy).Contents (Elt F)),
    binary main_v18 main_v23 main_v24 (addi : (⟨S780, .i32⟩ : BufTy).Contents (Elt F) → (⟨S780, .i32⟩ : BufTy).Contents (Elt F) → (⟨S780, .i32⟩ : BufTy).Contents (Elt F)),
    ternary main_v22 main_v24 main_v18 main_v25 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v25 main_v26 (broadcastInDim S780x1 ![0] bcast_S780_S780x1_0 : (⟨S780, .i32⟩ : BufTy).Contents (Elt F) → (⟨S780x1, .i32⟩ : BufTy).Contents (Elt F)),
    binary main_arg0 main_v26 main_v27 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    nullary main_c_11 (constantI S_ 32 0#32),
    unary main_c_11 main_v28 (broadcastInDim S780 ![] bcast_S_S780 : (⟨S_, .i32⟩ : BufTy).Contents (Elt F) → (⟨S780, .i32⟩ : BufTy).Contents (Elt F)),
    binary main_v20 main_v28 main_v29 (cmpi .slt : (⟨S780, .i32⟩ : BufTy).Contents (Elt F) → (⟨S780, .i32⟩ : BufTy).Contents (Elt F) → (⟨S780, .i1⟩ : BufTy).Contents (Elt F)),
    nullary main_c_12 (constantI S_ 32 40#32),
    unary main_c_12 main_v30 (broadcastInDim S780 ![] bcast_S_S780 : (⟨S_, .i32⟩ : BufTy).Contents (Elt F) → (⟨S780, .i32⟩ : BufTy).Contents (Elt F)),
    binary main_v20 main_v30 main_v31 (addi : (⟨S780, .i32⟩ : BufTy).Contents (Elt F) → (⟨S780, .i32⟩ : BufTy).Contents (Elt F) → (⟨S780, .i32⟩ : BufTy).Contents (Elt F)),
    ternary main_v29 main_v31 main_v20 main_v32 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v32 main_v33 (broadcastInDim S780x1 ![0] bcast_S780_S780x1_0 : (⟨S780, .i32⟩ : BufTy).Contents (Elt F) → (⟨S780x1, .i32⟩ : BufTy).Contents (Elt F)),
    binary main_v0 main_v33 main_v34 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    binary main_v27 main_v34 main_v35 (mulf : (⟨S2048x780x128, .f32⟩ : BufTy).Contents (Elt F) → (⟨S2048x780x128, .f32⟩ : BufTy).Contents (Elt F) → (⟨S2048x780x128, .f32⟩ : BufTy).Contents (Elt F)) ]

/-- The same list in stretches, cut where few values are live and before each call whose operand is a computed array: after the
    running count, the tally, the flat positions, each floor division and each remainder. -/
abbrev ops1 : List (HloOp τ sig (Elt F)) :=
  [ binary main_arg0 main_arg1 main_v0 ((fun l r => Host.dotGeneral dot_S2048x40x128_S128x128_S2048x40x128_2_0_01_1_n_n none l r) : (⟨S2048x40x128, .f32⟩ : BufTy).Contents (Elt F) → (⟨S128x128, .f32⟩ : BufTy).Contents (Elt F) → (⟨S2048x40x128, .f32⟩ : BufTy).Contents (Elt F)),
    nullary main_cst (constant S_ .f32 0x3F800000#32),
    unary main_cst main_v1 (broadcastInDim S40x40 ![] bcast_S_S40x40 : (⟨S_, .f32⟩ : BufTy).Contents (Elt F) → (⟨S40x40, .f32⟩ : BufTy).Contents (Elt F)),
    TRef.nullary main_call0.v0 (iotaInDim S40x40 32 0),
    TRef.nullary main_call0.c (constantI S_ 32 0#32),
    TRef.unary main_call0.c main_call0.v1 (broadcastInDim S40x40 ![] bcast_S_S40x40),
    TRef.binary main_call0.v0 main_call0.v1 main_call0.v2 addi,
    TRef.nullary main_call0.v3 (iotaInDim S40x40 32 1),
    TRef.binary main_call0.v2 main_call0.v3 main_call0.v4 (cmpi .sge),
    TRef.nullary main_call0.cst (constant S_ .f32 0x00000000#32),
    TRef.unary main_call0.cst main_call0.v5 (broadcastInDim S40x40 ![] bcast_S_S40x40),
    TRef.ternary main_call0.v4 main_call0.v5 ((.of main_v1) : TRef sig ⟨S40x40, .f32⟩) main_call0.v6 select,
    nullary main_cst_0 (constant S_ .f32 0x00000000#32),
    unary main_cst_0 main_v3 (broadcastInDim S40x40 ![] bcast_S_S40x40 : (⟨S_, .f32⟩ : BufTy).Contents (Elt F) → (⟨S40x40, .f32⟩ : BufTy).Contents (Elt F)),
    binary main_v2 main_v3 main_v4 (cmpf .une : (⟨S40x40, .f32⟩ : BufTy).Contents (Elt F) → (⟨S40x40, .f32⟩ : BufTy).Contents (Elt F) → (⟨S40x40, .i1⟩ : BufTy).Contents (Elt F)),
    TRef.reshape ((.of main_v4) : TRef sig ⟨S40x40, .i1⟩) main_call1.v0 rfl shapeCasts_S40x40_S1600,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1600] ![1] ![1599] ![0] x v reduceWindows_S1600_S1600_w1600s1p1599_0 h_S_) ]

abbrev ops2 : List (HloOp τ sig (Elt F)) :=
  [ nullary main_c (constantI S_ 32 0#32),
    unary main_c main_v6 (broadcastInDim S780 ![] bcast_S_S780 : (⟨S_, .i32⟩ : BufTy).Contents (Elt F) → (⟨S780, .i32⟩ : BufTy).Contents (Elt F)),
    nullary main_c_1 (constantI S_ 32 0#32),
    TRef.unary ((.of main_c_1) : TRef sig ⟨S_, .i32⟩) main_call2.v0 id,
    TRef.unary main_call2.v0 main_call2.v1 (broadcastInDim S1600 ![] bcast_S_S1600),
    TRef.binary main_call2.v1 ((.of main_v5) : TRef sig ⟨S1600, .i32⟩) main_call2.v2 maxsi,
    nullary main_c_2 (constantI S_ 32 0#32),
    unary main_c_2 main_v8 (broadcastInDim S1600 ![] bcast_S_S1600 : (⟨S_, .i32⟩ : BufTy).Contents (Elt F) → (⟨S1600, .i32⟩ : BufTy).Contents (Elt F)),
    binary main_v7 main_v8 main_v9 (cmpi .slt : (⟨S1600, .i32⟩ : BufTy).Contents (Elt F) → (⟨S1600, .i32⟩ : BufTy).Contents (Elt F) → (⟨S1600, .i1⟩ : BufTy).Contents (Elt F)),
    nullary main_c_3 (constantI S_ 32 780#32),
    unary main_c_3 main_v10 (broadcastInDim S1600 ![] bcast_S_S1600 : (⟨S_, .i32⟩ : BufTy).Contents (Elt F) → (⟨S1600, .i32⟩ : BufTy).Contents (Elt F)),
    binary main_v7 main_v10 main_v11 (addi : (⟨S1600, .i32⟩ : BufTy).Contents (Elt F) → (⟨S1600, .i32⟩ : BufTy).Contents (Elt F) → (⟨S1600, .i32⟩ : BufTy).Contents (Elt F)),
    ternary main_v9 main_v11 main_v7 main_v12 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v12 main_v13 (broadcastInDim S1600x1 ![0] bcast_S1600_S1600x1_0 : (⟨S1600, .i32⟩ : BufTy).Contents (Elt F) → (⟨S1600x1, .i32⟩ : BufTy).Contents (Elt F)),
    nullary main_c_4 (constantI S_ 32 1#32),
    unary main_c_4 main_v14 (broadcastInDim S1600 ![] bcast_S_S1600 : (⟨S_, .i32⟩ : BufTy).Contents (Elt F) → (⟨S1600, .i32⟩ : BufTy).Contents (Elt F)),
    ternary main_v6 main_v13 main_v14 main_v15 ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)) ]

abbrev ops3 : List (HloOp τ sig (Elt F)) :=
  [ TRef.nullary main_call3.call0.c (constantI S_ 32 0#32),
    TRef.unary main_call3.call0.c main_call3.call0.v0 (broadcastInDim S_ ![] bcast_S_S_),
    TRef.binary ((.of main_v15) : TRef sig ⟨S780, .i32⟩) main_call3.call0.v0 main_call3.call0.v1 (fun x v => Host.reduceWindow IntOp.addi ![780] ![1] ![779] ![0] x v reduceWindows_S780_S780_w780s1p779_0 h_S_) ]

abbrev ops4 : List (HloOp τ sig (Elt F)) :=
  [ nullary main_c_5 (constantI S_ 32 40#32),
    TRef.unary ((.of main_c_5) : TRef sig ⟨S_, .i32⟩) main_call4.v0 (broadcastInDim S780 ![] bcast_S_S780),
    TRef.binary ((.of main_v16) : TRef sig ⟨S780, .i32⟩) main_call4.v0 main_call4.v1 Host.divsi,
    TRef.unary ((.of main_v16) : TRef sig ⟨S780, .i32⟩) main_call4.v2 signi,
    TRef.unary ((.of main_c_5) : TRef sig ⟨S_, .i32⟩) main_call4.v3 signi,
    TRef.unary main_call4.v3 main_call4.v4 (broadcastInDim S780 ![] bcast_S_S780),
    TRef.binary main_call4.v2 main_call4.v4 main_call4.v5 (cmpi .ne),
    TRef.unary ((.of main_c_5) : TRef sig ⟨S_, .i32⟩) main_call4.v6 (broadcastInDim S780 ![] bcast_S_S780),
    TRef.binary ((.of main_v16) : TRef sig ⟨S780, .i32⟩) main_call4.v6 main_call4.v7 Host.remsi,
    TRef.nullary main_call4.c (constantI S_ 32 0#32),
    TRef.unary main_call4.c main_call4.v8 (broadcastInDim S780 ![] bcast_S_S780),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S780 ![] bcast_S_S780),
    TRef.binary main_call4.v1 main_call4.v11 main_call4.v12 subi,
    TRef.ternary main_call4.v10 main_call4.v12 main_call4.v1 main_call4.call0.v0 select ]

abbrev ops5 : List (HloOp τ sig (Elt F)) :=
  [ nullary main_c_6 (constantI S_ 32 40#32),
    TRef.unary ((.of main_c_6) : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S780 ![] bcast_S_S780),
    TRef.binary ((.of main_v17) : TRef sig ⟨S780, .i32⟩) main_call5.v3 main_call5.v4 Host.remsi,
    TRef.nullary main_call5.c_1 (constantI S_ 32 0#32),
    TRef.unary main_call5.c_1 main_call5.v5 (broadcastInDim S780 ![] bcast_S_S780),
    TRef.binary main_call5.v4 main_call5.v5 main_call5.v6 (cmpi .ne),
    TRef.nullary main_call5.c_2 (constantI S_ 32 0#32),
    TRef.unary main_call5.c_2 main_call5.v7 (broadcastInDim S780 ![] bcast_S_S780),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S780 ![] bcast_S_S780),
    TRef.binary main_call5.v8 main_call5.v10 main_call5.v11 (cmpi .ne),
    TRef.binary main_call5.v11 main_call5.v6 main_call5.v12 andi,
    TRef.unary main_call5.call0.v0 main_call5.v13 (broadcastInDim S780 ![] bcast_S_S780),
    TRef.binary main_call5.v4 main_call5.v13 main_call5.v14 addi,
    TRef.ternary main_call5.v12 main_call5.v14 main_call5.v4 main_call5.v15 select ]

abbrev ops6 : List (HloOp τ sig (Elt F)) :=
  [ nullary main_c_7 (constantI S_ 32 1#32),
    TRef.unary ((.of main_c_7) : TRef sig ⟨S_, .i32⟩) main_call6.v0 (broadcastInDim S780 ![] bcast_S_S780),
    TRef.binary ((.of main_v16) : TRef sig ⟨S780, .i32⟩) main_call6.v0 main_call6.v1 Host.divsi,
    TRef.unary ((.of main_v16) : TRef sig ⟨S780, .i32⟩) main_call6.v2 signi,
    TRef.unary ((.of main_c_7) : TRef sig ⟨S_, .i32⟩) main_call6.v3 signi,
    TRef.unary main_call6.v3 main_call6.v4 (broadcastInDim S780 ![] bcast_S_S780),
    TRef.binary main_call6.v2 main_call6.v4 main_call6.v5 (cmpi .ne),
    TRef.unary ((.of main_c_7) : TRef sig ⟨S_, .i32⟩) main_call6.v6 (broadcastInDim S780 ![] bcast_S_S780),
    TRef.binary ((.of main_v16) : TRef sig ⟨S780, .i32⟩) main_call6.v6 main_call6.v7 Host.remsi,
    TRef.nullary main_call6.c (constantI S_ 32 0#32),
    TRef.unary main_call6.c main_call6.v8 (broadcastInDim S780 ![] bcast_S_S780),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S780 ![] bcast_S_S780),
    TRef.binary main_call6.v1 main_call6.v11 main_call6.v12 subi,
    TRef.ternary main_call6.v10 main_call6.v12 main_call6.v1 main_call6.call0.v0 select ]

abbrev ops7 : List (HloOp τ sig (Elt F)) :=
  [ nullary main_c_8 (constantI S_ 32 40#32),
    TRef.unary ((.of main_c_8) : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S780 ![] bcast_S_S780),
    TRef.binary ((.of main_v19) : TRef sig ⟨S780, .i32⟩) main_call7.v3 main_call7.v4 Host.remsi,
    TRef.nullary main_call7.c_1 (constantI S_ 32 0#32),
    TRef.unary main_call7.c_1 main_call7.v5 (broadcastInDim S780 ![] bcast_S_S780),
    TRef.binary main_call7.v4 main_call7.v5 main_call7.v6 (cmpi .ne),
    TRef.nullary main_call7.c_2 (constantI S_ 32 0#32),
    TRef.unary main_call7.c_2 main_call7.v7 (broadcastInDim S780 ![] bcast_S_S780),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S780 ![] bcast_S_S780),
    TRef.binary main_call7.v8 main_call7.v10 main_call7.v11 (cmpi .ne),
    TRef.binary main_call7.v11 main_call7.v6 main_call7.v12 andi,
    TRef.unary main_call7.call0.v0 main_call7.v13 (broadcastInDim S780 ![] bcast_S_S780),
    TRef.binary main_call7.v4 main_call7.v13 main_call7.v14 addi,
    TRef.ternary main_call7.v12 main_call7.v14 main_call7.v4 main_call7.v15 select ]

abbrev ops8 : List (HloOp τ sig (Elt F)) :=
  [ nullary main_c_9 (constantI S_ 32 0#32),
    unary main_c_9 main_v21 (broadcastInDim S780 ![] bcast_S_S780 : (⟨S_, .i32⟩ : BufTy).Contents (Elt F) → (⟨S780, .i32⟩ : BufTy).Contents (Elt F)),
    binary main_v18 main_v21 main_v22 (cmpi .slt : (⟨S780, .i32⟩ : BufTy).Contents (Elt F) → (⟨S780, .i32⟩ : BufTy).Contents (Elt F) → (⟨S780, .i1⟩ : BufTy).Contents (Elt F)),
    nullary main_c_10 (constantI S_ 32 40#32),
    unary main_c_10 main_v23 (broadcastInDim S780 ![] bcast_S_S780 : (⟨S_, .i32⟩ : BufTy).Contents (Elt F) → (⟨S780, .i32⟩ : BufTy).Contents (Elt F)),
    binary main_v18 main_v23 main_v24 (addi : (⟨S780, .i32⟩ : BufTy).Contents (Elt F) → (⟨S780, .i32⟩ : BufTy).Contents (Elt F) → (⟨S780, .i32⟩ : BufTy).Contents (Elt F)),
    ternary main_v22 main_v24 main_v18 main_v25 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v25 main_v26 (broadcastInDim S780x1 ![0] bcast_S780_S780x1_0 : (⟨S780, .i32⟩ : BufTy).Contents (Elt F) → (⟨S780x1, .i32⟩ : BufTy).Contents (Elt F)),
    binary main_arg0 main_v26 main_v27 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    nullary main_c_11 (constantI S_ 32 0#32),
    unary main_c_11 main_v28 (broadcastInDim S780 ![] bcast_S_S780 : (⟨S_, .i32⟩ : BufTy).Contents (Elt F) → (⟨S780, .i32⟩ : BufTy).Contents (Elt F)),
    binary main_v20 main_v28 main_v29 (cmpi .slt : (⟨S780, .i32⟩ : BufTy).Contents (Elt F) → (⟨S780, .i32⟩ : BufTy).Contents (Elt F) → (⟨S780, .i1⟩ : BufTy).Contents (Elt F)),
    nullary main_c_12 (constantI S_ 32 40#32),
    unary main_c_12 main_v30 (broadcastInDim S780 ![] bcast_S_S780 : (⟨S_, .i32⟩ : BufTy).Contents (Elt F) → (⟨S780, .i32⟩ : BufTy).Contents (Elt F)),
    binary main_v20 main_v30 main_v31 (addi : (⟨S780, .i32⟩ : BufTy).Contents (Elt F) → (⟨S780, .i32⟩ : BufTy).Contents (Elt F) → (⟨S780, .i32⟩ : BufTy).Contents (Elt F)),
    ternary main_v29 main_v31 main_v20 main_v32 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v32 main_v33 (broadcastInDim S780x1 ![0] bcast_S780_S780x1_0 : (⟨S780, .i32⟩ : BufTy).Contents (Elt F) → (⟨S780x1, .i32⟩ : BufTy).Contents (Elt F)),
    binary main_v0 main_v33 main_v34 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    binary main_v27 main_v34 main_v35 (mulf : (⟨S2048x780x128, .f32⟩ : BufTy).Contents (Elt F) → (⟨S2048x780x128, .f32⟩ : BufTy).Contents (Elt F) → (⟨S2048x780x128, .f32⟩ : BufTy).Contents (Elt F)) ]

theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

end Ops

/-! The value each operation leaves in its buffer. -/

def val_main_v0 (F : FTy → Type) [FloatOps F] (x : (⟨S2048x40x128, .f32⟩ : BufTy).Contents (Elt F)) (W : (⟨S128x128, .f32⟩ : BufTy).Contents (Elt F)) : (⟨S2048x40x128, .f32⟩ : BufTy).Contents (Elt F) :=
  ((fun l r => Host.dotGeneral dot_S2048x40x128_S128x128_S2048x40x128_2_0_01_1_n_n none l r) : (⟨S2048x40x128, .f32⟩ : BufTy).Contents (Elt F) → (⟨S128x128, .f32⟩ : BufTy).Contents (Elt F) → (⟨S2048x40x128, .f32⟩ : BufTy).Contents (Elt F)) x W

def val_main_cst (F : FTy → Type) [FloatOps F] : (⟨S_, .f32⟩ : BufTy).Contents (Elt F) :=
  (constant S_ .f32 0x3F800000#32)

def val_main_v1 (F : FTy → Type) [FloatOps F] : (⟨S40x40, .f32⟩ : BufTy).Contents (Elt F) :=
  (broadcastInDim S40x40 ![] bcast_S_S40x40 : (⟨S_, .f32⟩ : BufTy).Contents (Elt F) → (⟨S40x40, .f32⟩ : BufTy).Contents (Elt F)) (val_main_cst F)

def val_main_call0_v0 (F : FTy → Type) [FloatOps F] : (⟨S40x40, .i32⟩ : BufTy).Contents (Elt F) :=
  (iotaInDim S40x40 32 0)

def val_main_call0_c (F : FTy → Type) [FloatOps F] : (⟨S_, .i32⟩ : BufTy).Contents (Elt F) :=
  (constantI S_ 32 0#32)

def val_main_call0_v1 (F : FTy → Type) [FloatOps F] : (⟨S40x40, .i32⟩ : BufTy).Contents (Elt F) :=
  (broadcastInDim S40x40 ![] bcast_S_S40x40) (val_main_call0_c F)

def val_main_call0_v2 (F : FTy → Type) [FloatOps F] : (⟨S40x40, .i32⟩ : BufTy).Contents (Elt F) :=
  addi (val_main_call0_v0 F) (val_main_call0_v1 F)

def val_main_call0_v3 (F : FTy → Type) [FloatOps F] : (⟨S40x40, .i32⟩ : BufTy).Contents (Elt F) :=
  (iotaInDim S40x40 32 1)

def val_main_call0_v4 (F : FTy → Type) [FloatOps F] : (⟨S40x40, .i1⟩ : BufTy).Contents (Elt F) :=
  (cmpi .sge) (val_main_call0_v2 F) (val_main_call0_v3 F)

def val_main_call0_cst (F : FTy → Type) [FloatOps F] : (⟨S_, .f32⟩ : BufTy).Contents (Elt F) :=
  (constant S_ .f32 0x00000000#32)

def val_main_call0_v5 (F : FTy → Type) [FloatOps F] : (⟨S40x40, .f32⟩ : BufTy).Contents (Elt F) :=
  (broadcastInDim S40x40 ![] bcast_S_S40x40) (val_main_call0_cst F)

def val_main_v2 (F : FTy → Type) [FloatOps F] : (⟨S40x40, .f32⟩ : BufTy).Contents (Elt F) :=
  select (val_main_call0_v4 F) (val_main_call0_v5 F) (val_main_v1 F)

def val_main_cst_0 (F : FTy → Type) [FloatOps F] : (⟨S_, .f32⟩ : BufTy).Contents (Elt F) :=
  (constant S_ .f32 0x00000000#32)

def val_main_v3 (F : FTy → Type) [FloatOps F] : (⟨S40x40, .f32⟩ : BufTy).Contents (Elt F) :=
  (broadcastInDim S40x40 ![] bcast_S_S40x40 : (⟨S_, .f32⟩ : BufTy).Contents (Elt F) → (⟨S40x40, .f32⟩ : BufTy).Contents (Elt F)) (val_main_cst_0 F)

def val_main_v4 (F : FTy → Type) [FloatOps F] : (⟨S40x40, .i1⟩ : BufTy).Contents (Elt F) :=
  (cmpf .une : (⟨S40x40, .f32⟩ : BufTy).Contents (Elt F) → (⟨S40x40, .f32⟩ : BufTy).Contents (Elt F) → (⟨S40x40, .i1⟩ : BufTy).Contents (Elt F)) (val_main_v2 F) (val_main_v3 F)

def val_main_call1_v0 (F : FTy → Type) [FloatOps F] : (⟨S1600, .i1⟩ : BufTy).Contents (Elt F) :=
  shapeCast S1600 (val_main_v4 F) shapeCasts_S40x40_S1600

def val_main_call1_v1 (F : FTy → Type) [FloatOps F] : (⟨S1600, .i32⟩ : BufTy).Contents (Elt F) :=
  (extui 32 · natLt_1_32) (val_main_call1_v0 F)

def val_main_call1_call0_c (F : FTy → Type) [FloatOps F] : (⟨S_, .i32⟩ : BufTy).Contents (Elt F) :=
  (constantI S_ 32 0#32)

def val_main_call1_call0_v0 (F : FTy → Type) [FloatOps F] : (⟨S_, .i32⟩ : BufTy).Contents (Elt F) :=
  (broadcastInDim S_ ![] bcast_S_S_) (val_main_call1_call0_c F)

def val_main_v5 (F : FTy → Type) [FloatOps F] : (⟨S1600, .i32⟩ : BufTy).Contents (Elt F) :=
  (fun x v => Host.reduceWindow IntOp.addi ![1600] ![1] ![1599] ![0] x v reduceWindows_S1600_S1600_w1600s1p1599_0 h_S_) (val_main_call1_v1 F) (val_main_call1_call0_v0 F)

def val_main_c (F : FTy → Type) [FloatOps F] : (⟨S_, .i32⟩ : BufTy).Contents (Elt F) :=
  (constantI S_ 32 0#32)

def val_main_v6 (F : FTy → Type) [FloatOps F] : (⟨S780, .i32⟩ : BufTy).Contents (Elt F) :=
  (broadcastInDim S780 ![] bcast_S_S780 : (⟨S_, .i32⟩ : BufTy).Contents (Elt F) → (⟨S780, .i32⟩ : BufTy).Contents (Elt F)) (val_main_c F)

def val_main_c_1 (F : FTy → Type) [FloatOps F] : (⟨S_, .i32⟩ : BufTy).Contents (Elt F) :=
  (constantI S_ 32 0#32)

def val_main_call2_v0 (F : FTy → Type) [FloatOps F] : (⟨S_, .i32⟩ : BufTy).Contents (Elt F) :=
  id (val_main_c_1 F)

def val_main_call2_v1 (F : FTy → Type) [FloatOps F] : (⟨S1600, .i32⟩ : BufTy).Contents (Elt F) :=
  (broadcastInDim S1600 ![] bcast_S_S1600) (val_main_call2_v0 F)

def val_main_v7 (F : FTy → Type) [FloatOps F] : (⟨S1600, .i32⟩ : BufTy).Contents (Elt F) :=
  maxsi (val_main_call2_v1 F) (val_main_v5 F)

def val_main_c_2 (F : FTy → Type) [FloatOps F] : (⟨S_, .i32⟩ : BufTy).Contents (Elt F) :=
  (constantI S_ 32 0#32)

def val_main_v8 (F : FTy → Type) [FloatOps F] : (⟨S1600, .i32⟩ : BufTy).Contents (Elt F) :=
  (broadcastInDim S1600 ![] bcast_S_S1600 : (⟨S_, .i32⟩ : BufTy).Contents (Elt F) → (⟨S1600, .i32⟩ : BufTy).Contents (Elt F)) (val_main_c_2 F)

def val_main_v9 (F : FTy → Type) [FloatOps F] : (⟨S1600, .i1⟩ : BufTy).Contents (Elt F) :=
  (cmpi .slt : (⟨S1600, .i32⟩ : BufTy).Contents (Elt F) → (⟨S1600, .i32⟩ : BufTy).Contents (Elt F) → (⟨S1600, .i1⟩ : BufTy).Contents (Elt F)) (val_main_v7 F) (val_main_v8 F)

def val_main_c_3 (F : FTy → Type) [FloatOps F] : (⟨S_, .i32⟩ : BufTy).Contents (Elt F) :=
  (constantI S_ 32 780#32)

def val_main_v10 (F : FTy → Type) [FloatOps F] : (⟨S1600, .i32⟩ : BufTy).Contents (Elt F) :=
  (broadcastInDim S1600 ![] bcast_S_S1600 : (⟨S_, .i32⟩ : BufTy).Contents (Elt F) → (⟨S1600, .i32⟩ : BufTy).Contents (Elt F)) (val_main_c_3 F)

def val_main_v11 (F : FTy → Type) [FloatOps F] : (⟨S1600, .i32⟩ : BufTy).Contents (Elt F) :=
  (addi : (⟨S1600, .i32⟩ : BufTy).Contents (Elt F) → (⟨S1600, .i32⟩ : BufTy).Contents (Elt F) → (⟨S1600, .i32⟩ : BufTy).Contents (Elt F)) (val_main_v7 F) (val_main_v10 F)

def val_main_v12 (F : FTy → Type) [FloatOps F] : (⟨S1600, .i32⟩ : BufTy).Contents (Elt F) :=
  (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)) (val_main_v9 F) (val_main_v11 F) (val_main_v7 F)

def val_main_v13 (F : FTy → Type) [FloatOps F] : (⟨S1600x1, .i32⟩ : BufTy).Contents (Elt F) :=
  (broadcastInDim S1600x1 ![0] bcast_S1600_S1600x1_0 : (⟨S1600, .i32⟩ : BufTy).Contents (Elt F) → (⟨S1600x1, .i32⟩ : BufTy).Contents (Elt F)) (val_main_v12 F)

def val_main_c_4 (F : FTy → Type) [FloatOps F] : (⟨S_, .i32⟩ : BufTy).Contents (Elt F) :=
  (constantI S_ 32 1#32)

def val_main_v14 (F : FTy → Type) [FloatOps F] : (⟨S1600, .i32⟩ : BufTy).Contents (Elt F) :=
  (broadcastInDim S1600 ![] bcast_S_S1600 : (⟨S_, .i32⟩ : BufTy).Contents (Elt F) → (⟨S1600, .i32⟩ : BufTy).Contents (Elt F)) (val_main_c_4 F)

def val_main_v15 (F : FTy → Type) [FloatOps F] : (⟨S780, .i32⟩ : BufTy).Contents (Elt F) :=
  ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)) (val_main_v6 F) (val_main_v13 F) (val_main_v14 F)

def val_main_call3_call0_c (F : FTy → Type) [FloatOps F] : (⟨S_, .i32⟩ : BufTy).Contents (Elt F) :=
  (constantI S_ 32 0#32)

def val_main_call3_call0_v0 (F : FTy → Type) [FloatOps F] : (⟨S_, .i32⟩ : BufTy).Contents (Elt F) :=
  (broadcastInDim S_ ![] bcast_S_S_) (val_main_call3_call0_c F)

def val_main_v16 (F : FTy → Type) [FloatOps F] : (⟨S780, .i32⟩ : BufTy).Contents (Elt F) :=
  (fun x v => Host.reduceWindow IntOp.addi ![780] ![1] ![779] ![0] x v reduceWindows_S780_S780_w780s1p779_0 h_S_) (val_main_v15 F) (val_main_call3_call0_v0 F)

def val_main_c_5 (F : FTy → Type) [FloatOps F] : (⟨S_, .i32⟩ : BufTy).Contents (Elt F) :=
  (constantI S_ 32 40#32)

def val_main_call4_v0 (F : FTy → Type) [FloatOps F] : (⟨S780, .i32⟩ : BufTy).Contents (Elt F) :=
  (broadcastInDim S780 ![] bcast_S_S780) (val_main_c_5 F)

def val_main_call4_v1 (F : FTy → Type) [FloatOps F] : (⟨S780, .i32⟩ : BufTy).Contents (Elt F) :=
  Host.divsi (val_main_v16 F) (val_main_call4_v0 F)

def val_main_call4_v2 (F : FTy → Type) [FloatOps F] : (⟨S780, .i32⟩ : BufTy).Contents (Elt F) :=
  signi (val_main_v16 F)

def val_main_call4_v3 (F : FTy → Type) [FloatOps F] : (⟨S_, .i32⟩ : BufTy).Contents (Elt F) :=
  signi (val_main_c_5 F)

def val_main_call4_v4 (F : FTy → Type) [FloatOps F] : (⟨S780, .i32⟩ : BufTy).Contents (Elt F) :=
  (broadcastInDim S780 ![] bcast_S_S780) (val_main_call4_v3 F)

def val_main_call4_v5 (F : FTy → Type) [FloatOps F] : (⟨S780, .i1⟩ : BufTy).Contents (Elt F) :=
  (cmpi .ne) (val_main_call4_v2 F) (val_main_call4_v4 F)

def val_main_call4_v6 (F : FTy → Type) [FloatOps F] : (⟨S780, .i32⟩ : BufTy).Contents (Elt F) :=
  (broadcastInDim S780 ![] bcast_S_S780) (val_main_c_5 F)

def val_main_call4_v7 (F : FTy → Type) [FloatOps F] : (⟨S780, .i32⟩ : BufTy).Contents (Elt F) :=
  Host.remsi (val_main_v16 F) (val_main_call4_v6 F)

def val_main_call4_c (F : FTy → Type) [FloatOps F] : (⟨S_, .i32⟩ : BufTy).Contents (Elt F) :=
  (constantI S_ 32 0#32)

def val_main_call4_v8 (F : FTy → Type) [FloatOps F] : (⟨S780, .i32⟩ : BufTy).Contents (Elt F) :=
  (broadcastInDim S780 ![] bcast_S_S780) (val_main_call4_c F)

def val_main_call4_v9 (F : FTy → Type) [FloatOps F] : (⟨S780, .i1⟩ : BufTy).Contents (Elt F) :=
  (cmpi .ne) (val_main_call4_v7 F) (val_main_call4_v8 F)

def val_main_call4_v10 (F : FTy → Type) [FloatOps F] : (⟨S780, .i1⟩ : BufTy).Contents (Elt F) :=
  andi (val_main_call4_v5 F) (val_main_call4_v9 F)

def val_main_call4_c_0 (F : FTy → Type) [FloatOps F] : (⟨S_, .i32⟩ : BufTy).Contents (Elt F) :=
  (constantI S_ 32 1#32)

def val_main_call4_v11 (F : FTy → Type) [FloatOps F] : (⟨S780, .i32⟩ : BufTy).Contents (Elt F) :=
  (broadcastInDim S780 ![] bcast_S_S780) (val_main_call4_c_0 F)

def val_main_call4_v12 (F : FTy → Type) [FloatOps F] : (⟨S780, .i32⟩ : BufTy).Contents (Elt F) :=
  subi (val_main_call4_v1 F) (val_main_call4_v11 F)

def val_main_v17 (F : FTy → Type) [FloatOps F] : (⟨S780, .i32⟩ : BufTy).Contents (Elt F) :=
  select (val_main_call4_v10 F) (val_main_call4_v12 F) (val_main_call4_v1 F)

def val_main_c_6 (F : FTy → Type) [FloatOps F] : (⟨S_, .i32⟩ : BufTy).Contents (Elt F) :=
  (constantI S_ 32 40#32)

def val_main_call5_v0 (F : FTy → Type) [FloatOps F] : (⟨S_, .i32⟩ : BufTy).Contents (Elt F) :=
  id (val_main_c_6 F)

def val_main_call5_c (F : FTy → Type) [FloatOps F] : (⟨S_, .i32⟩ : BufTy).Contents (Elt F) :=
  (constantI S_ 32 0#32)

def val_main_call5_v1 (F : FTy → Type) [FloatOps F] : (⟨S_, .i1⟩ : BufTy).Contents (Elt F) :=
  (cmpi .eq) (val_main_call5_v0 F) (val_main_call5_c F)

def val_main_call5_c_0 (F : FTy → Type) [FloatOps F] : (⟨S_, .i32⟩ : BufTy).Contents (Elt F) :=
  (constantI S_ 32 1#32)

def val_main_call5_v2 (F : FTy → Type) [FloatOps F] : (⟨S_, .i32⟩ : BufTy).Contents (Elt F) :=
  select (val_main_call5_v1 F) (val_main_call5_c_0 F) (val_main_call5_v0 F)

def val_main_call5_v3 (F : FTy → Type) [FloatOps F] : (⟨S780, .i32⟩ : BufTy).Contents (Elt F) :=
  (broadcastInDim S780 ![] bcast_S_S780) (val_main_call5_v2 F)

def val_main_call5_v4 (F : FTy → Type) [FloatOps F] : (⟨S780, .i32⟩ : BufTy).Contents (Elt F) :=
  Host.remsi (val_main_v17 F) (val_main_call5_v3 F)

def val_main_call5_c_1 (F : FTy → Type) [FloatOps F] : (⟨S_, .i32⟩ : BufTy).Contents (Elt F) :=
  (constantI S_ 32 0#32)

def val_main_call5_v5 (F : FTy → Type) [FloatOps F] : (⟨S780, .i32⟩ : BufTy).Contents (Elt F) :=
  (broadcastInDim S780 ![] bcast_S_S780) (val_main_call5_c_1 F)

def val_main_call5_v6 (F : FTy → Type) [FloatOps F] : (⟨S780, .i1⟩ : BufTy).Contents (Elt F) :=
  (cmpi .ne) (val_main_call5_v4 F) (val_main_call5_v5 F)

def val_main_call5_c_2 (F : FTy → Type) [FloatOps F] : (⟨S_, .i32⟩ : BufTy).Contents (Elt F) :=
  (constantI S_ 32 0#32)

def val_main_call5_v7 (F : FTy → Type) [FloatOps F] : (⟨S780, .i32⟩ : BufTy).Contents (Elt F) :=
  (broadcastInDim S780 ![] bcast_S_S780) (val_main_call5_c_2 F)

def val_main_call5_v8 (F : FTy → Type) [FloatOps F] : (⟨S780, .i1⟩ : BufTy).Contents (Elt F) :=
  (cmpi .slt) (val_main_call5_v4 F) (val_main_call5_v7 F)

def val_main_call5_c_3 (F : FTy → Type) [FloatOps F] : (⟨S_, .i32⟩ : BufTy).Contents (Elt F) :=
  (constantI S_ 32 0#32)

def val_main_call5_v9 (F : FTy → Type) [FloatOps F] : (⟨S_, .i1⟩ : BufTy).Contents (Elt F) :=
  (cmpi .slt) (val_main_call5_v2 F) (val_main_call5_c_3 F)

def val_main_call5_v10 (F : FTy → Type) [FloatOps F] : (⟨S780, .i1⟩ : BufTy).Contents (Elt F) :=
  (broadcastInDim S780 ![] bcast_S_S780) (val_main_call5_v9 F)

def val_main_call5_v11 (F : FTy → Type) [FloatOps F] : (⟨S780, .i1⟩ : BufTy).Contents (Elt F) :=
  (cmpi .ne) (val_main_call5_v8 F) (val_main_call5_v10 F)

def val_main_call5_v12 (F : FTy → Type) [FloatOps F] : (⟨S780, .i1⟩ : BufTy).Contents (Elt F) :=
  andi (val_main_call5_v11 F) (val_main_call5_v6 F)

def val_main_call5_v13 (F : FTy → Type) [FloatOps F] : (⟨S780, .i32⟩ : BufTy).Contents (Elt F) :=
  (broadcastInDim S780 ![] bcast_S_S780) (val_main_call5_v2 F)

def val_main_call5_v14 (F : FTy → Type) [FloatOps F] : (⟨S780, .i32⟩ : BufTy).Contents (Elt F) :=
  addi (val_main_call5_v4 F) (val_main_call5_v13 F)

def val_main_v18 (F : FTy → Type) [FloatOps F] : (⟨S780, .i32⟩ : BufTy).Contents (Elt F) :=
  select (val_main_call5_v12 F) (val_main_call5_v14 F) (val_main_call5_v4 F)

def val_main_c_7 (F : FTy → Type) [FloatOps F] : (⟨S_, .i32⟩ : BufTy).Contents (Elt F) :=
  (constantI S_ 32 1#32)

def val_main_call6_v0 (F : FTy → Type) [FloatOps F] : (⟨S780, .i32⟩ : BufTy).Contents (Elt F) :=
  (broadcastInDim S780 ![] bcast_S_S780) (val_main_c_7 F)

def val_main_call6_v1 (F : FTy → Type) [FloatOps F] : (⟨S780, .i32⟩ : BufTy).Contents (Elt F) :=
  Host.divsi (val_main_v16 F) (val_main_call6_v0 F)

def val_main_call6_v2 (F : FTy → Type) [FloatOps F] : (⟨S780, .i32⟩ : BufTy).Contents (Elt F) :=
  signi (val_main_v16 F)

def val_main_call6_v3 (F : FTy → Type) [FloatOps F] : (⟨S_, .i32⟩ : BufTy).Contents (Elt F) :=
  signi (val_main_c_7 F)

def val_main_call6_v4 (F : FTy → Type) [FloatOps F] : (⟨S780, .i32⟩ : BufTy).Contents (Elt F) :=
  (broadcastInDim S780 ![] bcast_S_S780) (val_main_call6_v3 F)

def val_main_call6_v5 (F : FTy → Type) [FloatOps F] : (⟨S780, .i1⟩ : BufTy).Contents (Elt F) :=
  (cmpi .ne) (val_main_call6_v2 F) (val_main_call6_v4 F)

def val_main_call6_v6 (F : FTy → Type) [FloatOps F] : (⟨S780, .i32⟩ : BufTy).Contents (Elt F) :=
  (broadcastInDim S780 ![] bcast_S_S780) (val_main_c_7 F)

def val_main_call6_v7 (F : FTy → Type) [FloatOps F] : (⟨S780, .i32⟩ : BufTy).Contents (Elt F) :=
  Host.remsi (val_main_v16 F) (val_main_call6_v6 F)

def val_main_call6_c (F : FTy → Type) [FloatOps F] : (⟨S_, .i32⟩ : BufTy).Contents (Elt F) :=
  (constantI S_ 32 0#32)

def val_main_call6_v8 (F : FTy → Type) [FloatOps F] : (⟨S780, .i32⟩ : BufTy).Contents (Elt F) :=
  (broadcastInDim S780 ![] bcast_S_S780) (val_main_call6_c F)

def val_main_call6_v9 (F : FTy → Type) [FloatOps F] : (⟨S780, .i1⟩ : BufTy).Contents (Elt F) :=
  (cmpi .ne) (val_main_call6_v7 F) (val_main_call6_v8 F)

def val_main_call6_v10 (F : FTy → Type) [FloatOps F] : (⟨S780, .i1⟩ : BufTy).Contents (Elt F) :=
  andi (val_main_call6_v5 F) (val_main_call6_v9 F)

def val_main_call6_c_0 (F : FTy → Type) [FloatOps F] : (⟨S_, .i32⟩ : BufTy).Contents (Elt F) :=
  (constantI S_ 32 1#32)

def val_main_call6_v11 (F : FTy → Type) [FloatOps F] : (⟨S780, .i32⟩ : BufTy).Contents (Elt F) :=
  (broadcastInDim S780 ![] bcast_S_S780) (val_main_call6_c_0 F)

def val_main_call6_v12 (F : FTy → Type) [FloatOps F] : (⟨S780, .i32⟩ : BufTy).Contents (Elt F) :=
  subi (val_main_call6_v1 F) (val_main_call6_v11 F)

def val_main_v19 (F : FTy → Type) [FloatOps F] : (⟨S780, .i32⟩ : BufTy).Contents (Elt F) :=
  select (val_main_call6_v10 F) (val_main_call6_v12 F) (val_main_call6_v1 F)

def val_main_c_8 (F : FTy → Type) [FloatOps F] : (⟨S_, .i32⟩ : BufTy).Contents (Elt F) :=
  (constantI S_ 32 40#32)

def val_main_call7_v0 (F : FTy → Type) [FloatOps F] : (⟨S_, .i32⟩ : BufTy).Contents (Elt F) :=
  id (val_main_c_8 F)

def val_main_call7_c (F : FTy → Type) [FloatOps F] : (⟨S_, .i32⟩ : BufTy).Contents (Elt F) :=
  (constantI S_ 32 0#32)

def val_main_call7_v1 (F : FTy → Type) [FloatOps F] : (⟨S_, .i1⟩ : BufTy).Contents (Elt F) :=
  (cmpi .eq) (val_main_call7_v0 F) (val_main_call7_c F)

def val_main_call7_c_0 (F : FTy → Type) [FloatOps F] : (⟨S_, .i32⟩ : BufTy).Contents (Elt F) :=
  (constantI S_ 32 1#32)

def val_main_call7_v2 (F : FTy → Type) [FloatOps F] : (⟨S_, .i32⟩ : BufTy).Contents (Elt F) :=
  select (val_main_call7_v1 F) (val_main_call7_c_0 F) (val_main_call7_v0 F)

def val_main_call7_v3 (F : FTy → Type) [FloatOps F] : (⟨S780, .i32⟩ : BufTy).Contents (Elt F) :=
  (broadcastInDim S780 ![] bcast_S_S780) (val_main_call7_v2 F)

def val_main_call7_v4 (F : FTy → Type) [FloatOps F] : (⟨S780, .i32⟩ : BufTy).Contents (Elt F) :=
  Host.remsi (val_main_v19 F) (val_main_call7_v3 F)

def val_main_call7_c_1 (F : FTy → Type) [FloatOps F] : (⟨S_, .i32⟩ : BufTy).Contents (Elt F) :=
  (constantI S_ 32 0#32)

def val_main_call7_v5 (F : FTy → Type) [FloatOps F] : (⟨S780, .i32⟩ : BufTy).Contents (Elt F) :=
  (broadcastInDim S780 ![] bcast_S_S780) (val_main_call7_c_1 F)

def val_main_call7_v6 (F : FTy → Type) [FloatOps F] : (⟨S780, .i1⟩ : BufTy).Contents (Elt F) :=
  (cmpi .ne) (val_main_call7_v4 F) (val_main_call7_v5 F)

def val_main_call7_c_2 (F : FTy → Type) [FloatOps F] : (⟨S_, .i32⟩ : BufTy).Contents (Elt F) :=
  (constantI S_ 32 0#32)

def val_main_call7_v7 (F : FTy → Type) [FloatOps F] : (⟨S780, .i32⟩ : BufTy).Contents (Elt F) :=
  (broadcastInDim S780 ![] bcast_S_S780) (val_main_call7_c_2 F)

def val_main_call7_v8 (F : FTy → Type) [FloatOps F] : (⟨S780, .i1⟩ : BufTy).Contents (Elt F) :=
  (cmpi .slt) (val_main_call7_v4 F) (val_main_call7_v7 F)

def val_main_call7_c_3 (F : FTy → Type) [FloatOps F] : (⟨S_, .i32⟩ : BufTy).Contents (Elt F) :=
  (constantI S_ 32 0#32)

def val_main_call7_v9 (F : FTy → Type) [FloatOps F] : (⟨S_, .i1⟩ : BufTy).Contents (Elt F) :=
  (cmpi .slt) (val_main_call7_v2 F) (val_main_call7_c_3 F)

def val_main_call7_v10 (F : FTy → Type) [FloatOps F] : (⟨S780, .i1⟩ : BufTy).Contents (Elt F) :=
  (broadcastInDim S780 ![] bcast_S_S780) (val_main_call7_v9 F)

def val_main_call7_v11 (F : FTy → Type) [FloatOps F] : (⟨S780, .i1⟩ : BufTy).Contents (Elt F) :=
  (cmpi .ne) (val_main_call7_v8 F) (val_main_call7_v10 F)

def val_main_call7_v12 (F : FTy → Type) [FloatOps F] : (⟨S780, .i1⟩ : BufTy).Contents (Elt F) :=
  andi (val_main_call7_v11 F) (val_main_call7_v6 F)

def val_main_call7_v13 (F : FTy → Type) [FloatOps F] : (⟨S780, .i32⟩ : BufTy).Contents (Elt F) :=
  (broadcastInDim S780 ![] bcast_S_S780) (val_main_call7_v2 F)

def val_main_call7_v14 (F : FTy → Type) [FloatOps F] : (⟨S780, .i32⟩ : BufTy).Contents (Elt F) :=
  addi (val_main_call7_v4 F) (val_main_call7_v13 F)

def val_main_v20 (F : FTy → Type) [FloatOps F] : (⟨S780, .i32⟩ : BufTy).Contents (Elt F) :=
  select (val_main_call7_v12 F) (val_main_call7_v14 F) (val_main_call7_v4 F)

def val_main_c_9 (F : FTy → Type) [FloatOps F] : (⟨S_, .i32⟩ : BufTy).Contents (Elt F) :=
  (constantI S_ 32 0#32)

def val_main_v21 (F : FTy → Type) [FloatOps F] : (⟨S780, .i32⟩ : BufTy).Contents (Elt F) :=
  (broadcastInDim S780 ![] bcast_S_S780 : (⟨S_, .i32⟩ : BufTy).Contents (Elt F) → (⟨S780, .i32⟩ : BufTy).Contents (Elt F)) (val_main_c_9 F)

def val_main_v22 (F : FTy → Type) [FloatOps F] : (⟨S780, .i1⟩ : BufTy).Contents (Elt F) :=
  (cmpi .slt : (⟨S780, .i32⟩ : BufTy).Contents (Elt F) → (⟨S780, .i32⟩ : BufTy).Contents (Elt F) → (⟨S780, .i1⟩ : BufTy).Contents (Elt F)) (val_main_v18 F) (val_main_v21 F)

def val_main_c_10 (F : FTy → Type) [FloatOps F] : (⟨S_, .i32⟩ : BufTy).Contents (Elt F) :=
  (constantI S_ 32 40#32)

def val_main_v23 (F : FTy → Type) [FloatOps F] : (⟨S780, .i32⟩ : BufTy).Contents (Elt F) :=
  (broadcastInDim S780 ![] bcast_S_S780 : (⟨S_, .i32⟩ : BufTy).Contents (Elt F) → (⟨S780, .i32⟩ : BufTy).Contents (Elt F)) (val_main_c_10 F)

def val_main_v24 (F : FTy → Type) [FloatOps F] : (⟨S780, .i32⟩ : BufTy).Contents (Elt F) :=
  (addi : (⟨S780, .i32⟩ : BufTy).Contents (Elt F) → (⟨S780, .i32⟩ : BufTy).Contents (Elt F) → (⟨S780, .i32⟩ : BufTy).Contents (Elt F)) (val_main_v18 F) (val_main_v23 F)

def val_main_v25 (F : FTy → Type) [FloatOps F] : (⟨S780, .i32⟩ : BufTy).Contents (Elt F) :=
  (select : (⟨S780, .i1⟩ : BufTy).Contents (Elt F) → (⟨S780, .i32⟩ : BufTy).Contents (Elt F) → (⟨S780, .i32⟩ : BufTy).Contents (Elt F) → (⟨S780, .i32⟩ : BufTy).Contents (Elt F)) (val_main_v22 F) (val_main_v24 F) (val_main_v18 F)

def val_main_v26 (F : FTy → Type) [FloatOps F] : (⟨S780x1, .i32⟩ : BufTy).Contents (Elt F) :=
  (broadcastInDim S780x1 ![0] bcast_S780_S780x1_0 : (⟨S780, .i32⟩ : BufTy).Contents (Elt F) → (⟨S780x1, .i32⟩ : BufTy).Contents (Elt F)) (val_main_v25 F)

def val_main_v27 (F : FTy → Type) [FloatOps F] (x : (⟨S2048x40x128, .f32⟩ : BufTy).Contents (Elt F)) : (⟨S2048x780x128, .f32⟩ : BufTy).Contents (Elt F) :=
  ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)) x (val_main_v26 F)

def val_main_c_11 (F : FTy → Type) [FloatOps F] : (⟨S_, .i32⟩ : BufTy).Contents (Elt F) :=
  (constantI S_ 32 0#32)

def val_main_v28 (F : FTy → Type) [FloatOps F] : (⟨S780, .i32⟩ : BufTy).Contents (Elt F) :=
  (broadcastInDim S780 ![] bcast_S_S780 : (⟨S_, .i32⟩ : BufTy).Contents (Elt F) → (⟨S780, .i32⟩ : BufTy).Contents (Elt F)) (val_main_c_11 F)

def val_main_v29 (F : FTy → Type) [FloatOps F] : (⟨S780, .i1⟩ : BufTy).Contents (Elt F) :=
  (cmpi .slt : (⟨S780, .i32⟩ : BufTy).Contents (Elt F) → (⟨S780, .i32⟩ : BufTy).Contents (Elt F) → (⟨S780, .i1⟩ : BufTy).Contents (Elt F)) (val_main_v20 F) (val_main_v28 F)

def val_main_c_12 (F : FTy → Type) [FloatOps F] : (⟨S_, .i32⟩ : BufTy).Contents (Elt F) :=
  (constantI S_ 32 40#32)

def val_main_v30 (F : FTy → Type) [FloatOps F] : (⟨S780, .i32⟩ : BufTy).Contents (Elt F) :=
  (broadcastInDim S780 ![] bcast_S_S780 : (⟨S_, .i32⟩ : BufTy).Contents (Elt F) → (⟨S780, .i32⟩ : BufTy).Contents (Elt F)) (val_main_c_12 F)

def val_main_v31 (F : FTy → Type) [FloatOps F] : (⟨S780, .i32⟩ : BufTy).Contents (Elt F) :=
  (addi : (⟨S780, .i32⟩ : BufTy).Contents (Elt F) → (⟨S780, .i32⟩ : BufTy).Contents (Elt F) → (⟨S780, .i32⟩ : BufTy).Contents (Elt F)) (val_main_v20 F) (val_main_v30 F)

def val_main_v32 (F : FTy → Type) [FloatOps F] : (⟨S780, .i32⟩ : BufTy).Contents (Elt F) :=
  (select : (⟨S780, .i1⟩ : BufTy).Contents (Elt F) → (⟨S780, .i32⟩ : BufTy).Contents (Elt F) → (⟨S780, .i32⟩ : BufTy).Contents (Elt F) → (⟨S780, .i32⟩ : BufTy).Contents (Elt F)) (val_main_v29 F) (val_main_v31 F) (val_main_v20 F)

def val_main_v33 (F : FTy → Type) [FloatOps F] : (⟨S780x1, .i32⟩ : BufTy).Contents (Elt F) :=
  (broadcastInDim S780x1 ![0] bcast_S780_S780x1_0 : (⟨S780, .i32⟩ : BufTy).Contents (Elt F) → (⟨S780x1, .i32⟩ : BufTy).Contents (Elt F)) (val_main_v32 F)

def val_main_v34 (F : FTy → Type) [FloatOps F] (x : (⟨S2048x40x128, .f32⟩ : BufTy).Contents (Elt F)) (W : (⟨S128x128, .f32⟩ : BufTy).Contents (Elt F)) : (⟨S2048x780x128, .f32⟩ : BufTy).Contents (Elt F) :=
  ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)) (val_main_v0 F x W) (val_main_v33 F)

def val_main_v35 (F : FTy → Type) [FloatOps F] (x : (⟨S2048x40x128, .f32⟩ : BufTy).Contents (Elt F)) (W : (⟨S128x128, .f32⟩ : BufTy).Contents (Elt F)) : (⟨S2048x780x128, .f32⟩ : BufTy).Contents (Elt F) :=
  (mulf : (⟨S2048x780x128, .f32⟩ : BufTy).Contents (Elt F) → (⟨S2048x780x128, .f32⟩ : BufTy).Contents (Elt F) → (⟨S2048x780x128, .f32⟩ : BufTy).Contents (Elt F)) (val_main_v27 F x) (val_main_v34 F x W)

end Cert.ReferenceIdeal.Listed

end
-- ==== Proof.RefRun.lean ====
/-
  The reference program run to its end. Its @main is a straight line of host operations once the module-local
  functions are opened at their calls, so every weakly fair execution terminates with each buffer at the value
  the listed operations compose, and the two argument arrays are never written. The composed value of the result is
  read stretch by stretch: within a stretch the values that come in from earlier ones are left unnamed, and few values
  are live where the list is cut — the projection of x, and the index arrays made so far.
-/
import proofs.«140554_j24747601560016_1_alg».proof.Proof.RefOps
import Idealize.ShloMosaic.Lib.Pipeline.Regions
import Idealize.ShloMosaic.Lib.Pipeline.Frame

noncomputable section

namespace Cert.ReferenceIdeal.Listed

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- @main is the listed straight line: the functions' bodies unfolded at their calls, sequencing reassociated. -/
theorem main_eq (c : Dev nD) : main (F := F) c = seq ops := by
  simp only [main, fn_triu.body, fn_cumsum_0.body, fn_cumsum.body, fn_clip.body, fn_cumsum_2.body, fn_cumsum_1.body,
    fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- The list is its eight stretches in order: the same operations, appended. -/
theorem ops_split : (ops : List (HloOp τ sig (Elt F)))
    = ops1 ++ (ops2 ++ (ops3 ++ (ops4 ++ (ops5 ++ (ops6 ++ (ops7 ++ ops8)))))) := by
  chain_rfl

/-! ## Stretch by stretch, from any incoming values -/

section Stretches

attribute [local irreducible] Host.reduceWindow Host.gather Host.scatter

set_option maxRecDepth 16384

/-- First stretch: the projection of x through W, and the running count of the mask. -/
theorem s1_v0 (U : Valuation τ sig (Elt F)) :
    after ops1 U (main_v0 : DevRef τ sig) = val_main_v0 F (U (main_arg0 : DevRef τ sig)) (U (main_arg1 : DevRef τ sig)) := by
  after_results_simp
  rfl
theorem s1_v5 (U : Valuation τ sig (Elt F)) : after ops1 U (main_v5 : DevRef τ sig) = val_main_v5 F := by
  after_results_simp
  rfl
theorem s1_arg0 (U : Valuation τ sig (Elt F)) : after ops1 U (main_arg0 : DevRef τ sig) = U (main_arg0 : DevRef τ sig) := by
  after_results_simp

/-- Second: from the running count to the tally. Third: its running sum, the flat positions. -/
theorem s2_v15 (U : Valuation τ sig (Elt F)) (h : U (main_v5 : DevRef τ sig) = val_main_v5 F) :
    after ops2 U (main_v15 : DevRef τ sig) = val_main_v15 F := by
  after_results_simp
  rw [h]
  rfl
theorem s3_v16 (U : Valuation τ sig (Elt F)) (h : U (main_v15 : DevRef τ sig) = val_main_v15 F) :
    after ops3 U (main_v16 : DevRef τ sig) = val_main_v16 F := by
  after_results_simp
  rw [h]
  rfl
/-- Fourth and fifth: the flat positions floor-divided by 40, then reduced by 40: the first field index. -/
theorem s4_v17 (U : Valuation τ sig (Elt F)) (h : U (main_v16 : DevRef τ sig) = val_main_v16 F) :
    after ops4 U (main_v17 : DevRef τ sig) = val_main_v17 F := by
  after_results_simp
  rw [h]
  rfl
theorem s5_v18 (U : Valuation τ sig (Elt F)) (h : U (main_v17 : DevRef τ sig) = val_main_v17 F) :
    after ops5 U (main_v18 : DevRef τ sig) = val_main_v18 F := by
  after_results_simp
  rw [h]
  rfl
/-- Sixth and seventh: the flat positions floor-divided by 1, then reduced by 40: the second field index. -/
theorem s6_v19 (U : Valuation τ sig (Elt F)) (h : U (main_v16 : DevRef τ sig) = val_main_v16 F) :
    after ops6 U (main_v19 : DevRef τ sig) = val_main_v19 F := by
  after_results_simp
  rw [h]
  rfl
theorem s7_v20 (U : Valuation τ sig (Elt F)) (h : U (main_v19 : DevRef τ sig) = val_main_v19 F) :
    after ops7 U (main_v20 : DevRef τ sig) = val_main_v20 F := by
  after_results_simp
  rw [h]
  rfl

/-- A stretch leaves alone what it does not write. -/
theorem s2_v0 (U : Valuation τ sig (Elt F)) : after ops2 U (main_v0 : DevRef τ sig) = U (main_v0 : DevRef τ sig) := by
  after_results_simp
theorem s2_arg0 (U : Valuation τ sig (Elt F)) : after ops2 U (main_arg0 : DevRef τ sig) = U (main_arg0 : DevRef τ sig) := by
  after_results_simp
theorem s3_v0 (U : Valuation τ sig (Elt F)) : after ops3 U (main_v0 : DevRef τ sig) = U (main_v0 : DevRef τ sig) := by
  after_results_simp
theorem s3_arg0 (U : Valuation τ sig (Elt F)) : after ops3 U (main_arg0 : DevRef τ sig) = U (main_arg0 : DevRef τ sig) := by
  after_results_simp
theorem s4_v0 (U : Valuation τ sig (Elt F)) : after ops4 U (main_v0 : DevRef τ sig) = U (main_v0 : DevRef τ sig) := by
  after_results_simp
theorem s4_arg0 (U : Valuation τ sig (Elt F)) : after ops4 U (main_arg0 : DevRef τ sig) = U (main_arg0 : DevRef τ sig) := by
  after_results_simp
theorem s4_v16 (U : Valuation τ sig (Elt F)) : after ops4 U (main_v16 : DevRef τ sig) = U (main_v16 : DevRef τ sig) := by
  after_results_simp
theorem s5_v0 (U : Valuation τ sig (Elt F)) : after ops5 U (main_v0 : DevRef τ sig) = U (main_v0 : DevRef τ sig) := by
  after_results_simp
theorem s5_arg0 (U : Valuation τ sig (Elt F)) : after ops5 U (main_arg0 : DevRef τ sig) = U (main_arg0 : DevRef τ sig) := by
  after_results_simp
theorem s5_v16 (U : Valuation τ sig (Elt F)) : after ops5 U (main_v16 : DevRef τ sig) = U (main_v16 : DevRef τ sig) := by
  after_results_simp
theorem s6_v0 (U : Valuation τ sig (Elt F)) : after ops6 U (main_v0 : DevRef τ sig) = U (main_v0 : DevRef τ sig) := by
  after_results_simp
theorem s6_arg0 (U : Valuation τ sig (Elt F)) : after ops6 U (main_arg0 : DevRef τ sig) = U (main_arg0 : DevRef τ sig) := by
  after_results_simp
theorem s6_v18 (U : Valuation τ sig (Elt F)) : after ops6 U (main_v18 : DevRef τ sig) = U (main_v18 : DevRef τ sig) := by
  after_results_simp
theorem s7_v0 (U : Valuation τ sig (Elt F)) : after ops7 U (main_v0 : DevRef τ sig) = U (main_v0 : DevRef τ sig) := by
  after_results_simp
theorem s7_arg0 (U : Valuation τ sig (Elt F)) : after ops7 U (main_arg0 : DevRef τ sig) = U (main_arg0 : DevRef τ sig) := by
  after_results_simp
theorem s7_v18 (U : Valuation τ sig (Elt F)) : after ops7 U (main_v18 : DevRef τ sig) = U (main_v18 : DevRef τ sig) := by
  after_results_simp

/-- Last stretch: the rows of x and of the projection the two index arrays name, multiplied. -/
theorem s8_v35 (U : Valuation τ sig (Elt F)) (x : (⟨S2048x40x128, .f32⟩ : BufTy).Contents (Elt F))
    (W : (⟨S128x128, .f32⟩ : BufTy).Contents (Elt F))
    (h18 : U (main_v18 : DevRef τ sig) = val_main_v18 F) (h20 : U (main_v20 : DevRef τ sig) = val_main_v20 F)
    (h0 : U (main_v0 : DevRef τ sig) = val_main_v0 F x W) (hx : U (main_arg0 : DevRef τ sig) = x) :
    after ops8 U (main_v35 : DevRef τ sig) = val_main_v35 F x W := by
  after_results_simp
  rw [h18, h20, h0, hx]
  rfl

end Stretches

/-- The result buffer after the listed operations: the composed value of the two argument arrays. -/
theorem out_eq (V : Valuation τ sig (Elt F)) :
    after ops V (main_v35 : DevRef τ sig)
      = val_main_v35 F (V (main_arg0 : DevRef τ sig)) (V (main_arg1 : DevRef τ sig)) := by
  rw [ops_split]
  simp only [Idealize.ShloMosaic.StableHlo.after_append]
  have h16 := s3_v16 (after ops2 (after ops1 V)) (s2_v15 _ (s1_v5 V))
  refine s8_v35 _ _ _ ?_ ?_ ?_ ?_
  · rw [s7_v18, s6_v18]; exact s5_v18 _ (s4_v17 _ h16)
  · exact s7_v20 _ (s6_v19 _ (by rw [s5_v16, s4_v16]; exact h16))
  · rw [s7_v0, s6_v0, s5_v0, s4_v0, s3_v0, s2_v0]; exact s1_v0 V
  · rw [s7_arg0, s6_arg0, s5_arg0, s4_arg0, s3_arg0, s2_arg0]; exact s1_arg0 V

set_option maxRecDepth 16384 in
theorem arg0_eq (V : Valuation τ sig (Elt F)) :
    after ops V (main_arg0 : DevRef τ sig) = V (main_arg0 : DevRef τ sig) := by
  after_results_simp

set_option maxRecDepth 16384 in
theorem arg1_eq (V : Valuation τ sig (Elt F)) :
    after ops V (main_arg1 : DevRef τ sig) = V (main_arg1 : DevRef τ sig) := by
  after_results_simp

/-- Every weakly fair execution of the reference ends with the result array at the composed value of the argument
    arrays as launched, and the argument arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = val_main_v35 F (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.Listed

end
-- ==== Proof.LibCumsum.lean ====
/-
  A prefix sum written as a windowed reduction. A rank-1 array of n words, reduced by addition over a
  window of n positions after padding n - 1 zeros in front, holds at position j the sum of the entries at
  positions 0 … j: the window that ends at j sees j + 1 real entries and n - 1 - j padded zeros.
-/
import Idealize.ShloMosaic.PureOps
import Idealize.ShloMosaic.Lib.ValueIdx
import Mathlib.Algebra.BigOperators.Fin
import Mathlib.Algebra.BigOperators.Group.Finset.Basic
import Mathlib.Data.BitVec

namespace Cert.Lib.Cumsum

open Idealize.ShloMosaic Idealize.ShloMosaic.ValueIdx
open scoped BigOperators

/-- A left fold of word addition is the start value plus the sum of the list. -/
private theorem foldl_addi_eq {β : Type} (g : β → BitVec 32) (l : List β) (v : BitVec 32) :
    l.foldl (fun r a => IntOp.addi r (g a)) v = v + (l.map g).sum := by
  induction l generalizing v with
  | nil => simp
  | cons a l ih =>
    rw [List.foldl_cons, ih, List.map_cons, List.sum_cons]
    show v + g a + _ = _
    rw [add_assoc]

/-- A window of one axis has as many positions as that axis is long. -/
private theorem numel_one (window : Fin 1 → Nat) : (⟨1, window⟩ : Shape).numel = window 0 := by
  show ∏ a : Fin 1, window a = _
  simp

/-- On one axis the position numbered m is the coordinate m. -/
private theorem rowMajor_symm_one (window : Fin 1 → Nat) (m : Fin (⟨1, window⟩ : Shape).numel) :
    (((⟨1, window⟩ : Shape).rowMajor.symm m) 0).val = m.val := by
  have h := Shape.rowMajor_val_one ((⟨1, window⟩ : Shape).rowMajor.symm m)
  rw [Equiv.apply_symm_apply] at h
  exact h.symm

/-- The entry at position k of the array, zero past its end. -/
private def ext {n : Nat} (x : IVec ⟨1, ![n]⟩ 32) (k : Nat) : BitVec 32 :=
  if h : k < n then x (ix1 ⟨k, h⟩) else 0#32

private theorem ext_val {n : Nat} (x : IVec ⟨1, ![n]⟩ 32) (k : Fin n) : ext x k.val = x (ix1 k) := by
  unfold ext; rw [dif_pos k.isLt]

/-- The shifted sum over the window's positions is the sum over the entries up to j. -/
private theorem sum_window_eq (n j : Nat) (hj : j < n) (F : Nat → BitVec 32) :
    ∑ m ∈ Finset.range n, (if n - 1 ≤ j + m then F (j + m - (n - 1)) else 0#32)
      = ∑ k ∈ Finset.range n, (if k ≤ j then F k else 0#32) := by
  -- both are the sum of F over 0 … j: on the left the first n - 1 - j positions read the pad and the
  -- remaining j + 1 read F 0 … F j in order; on the right the entries after j are dropped
  have e1 : n = (n - 1 - j) + (j + 1) := by omega
  have e2 : n = (j + 1) + (n - 1 - j) := by omega
  have hL : ∑ m ∈ Finset.range n, (if n - 1 ≤ j + m then F (j + m - (n - 1)) else 0#32)
      = ∑ k ∈ Finset.range (j + 1), F k := by
    conv_lhs => rw [e1]
    rw [Finset.sum_range_add]
    rw [Finset.sum_eq_zero (fun m hm => by
      rw [Finset.mem_range] at hm
      rw [if_neg (by omega)]; rfl), zero_add]
    refine Finset.sum_congr rfl fun k hk => ?_
    rw [Finset.mem_range] at hk
    rw [if_pos (by omega)]
    congr 1; omega
  have hR : ∑ k ∈ Finset.range n, (if k ≤ j then F k else 0#32)
      = ∑ k ∈ Finset.range (j + 1), F k := by
    conv_lhs => rw [e2]
    rw [Finset.sum_range_add]
    rw [Finset.sum_eq_zero (s := Finset.range (n - 1 - j)) (fun m hm => by
      rw [if_neg (by omega)]; rfl), add_zero]
    refine Finset.sum_congr rfl fun k hk => ?_
    rw [Finset.mem_range] at hk
    rw [if_pos (by omega)]
  rw [hL, hR]

/-- A sum of words whose values do not add up past the word has the sum of the values as its value. -/
private theorem toNat_sum {ι : Type} (S : Finset ι) (f : ι → BitVec 32)
    (hS : ∑ i ∈ S, (f i).toNat < 2 ^ 32) : (∑ i ∈ S, f i).toNat = ∑ i ∈ S, (f i).toNat := by
  induction S using Finset.cons_induction with
  | empty => simp
  | cons a S ha ih =>
    rw [Finset.sum_cons] at hS
    rw [Finset.sum_cons, Finset.sum_cons, BitVec.toNat_add, ih (by omega)]
    exact Nat.mod_eq_of_lt (by omega)

/-- The windowed sum with a full-length left pad is the prefix sum, in the ring of 32-bit words. -/
theorem reduceWindow_prefix {n : Nat} (window strides lo hi : Fin 1 → Nat)
    (hw : window 0 = n) (hs : strides 0 = 1) (hlo : lo 0 + 1 = n) (hhi : hi 0 = 0)
    (x : IVec ⟨1, ![n]⟩ 32) {u : Shape} (init : IVec u 32)
    (h : (⟨1, ![n]⟩ : Shape).ReduceWindows window strides lo hi ⟨1, ![n]⟩) (hu : 0 < u.numel)
    (h0 : init (Shape.Idx.first hu) = 0#32) (j : Fin n) :
    Host.reduceWindow IntOp.addi window strides lo hi x init h hu (ix1 j)
      = ∑ k : Fin n, if k.val ≤ j.val then x (ix1 k) else 0#32 := by
  -- the fold from the zero start value is the sum, over the window's positions, of what each position reads
  unfold Host.reduceWindow
  simp only
  rw [foldl_addi_eq, h0, BitVec.zero_add, ← Fin.sum_univ_def]
  -- position m of the window that ends at j reads entry j + m - (n - 1) when n - 1 ≤ j + m, else the pad
  trans ∑ m : Fin (⟨1, window⟩ : Shape).numel,
      (fun k : Nat => if n - 1 ≤ j.val + k then ext x (j.val + k - (n - 1)) else 0#32) m.val
  · refine Finset.sum_congr rfl fun m _ => ?_
    have hm := rowMajor_symm_one window m
    have hmlt : m.val < n := by have e := numel_one window; have := m.isLt; omega
    show _ = (if n - 1 ≤ j.val + m.val then ext x (j.val + m.val - (n - 1)) else 0#32)
    have hp : ∀ a : Fin 1, (ix1 j (Fin.cast h.1.symm a)).val * strides a
        + (((⟨1, window⟩ : Shape).rowMajor.symm m) a).val = j.val + m.val := by
      intro a
      have ha : a = 0 := Subsingleton.elim _ _
      subst ha
      rw [hm, hs]
      show j.val * 1 + m.val = _
      omega
    -- the read is inside the array exactly when n - 1 ≤ j + m: its upper bound holds as j, m ≤ n - 1
    by_cases hc : n - 1 ≤ j.val + m.val
    · rw [if_pos hc, dif_pos (by
        intro a
        rw [hp a]
        have ha : a = 0 := Subsingleton.elim _ _
        subst ha
        refine ⟨by omega, ?_⟩
        show _ < n
        omega)]
      unfold ext
      rw [dif_pos (by omega)]
      congr 1
      funext a
      have ha : a = 0 := Subsingleton.elim _ _
      subst ha
      refine Fin.ext ?_
      show _ - lo 0 = j.val + m.val - (n - 1)
      rw [hp 0]
      omega
    · rw [if_neg hc, dif_neg (fun hin => hc (by
        have := (hin 0).1
        rw [hp 0] at this
        omega))]
  -- as sums over the numbers below n, the shift m ↦ j + m - (n - 1) carries one onto the other
  · rw [Fin.sum_univ_eq_sum_range
        (fun k : Nat => if n - 1 ≤ j.val + k then ext x (j.val + k - (n - 1)) else 0#32),
      numel_one, hw, sum_window_eq n j.val j.isLt (ext x),
      ← Fin.sum_univ_eq_sum_range (fun k => if k ≤ j.val then ext x k else 0#32)]
    refine Finset.sum_congr rfl fun k _ => ?_
    rw [ext_val]

/-- The same as a natural number, when the entries' values do not add up past the word. -/
theorem toNat_reduceWindow_prefix {n : Nat} (window strides lo hi : Fin 1 → Nat)
    (hw : window 0 = n) (hs : strides 0 = 1) (hlo : lo 0 + 1 = n) (hhi : hi 0 = 0)
    (x : IVec ⟨1, ![n]⟩ 32) {u : Shape} (init : IVec u 32)
    (h : (⟨1, ![n]⟩ : Shape).ReduceWindows window strides lo hi ⟨1, ![n]⟩) (hu : 0 < u.numel)
    (h0 : init (Shape.Idx.first hu) = 0#32) (j : Fin n)
    (hsmall : ∑ k : Fin n, (x (ix1 k)).toNat < 2 ^ 32) :
    (Host.reduceWindow IntOp.addi window strides lo hi x init h hu (ix1 j)).toNat
      = ∑ k : Fin n, if k.val ≤ j.val then (x (ix1 k)).toNat else 0 := by
  rw [reduceWindow_prefix window strides lo hi hw hs hlo hhi x init h hu h0 j]
  -- the value of each summand: the entry's value up to j, zero after
  have hf : ∀ k : Fin n, (if k.val ≤ j.val then x (ix1 k) else 0#32).toNat
      = if k.val ≤ j.val then (x (ix1 k)).toNat else 0 := by
    intro k
    split <;> rfl
  -- the summands' values are at most the entries' values, so they do not add up past the word either
  have hb : ∑ k : Fin n, (if k.val ≤ j.val then x (ix1 k) else 0#32).toNat < 2 ^ 32 := by
    refine lt_of_le_of_lt (Finset.sum_le_sum fun k _ => ?_) hsmall
    rw [hf k]
    split <;> omega
  rw [toNat_sum _ _ hb]
  exact Finset.sum_congr rfl fun k _ => hf k

end Cert.Lib.Cumsum
-- ==== Proof.LibScatterAdd.lean ====
/-
  A scatter that adds. Every update either lands on one position of the operand or is dropped, and the
  operand's entry at a position ends as what it held plus the sum of the updates that landed there, in any
  order, addition of words being associative and commutative. For a rank-1 operand indexed by a column of
  words, with every update the word 1, that sum is a count: how many index words name the position.
-/
import Idealize.ShloMosaic.PureOps
import Idealize.ShloMosaic.Lib.ValueIdx
import Idealize.ShloMosaic.Lib.StableHlo.Predicate
import Mathlib.Algebra.BigOperators.Fin
import Mathlib.Data.BitVec

namespace Cert.Lib.ScatterAdd

open Idealize.ShloMosaic Idealize.ShloMosaic.ValueIdx Idealize.ShloMosaic.StableHlo.Predicate
open scoped BigOperators

/-- What an adding scatter leaves at position `i`: the operand's entry plus every update that lands on `i`. -/
theorem scatter_addi_apply {s si u : Shape} {w : Nat} (d : ScatterDims s si u) (x : IVec s 32) (idx : IVec si w)
    (upd : IVec u 32) (i : s.Idx) :
    Host.scatter d IntOp.addi x idx upd i
      = x i + ∑ n : Fin u.numel,
          if d.resultIdx? (u.rowMajor.symm n) idx = some i then upd (u.rowMajor.symm n) else 0#32 := by
  unfold Host.scatter
  rw [Fin.sum_univ_def]
  generalize List.finRange u.numel = l
  -- the statement for any list of update positions and any accumulator, by induction on the list
  induction l generalizing x with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi
        simp [IntOp.addi]
      · have hne : ¬ (some i0 = some i) := fun e => hi (Option.some.inj e).symm
        simp [hi, hne]

/-- Rank 1 with the operand's one axis inserted and named by the index column: the update at position `j` lands on
    operand position `v` exactly when its index word, read signed, is `v`. -/
private theorem resultIdx_eq_some_iff {N n : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ 32) (j : (⟨1, ![n]⟩ : Shape).Idx) (v : Fin N) :
    d.resultIdx? j idx = some (ix1 v) ↔ (idx (ixP (j 0))).toInt = (v.val : Int) := by
  -- start plus window coordinate on the one axis is the index word, signed
  have hsw : ∀ a, d.start j idx a + (d.window j a : Int) = (idx (ixP (j 0))).toInt := by
    intro a
    obtain rfl : a = 0 := Subsingleton.elim _ _
    have hk : (0 : Fin 1) ∉ d.sKept := by
      simp [ScatterDims.sKept, Shape.kept, List.mem_filter, hiw]
    have hw : d.window j 0 = 0 := by
      unfold ScatterDims.window
      rw [dif_neg hk]
    have hm : (0 : Fin 1) ∈ d.scatterDimsToOperandDims := by rw [hsd]; exact List.mem_singleton.mpr rfl
    unfold ScatterDims.start
    rw [dif_pos hm, hw]
    simp only [Nat.cast_zero, add_zero]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        obtain rfl : X = 0 := Subsingleton.elim _ _
        rfl
      exact e _
    | ⟨1, _⟩ =>
      unfold ScatterDims.siIdx
      rw [dif_pos (by rw [hivd])]
      apply Fin.ext
      show List.idxOf (0 : Fin 1) d.scatterDimsToOperandDims = 0
      rw [hsd]; simp
  unfold ScatterDims.resultIdx?
  split
  · next h =>
    have h0 := h 0
    rw [hsw] at h0
    constructor
    · intro e
      have e' := congrArg Fin.val (congrFun (Option.some.inj e) 0)
      change (d.start j idx 0 + (d.window j 0 : Int)).toNat = v.val at e'
      rw [hsw] at e'
      omega
    · intro e
      congr 1
      funext a
      obtain rfl : a = 0 := Subsingleton.elim _ _
      apply Fin.ext
      show (d.start j idx 0 + (d.window j 0 : Int)).toNat = v.val
      rw [hsw, e]
      simp
  · next h =>
    constructor
    · intro e; cases e
    · intro e
      exfalso
      apply h
      intro a
      obtain rfl : a = 0 := Subsingleton.elim _ _
      rw [hsw, e]
      have hv := v.isLt
      show (0 : Int) ≤ (v.val : Int) ∧ (v.val : Int) < (N : Int)
      omega

/-- Rank 1, a column of index words, updates all 1, operand all 0: position `v` ends at the number of index
    words whose signed value is `v` (a word that names no position of the operand is dropped). -/
theorem toNat_scatter_count {N n : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ 32) (hn : n < 2 ^ 32) (v : Fin N) :
    (Host.scatter d IntOp.addi (fun _ => 0#32) idx (fun _ => 1#32) (ix1 v)).toNat
      = (Finset.univ.filter fun k : Fin n => (idx (ixP k)).toInt = (v.val : Int)).card := by
  rw [scatter_addi_apply]
  -- the sum over the update positions is the sum over the rows of the index column
  have hsum : (∑ m : Fin (Shape.numel ⟨1, ![n]⟩),
        if d.resultIdx? ((⟨1, ![n]⟩ : Shape).rowMajor.symm m) idx = some (ix1 v) then 1#32 else 0#32)
      = ∑ k : Fin n, if (idx (ixP k)).toInt = (v.val : Int) then 1#32 else 0#32 := by
    rw [Equiv.sum_comp (⟨1, ![n]⟩ : Shape).rowMajor.symm
      (fun j => if d.resultIdx? j idx = some (ix1 v) then 1#32 else 0#32)]
    refine Finset.sum_bij' (fun j _ => j 0) (fun k _ => ix1 k) (fun _ _ => Finset.mem_univ _)
      (fun _ _ => Finset.mem_univ _) (fun j _ => (eq_ix1 j).symm) (fun _ _ => rfl) ?_
    intro j _
    simp only [resultIdx_eq_some_iff d hiw hsd hivd idx j v]
  rw [hsum, BitVec.zero_add]
  -- a sum of ones over the rows that qualify is their number, which is at most n and so does not wrap
  have hone : ∀ k : Fin n, (if (idx (ixP k)).toInt = (v.val : Int) then 1#32 else 0#32)
      = if (idx (ixP k)).toInt = (v.val : Int) then (1 : BitVec 32) else 0 := fun _ => rfl
  simp only [hone]
  rw [Finset.sum_boole, BitVec.natCast_eq_ofNat, BitVec.toNat_ofNat]
  apply Nat.mod_eq_of_lt
  have hc : (Finset.univ.filter fun k : Fin n => (idx (ixP k)).toInt = (v.val : Int)).card ≤ n := by
    have := Finset.card_le_univ (Finset.univ.filter fun k : Fin n => (idx (ixP k)).toInt = (v.val : Int))
    simpa using this
  omega

end Cert.Lib.ScatterAdd
-- ==== Proof.LibFloorDiv.lean ====
/-
  Floor division and remainder of small non-negative words, as the array library spells them. For a dividend
  x ≥ 0 and a divisor k > 0 the signed quotient rounds toward zero, which is already the floor, and the signed
  remainder is already in [0, k): the corrections the two idioms carry for operands of opposite signs never
  fire, so they return x / k and x % k.
-/
import Idealize.ShloMosaic.PureOps
import Idealize.ShloMosaic.Lib.Affine
import Idealize.ShloMosaic.Lib.StableHlo.Predicate

namespace Cert.Lib.FloorDiv

open Idealize.ShloMosaic Idealize.ShloMosaic.StableHlo.Predicate

/-- The sign of a word as the array library computes it: 0, -1 or 1. -/
def sgn (y : BitVec 32) : BitVec 32 := if y = 0 then 0 else if y.msb then -1 else 1

/-! ## Small facts about non-negative words -/

/-- A literal below 2³¹ has its own value. -/
private theorem toNat_lit (k : Nat) (hk' : k < 2 ^ 31) : (BitVec.ofNat 32 k).toNat = k := by
  rw [BitVec.toNat_ofNat]; omega

/-- A word below 2³¹ has a clear top bit. -/
private theorem msb_false_of_lt {x : BitVec 32} (hx : x.toNat < 2 ^ 31) : x.msb = false :=
  BitVec.msb_eq_false_iff_two_mul_lt.mpr (by omega)

/-- A positive literal below 2³¹ reads positive as a signed word. -/
private theorem toInt_lit_pos (k : Nat) (hk : 0 < k) (hk' : k < 2 ^ 31) : 0 < (BitVec.ofNat 32 k).toInt := by
  rw [toInt_ofNat_small k hk']; omega

/-- A positive literal below 2³¹ is not the zero word. -/
private theorem lit_ne_zero (k : Nat) (hk : 0 < k) (hk' : k < 2 ^ 31) : BitVec.ofNat 32 k ≠ 0#32 := by
  intro h
  have h' := congrArg BitVec.toNat h
  rw [toNat_lit k hk'] at h'
  have h0 : (0#32 : BitVec 32).toNat = 0 := rfl
  omega

/-- The sign of a nonzero non-negative word is one. -/
private theorem sgn_pos {y : BitVec 32} (hy : y.toNat < 2 ^ 31) (h0 : y ≠ 0) : sgn y = 1 := by
  unfold sgn
  rw [if_neg h0, msb_false_of_lt hy]
  rfl

/-- A non-negative word is not below zero. -/
private theorem slt_zero_of_nonneg {y : BitVec 32} (hy : y.toNat < 2 ^ 31) : IntOp.cmpi .slt y 0#32 = 0#1 := by
  rcases BitVec.eq_zero_or_eq_one (IntOp.cmpi .slt y 0#32) with h | h
  · exact h
  · have h' := (slt_iff_toNat hy (by decide)).mp h
    have h0 : (0#32 : BitVec 32).toNat = 0 := rfl
    omega

/-- A select on a bit that is not one is its last operand. -/
private theorem select_of_ne_one {α : Type} {c : BitVec 1} (h : ¬c = 1#1) (a b : α) : Scalar.select c a b = b :=
  if_neg h

/-! ## The quotient and the remainder -/

/-- The signed quotient of a non-negative word by a positive one is the quotient of their values. -/
theorem divsi_nonneg (u : ArithUnit) (x : BitVec 32) (k : Nat) (hx : x.toNat < 2 ^ 31) (hk : 0 < k) (hk' : k < 2 ^ 31) :
    IntOp.divsi u x (BitVec.ofNat 32 k) = BitVec.ofNat 32 (x.toNat / k) := by
  have hkN := toNat_lit k hk'
  have hm : x.msb = false := msb_false_of_lt hx
  have hkm : (BitVec.ofNat 32 k).msb = false := msb_false_of_lt (by omega)
  have hc : ¬IntOp.SDivCorner x (BitVec.ofNat 32 k) := IntOp.not_corner_of_pos (toInt_lit_pos k hk hk')
  have hq : x.toNat / k ≤ x.toNat := Nat.div_le_self _ _
  apply BitVec.eq_of_toNat_eq
  -- both operands non-negative: the signed quotient is the unsigned one, and it does not wrap
  rw [IntOp.divsi, if_neg hc, BitVec.sdiv_eq, hm, hkm]
  show (x / BitVec.ofNat 32 k).toNat = _
  rw [BitVec.toNat_udiv, hkN, BitVec.toNat_ofNat]
  generalize x.toNat / k = q at hq ⊢
  omega

/-- The signed remainder of a non-negative word by a positive one is the remainder of their values. -/
theorem remsi_nonneg (u : ArithUnit) (x : BitVec 32) (k : Nat) (hx : x.toNat < 2 ^ 31) (hk : 0 < k) (hk' : k < 2 ^ 31) :
    IntOp.remsi u x (BitVec.ofNat 32 k) = BitVec.ofNat 32 (x.toNat % k) := by
  have hr : x.toNat % k < k := Nat.mod_lt _ hk
  apply BitVec.eq_of_toNat_eq
  rw [IntOp.toNat_remsi u (by omega) k hk (by omega), BitVec.toNat_ofNat]
  omega

/-- Floor division as lowered: the quotient, less one where the signs differ and the remainder is not zero. -/
theorem floorDivide_nonneg (u : ArithUnit) (x : BitVec 32) (k : Nat) (hx : x.toNat < 2 ^ 31) (hk : 0 < k) (hk' : k < 2 ^ 31) :
    Scalar.select
        (IntOp.andi (IntOp.cmpi .ne (sgn x) (sgn (BitVec.ofNat 32 k)))
          (IntOp.cmpi .ne (IntOp.remsi u x (BitVec.ofNat 32 k)) 0#32))
        (IntOp.subi (IntOp.divsi u x (BitVec.ofNat 32 k)) 1#32)
        (IntOp.divsi u x (BitVec.ofNat 32 k))
      = BitVec.ofNat 32 (x.toNat / k) := by
  rw [select_of_ne_one, divsi_nonneg u x k hx hk hk']
  -- the guard is never set: a zero dividend leaves no remainder, a nonzero one has the divisor's sign
  rw [IntOp.andi_eq_one, IntOp.cmpi_ne, IntOp.cmpi_ne]
  rintro ⟨h1, h2⟩
  by_cases h0 : x = 0
  · subst h0
    apply h2
    rw [remsi_nonneg u 0 k hx hk hk']
    show BitVec.ofNat 32 (0 % k) = 0#32
    rw [Nat.zero_mod]
  · apply h1
    rw [sgn_pos hx h0, sgn_pos (by rw [toNat_lit k hk']; exact hk') (lit_ne_zero k hk hk')]

/-- The remainder as lowered: a zero divisor replaced by one, then the signed remainder, plus the divisor where the
    remainder is not zero and its sign differs from the divisor's. -/
theorem remainder_nonneg (u : ArithUnit) (x : BitVec 32) (k : Nat) (hx : x.toNat < 2 ^ 31) (hk : 0 < k) (hk' : k < 2 ^ 31) :
    Scalar.select
        (IntOp.andi
          (IntOp.cmpi .ne
            (IntOp.cmpi .slt (IntOp.remsi u x (Scalar.select (IntOp.cmpi .eq (BitVec.ofNat 32 k) 0#32) 1#32 (BitVec.ofNat 32 k))) 0#32)
            (IntOp.cmpi .slt (Scalar.select (IntOp.cmpi .eq (BitVec.ofNat 32 k) 0#32) 1#32 (BitVec.ofNat 32 k)) 0#32))
          (IntOp.cmpi .ne (IntOp.remsi u x (Scalar.select (IntOp.cmpi .eq (BitVec.ofNat 32 k) 0#32) 1#32 (BitVec.ofNat 32 k))) 0#32))
        (IntOp.addi (IntOp.remsi u x (Scalar.select (IntOp.cmpi .eq (BitVec.ofNat 32 k) 0#32) 1#32 (BitVec.ofNat 32 k)))
          (Scalar.select (IntOp.cmpi .eq (BitVec.ofNat 32 k) 0#32) 1#32 (BitVec.ofNat 32 k)))
        (IntOp.remsi u x (Scalar.select (IntOp.cmpi .eq (BitVec.ofNat 32 k) 0#32) 1#32 (BitVec.ofNat 32 k)))
      = BitVec.ofNat 32 (x.toNat % k) := by
  -- the divisor is not zero, so it is kept
  have hd : Scalar.select (IntOp.cmpi .eq (BitVec.ofNat 32 k) 0#32) 1#32 (BitVec.ofNat 32 k) = BitVec.ofNat 32 k :=
    select_of_ne_one (fun h => lit_ne_zero k hk hk' (cmpi_eq_iff.mp h)) _ _
  have hr : x.toNat % k < k := Nat.mod_lt _ hk
  -- the remainder and the divisor are both non-negative: their sign bits agree, and the guard is never set
  have hs1 : IntOp.cmpi .slt (BitVec.ofNat 32 (x.toNat % k)) 0#32 = 0#1 :=
    slt_zero_of_nonneg (by rw [toNat_lit _ (by omega)]; omega)
  have hs2 : IntOp.cmpi .slt (BitVec.ofNat 32 k) 0#32 = 0#1 := slt_zero_of_nonneg (by rw [toNat_lit k hk']; exact hk')
  rw [hd, remsi_nonneg u x k hx hk hk', hs1, hs2]
  apply select_of_ne_one
  rw [IntOp.andi_eq_one, IntOp.cmpi_ne]
  rintro ⟨h1, -⟩
  exact h1 rfl

/-! ## Index wrapping and clamping -/

/-- A negative index wrapped by the axis length, as lowered, leaves a non-negative word alone. -/
theorem wrap_nonneg (x : BitVec 32) (n : BitVec 32) (hx : x.toNat < 2 ^ 31) :
    Scalar.select (IntOp.cmpi .slt x 0#32) (IntOp.addi x n) x = x := by
  rw [slt_zero_of_nonneg hx]
  exact select_of_ne_one (by decide) _ _

/-- A clamp from below at zero leaves a non-negative word alone. -/
theorem maxsi_zero_nonneg (x : BitVec 32) (hx : x.toNat < 2 ^ 31) : IntOp.maxsi 0#32 x = x := by
  unfold IntOp.maxsi
  rw [if_neg]
  intro h
  rw [BitVec.slt_iff_toInt_lt, toInt_eq_toNat_of_lt hx] at h
  have h0 : (0#32 : BitVec 32).toInt = 0 := by decide
  omega

end Cert.Lib.FloorDiv
-- ==== Proof.RefIndex.lean ====
/-
  The index arrays the reference computes, read off stage by stage. None of these stages sees the argument arrays:
  a triangular mask of the 40 × 40 grid of field pairs, flattened row by row; its running count; a tally of how many
  cells share each count; the running sum of the tally, which at p is the flat position 40 i + j of the p-th pair
  (i, j), i < j; and that position split by 40 into i and j. Every word stays far below 2³¹, so the word arithmetic
  is the arithmetic of the values.
-/
import proofs.«140554_j24747601560016_1_alg».proof.Proof.RefOps
import proofs.«140554_j24747601560016_1_alg».proof.Proof.Spec
import proofs.«140554_j24747601560016_1_alg».proof.Proof.LibCumsum
import proofs.«140554_j24747601560016_1_alg».proof.Proof.LibScatterAdd
import proofs.«140554_j24747601560016_1_alg».proof.Proof.LibFloorDiv
import Idealize.ShloMosaic.Lib.StableHlo.Predicate
import Idealize.ShloMosaic.Lib.IdealHost
import Idealize.ShloMosaic.Lib.Pipeline.Value

noncomputable section

open scoped BigOperators

namespace Cert.PairProducts.RefIndex

open Cert.ReferenceIdeal Cert.ReferenceIdeal.Gen Cert.ReferenceIdeal.Listed
open Idealize.ShloMosaic Idealize.ShloMosaic.ValueIdx Idealize.ShloMosaic.StableHlo.Predicate
open Cert.PairProducts Cert.Lib.FloorDiv

theorem ofFin_eq_ix1 {n : Nat} (k : Fin n) : Shape.Idx.ofFin k = ix1 k := by
  funext a
  obtain rfl : a = 0 := Subsingleton.elim _ _
  exact Fin.ext rfl

theorem toNat_ofNat_small (a : Nat) (ha : a < 2 ^ 32) : (BitVec.ofNat 32 a).toNat = a := by
  rw [BitVec.toNat_ofNat]; exact Nat.mod_eq_of_lt ha

/-! ## The mask: cell (r, c) is marked when r < c -/

/-- The triangular mask at a cell, through the floats it is built from: ones kept above the diagonal, compared
    against zero. -/
theorem mask_apply (r c : Fin 40) : val_main_v4 Ideal (ix2 r c) = if r.val < c.val then 1#1 else 0#1 := by
  have e : val_main_v4 Ideal (ix2 r c)
      = Ideal.cmp .une (Scalar.select (IntOp.cmpi .sge (IntOp.addi (BitVec.ofNat 32 r.val) 0#32) (BitVec.ofNat 32 c.val))
          (Ideal.ofBits .f32 0x00000000#32) (Ideal.ofBits .f32 0x3F800000#32)) (Ideal.ofBits .f32 0x00000000#32) := rfl
  rw [e, Ideal.ofBits_zero_f32, Ideal.ofBits_one_f32]
  have hr : (BitVec.ofNat 32 r.val).toNat = r.val := toNat_ofNat_small _ (by have := r.isLt; omega)
  have hc : (BitVec.ofNat 32 c.val).toNat = c.val := toNat_ofNat_small _ (by have := c.isLt; omega)
  have ha : IntOp.addi (BitVec.ofNat 32 r.val) 0#32 = BitVec.ofNat 32 r.val := BitVec.add_zero _
  rw [ha]
  by_cases h : r.val < c.val
  · have hb : IntOp.cmpi .sge (BitVec.ofNat 32 r.val) (BitVec.ofNat 32 c.val) = 0#1 :=
      eq_zero_of_ne_one fun h1 => by
        have := (sge_iff_toNat (by rw [hr]; have := r.isLt; omega) (by rw [hc]; have := c.isLt; omega)).mp h1
        rw [hr, hc] at this; omega
    rw [hb, select_zero, if_pos h]
    simp [Ideal.cmp]
  · have hb : IntOp.cmpi .sge (BitVec.ofNat 32 r.val) (BitVec.ofNat 32 c.val) = 1#1 :=
      (sge_iff_toNat (by rw [hr]; have := r.isLt; omega) (by rw [hc]; have := c.isLt; omega)).mpr (by rw [hr, hc]; omega)
    rw [hb, select_one, if_neg h]
    simp [Ideal.cmp]

/-- The mask flattened row by row and widened to a word: cell k holds 1 when it is marked. -/
theorem flatMask_toNat (k : Fin 1600) : (val_main_call1_v1 Ideal (ix1 k)).toNat = if marked k.val then 1 else 0 := by
  have hk := k.isLt
  have e : val_main_call1_v1 Ideal (ix1 k) = (val_main_call1_v0 Ideal (ix1 k)).setWidth 32 := rfl
  have e2 : val_main_call1_v0 Ideal (ix1 k)
      = val_main_v4 Ideal (ix2 (⟨k.val / 40, by omega⟩ : Fin 40) (⟨k.val % 40, Nat.mod_lt _ (by decide)⟩ : Fin 40)) := by
    show shapeCast S1600 (val_main_v4 Ideal) shapeCasts_S40x40_S1600 (ix1 k) = _
    refine shapeCast_apply _ _ _ _ ?_
    rw [Shape.rowMajor_val_two, Shape.rowMajor_val_one]
    show k.val / 40 * 40 + k.val % 40 = k.val
    omega
  rw [e, e2, mask_apply, toNat_setWidth_bit]
  unfold marked
  by_cases h : k.val / 40 < k.val % 40 <;> simp [h]

/-! ## The running count -/

/-- The running count of marked cells, as a word: the closed form of the count. -/
theorem count_apply (k : Fin 1600) : val_main_v5 Ideal (ix1 k) = BitVec.ofNat 32 (countTo k.val) := by
  have e : val_main_v5 Ideal = Host.reduceWindow IntOp.addi ![1600] ![1] ![1599] ![0] (val_main_call1_v1 Ideal)
      (val_main_call1_call0_v0 Ideal) reduceWindows_S1600_S1600_w1600s1p1599_0 h_S_ := rfl
  have hsmall : ∑ n : Fin 1600, (val_main_call1_v1 Ideal (ix1 n)).toNat < 2 ^ 32 := by
    calc ∑ n : Fin 1600, (val_main_call1_v1 Ideal (ix1 n)).toNat ≤ ∑ _n : Fin 1600, 1 :=
          Finset.sum_le_sum fun n _ => by rw [flatMask_toNat]; split <;> omega
      _ < 2 ^ 32 := by simp
  have ht := Cert.Lib.Cumsum.toNat_reduceWindow_prefix ![1600] ![1] ![1599] ![0] rfl rfl rfl rfl (val_main_call1_v1 Ideal)
    (val_main_call1_call0_v0 Ideal) reduceWindows_S1600_S1600_w1600s1p1599_0 h_S_ rfl k hsmall
  apply BitVec.eq_of_toNat_eq
  rw [e]
  refine ht.trans ?_
  rw [toNat_ofNat_small _ (by have := countTo_le_780 k.val k.isLt; omega), countTo_eq_sum k.val k.isLt]
  exact Finset.sum_congr rfl fun n _ => if_congr Iff.rfl (flatMask_toNat n) rfl

/-- Clamped below at zero and wrapped by 780 where negative, the count is unchanged: it is never negative. -/
theorem countIdx_apply (k : Fin 1600) : val_main_v12 Ideal (ix1 k) = BitVec.ofNat 32 (countTo k.val) := by
  have hc := countTo_le_780 k.val k.isLt
  have hx : (BitVec.ofNat 32 (countTo k.val)).toNat < 2 ^ 31 := by rw [toNat_ofNat_small _ (by omega)]; omega
  have e7 : val_main_v7 Ideal (ix1 k) = IntOp.maxsi 0#32 (val_main_v5 Ideal (ix1 k)) := rfl
  have h7 : val_main_v7 Ideal (ix1 k) = BitVec.ofNat 32 (countTo k.val) := by
    rw [e7, count_apply, maxsi_zero_nonneg _ hx]
  have e12 : val_main_v12 Ideal (ix1 k)
      = Scalar.select (IntOp.cmpi .slt (val_main_v7 Ideal (ix1 k)) 0#32) (IntOp.addi (val_main_v7 Ideal (ix1 k)) 780#32)
          (val_main_v7 Ideal (ix1 k)) := rfl
  rw [e12, h7, wrap_nonneg _ _ hx]

/-! ## The tally and its running sum -/

/-- The tally: entry v counts the cells whose running count is v. -/
theorem tally_toNat (v : Fin 780) :
    (val_main_v15 Ideal (ix1 v)).toNat = (Finset.univ.filter fun n : Fin 1600 => countTo n.val = v.val).card := by
  have e : val_main_v15 Ideal = Host.scatter scatter_S780_S1600x1_S1600_n_0_0_1 IntOp.addi (fun _ => 0#32)
      (val_main_v13 Ideal) (fun _ => 1#32) := rfl
  rw [e, Cert.Lib.ScatterAdd.toNat_scatter_count scatter_S780_S1600x1_S1600_n_0_0_1 rfl rfl rfl rfl _ (by decide) v]
  refine congrArg Finset.card (Finset.filter_congr fun n _ => ?_)
  have e13 : val_main_v13 Ideal (ixP n) = val_main_v12 Ideal (ix1 n) := by
    show broadcastInDim S1600x1 ![0] bcast_S1600_S1600x1_0 (val_main_v12 Ideal) (ixP n) = _
    rw [bcast_col1, ofFin_eq_ix1]
  have hc := countTo_le_780 n.val n.isLt
  rw [e13, countIdx_apply, toInt_ofNat_small _ (by omega)]
  exact Nat.cast_inj

/-- The running sum of the tally at p: the flat position of the p-th pair's cell. -/
theorem flat_apply (p : Fin 780) : val_main_v16 Ideal (ix1 p) = BitVec.ofNat 32 (cellAt p.val) := by
  have e : val_main_v16 Ideal = Host.reduceWindow IntOp.addi ![780] ![1] ![779] ![0] (val_main_v15 Ideal)
      (val_main_call3_call0_v0 Ideal) reduceWindows_S780_S780_w780s1p779_0 h_S_ := rfl
  have hsmall : ∑ v : Fin 780, (val_main_v15 Ideal (ix1 v)).toNat < 2 ^ 32 := by
    calc ∑ v : Fin 780, (val_main_v15 Ideal (ix1 v)).toNat ≤ ∑ _v : Fin 780, 1600 :=
          Finset.sum_le_sum fun v _ => by
            rw [tally_toNat]
            exact (Finset.card_le_univ _).trans (by simp)
      _ < 2 ^ 32 := by simp
  have ht := Cert.Lib.Cumsum.toNat_reduceWindow_prefix ![780] ![1] ![779] ![0] rfl rfl rfl rfl (val_main_v15 Ideal)
    (val_main_call3_call0_v0 Ideal) reduceWindows_S780_S780_w780s1p779_0 h_S_ rfl p hsmall
  have hcell := (countTo_cellAt p.val p.isLt).2.1
  apply BitVec.eq_of_toNat_eq
  rw [e]
  refine ht.trans ?_
  rw [toNat_ofNat_small _ (by omega), ← sum_card_countTo_eq p.val p.isLt]
  exact Finset.sum_congr rfl fun v _ => if_congr Iff.rfl (tally_toNat v) rfl

/-! ## The two fields of the pair -/

theorem flat_small (p : Fin 780) : (BitVec.ofNat 32 (cellAt p.val)).toNat < 2 ^ 31 := by
  have hcell := (countTo_cellAt p.val p.isLt).2.1
  rw [toNat_ofNat_small _ (by omega)]; omega

/-- The first field: the position floor-divided by 40, then reduced by 40, wrapped by 40 where negative. -/
theorem firstIdx_apply (p : Fin 780) : val_main_v25 Ideal (ix1 p) = BitVec.ofNat 32 (fieldI p).val := by
  have hcell := (countTo_cellAt p.val p.isLt).2.1
  have hI : (fieldI p).val < 40 := (fieldI p).isLt
  have hdiv : cellAt p.val / 40 = (fieldI p).val := cellAt_div p.val p.isLt
  have e17 : val_main_v17 Ideal (ix1 p)
      = Scalar.select
          (IntOp.andi (IntOp.cmpi .ne (sgn (val_main_v16 Ideal (ix1 p))) (sgn (BitVec.ofNat 32 40)))
            (IntOp.cmpi .ne (IntOp.remsi .host (val_main_v16 Ideal (ix1 p)) (BitVec.ofNat 32 40)) 0#32))
          (IntOp.subi (IntOp.divsi .host (val_main_v16 Ideal (ix1 p)) (BitVec.ofNat 32 40)) 1#32)
          (IntOp.divsi .host (val_main_v16 Ideal (ix1 p)) (BitVec.ofNat 32 40)) := rfl
  have h17 : val_main_v17 Ideal (ix1 p) = BitVec.ofNat 32 (fieldI p).val := by
    rw [e17, flat_apply, floorDivide_nonneg .host _ 40 (flat_small p) (by decide) (by decide),
      toNat_ofNat_small _ (by omega), hdiv]
  have hIs : (BitVec.ofNat 32 (fieldI p).val).toNat < 2 ^ 31 := by rw [toNat_ofNat_small _ (by omega)]; omega
  have e18 : val_main_v18 Ideal (ix1 p)
      = Scalar.select
          (IntOp.andi
            (IntOp.cmpi .ne
              (IntOp.cmpi .slt (IntOp.remsi .host (val_main_v17 Ideal (ix1 p)) (Scalar.select (IntOp.cmpi .eq (BitVec.ofNat 32 40) 0#32) 1#32 (BitVec.ofNat 32 40))) 0#32)
              (IntOp.cmpi .slt (Scalar.select (IntOp.cmpi .eq (BitVec.ofNat 32 40) 0#32) 1#32 (BitVec.ofNat 32 40)) 0#32))
            (IntOp.cmpi .ne (IntOp.remsi .host (val_main_v17 Ideal (ix1 p)) (Scalar.select (IntOp.cmpi .eq (BitVec.ofNat 32 40) 0#32) 1#32 (BitVec.ofNat 32 40))) 0#32))
          (IntOp.addi (IntOp.remsi .host (val_main_v17 Ideal (ix1 p)) (Scalar.select (IntOp.cmpi .eq (BitVec.ofNat 32 40) 0#32) 1#32 (BitVec.ofNat 32 40)))
            (Scalar.select (IntOp.cmpi .eq (BitVec.ofNat 32 40) 0#32) 1#32 (BitVec.ofNat 32 40)))
          (IntOp.remsi .host (val_main_v17 Ideal (ix1 p)) (Scalar.select (IntOp.cmpi .eq (BitVec.ofNat 32 40) 0#32) 1#32 (BitVec.ofNat 32 40))) := rfl
  have h18 : val_main_v18 Ideal (ix1 p) = BitVec.ofNat 32 (fieldI p).val := by
    rw [e18, h17, remainder_nonneg .host _ 40 hIs (by decide) (by decide), toNat_ofNat_small _ (by omega),
      Nat.mod_eq_of_lt hI]
  have e25 : val_main_v25 Ideal (ix1 p)
      = Scalar.select (IntOp.cmpi .slt (val_main_v18 Ideal (ix1 p)) 0#32) (IntOp.addi (val_main_v18 Ideal (ix1 p)) 40#32)
          (val_main_v18 Ideal (ix1 p)) := rfl
  rw [e25, h18, wrap_nonneg _ _ hIs]

/-- The second field: the position floor-divided by 1, then reduced by 40, wrapped by 40 where negative. -/
theorem secondIdx_apply (p : Fin 780) : val_main_v32 Ideal (ix1 p) = BitVec.ofNat 32 (fieldJ p).val := by
  have hcell := (countTo_cellAt p.val p.isLt).2.1
  have hJ : (fieldJ p).val < 40 := (fieldJ p).isLt
  have hmod : cellAt p.val % 40 = (fieldJ p).val := cellAt_mod p.val p.isLt
  have e19 : val_main_v19 Ideal (ix1 p)
      = Scalar.select
          (IntOp.andi (IntOp.cmpi .ne (sgn (val_main_v16 Ideal (ix1 p))) (sgn (BitVec.ofNat 32 1)))
            (IntOp.cmpi .ne (IntOp.remsi .host (val_main_v16 Ideal (ix1 p)) (BitVec.ofNat 32 1)) 0#32))
          (IntOp.subi (IntOp.divsi .host (val_main_v16 Ideal (ix1 p)) (BitVec.ofNat 32 1)) 1#32)
          (IntOp.divsi .host (val_main_v16 Ideal (ix1 p)) (BitVec.ofNat 32 1)) := rfl
  have h19 : val_main_v19 Ideal (ix1 p) = BitVec.ofNat 32 (cellAt p.val) := by
    rw [e19, flat_apply, floorDivide_nonneg .host _ 1 (flat_small p) (by decide) (by decide),
      toNat_ofNat_small _ (by omega), Nat.div_one]
  have e20 : val_main_v20 Ideal (ix1 p)
      = Scalar.select
          (IntOp.andi
            (IntOp.cmpi .ne
              (IntOp.cmpi .slt (IntOp.remsi .host (val_main_v19 Ideal (ix1 p)) (Scalar.select (IntOp.cmpi .eq (BitVec.ofNat 32 40) 0#32) 1#32 (BitVec.ofNat 32 40))) 0#32)
              (IntOp.cmpi .slt (Scalar.select (IntOp.cmpi .eq (BitVec.ofNat 32 40) 0#32) 1#32 (BitVec.ofNat 32 40)) 0#32))
            (IntOp.cmpi .ne (IntOp.remsi .host (val_main_v19 Ideal (ix1 p)) (Scalar.select (IntOp.cmpi .eq (BitVec.ofNat 32 40) 0#32) 1#32 (BitVec.ofNat 32 40))) 0#32))
          (IntOp.addi (IntOp.remsi .host (val_main_v19 Ideal (ix1 p)) (Scalar.select (IntOp.cmpi .eq (BitVec.ofNat 32 40) 0#32) 1#32 (BitVec.ofNat 32 40)))
            (Scalar.select (IntOp.cmpi .eq (BitVec.ofNat 32 40) 0#32) 1#32 (BitVec.ofNat 32 40)))
          (IntOp.remsi .host (val_main_v19 Ideal (ix1 p)) (Scalar.select (IntOp.cmpi .eq (BitVec.ofNat 32 40) 0#32) 1#32 (BitVec.ofNat 32 40))) := rfl
  have h20 : val_main_v20 Ideal (ix1 p) = BitVec.ofNat 32 (fieldJ p).val := by
    rw [e20, h19, remainder_nonneg .host _ 40 (flat_small p) (by decide) (by decide), toNat_ofNat_small _ (by omega), hmod]
  have hJs : (BitVec.ofNat 32 (fieldJ p).val).toNat < 2 ^ 31 := by rw [toNat_ofNat_small _ (by omega)]; omega
  have e32 : val_main_v32 Ideal (ix1 p)
      = Scalar.select (IntOp.cmpi .slt (val_main_v20 Ideal (ix1 p)) 0#32) (IntOp.addi (val_main_v20 Ideal (ix1 p)) 40#32)
          (val_main_v20 Ideal (ix1 p)) := rfl
  rw [e32, h20, wrap_nonneg _ _ hJs]

end Cert.PairProducts.RefIndex

end
-- ==== Proof.LibGatherRows.lean ====
/-
  Taking rows of the middle axis. A gather from a [B, F, D] array whose start indices are a column of P
  words, the middle axis collapsed and start-indexed, the other two axes kept whole as offsets, reads at
  (b, p, d) the operand at (b, f, d) where f is word p read signed and clamped into [0, F - 1].
-/
import Idealize.ShloMosaic.PureOps
import Idealize.ShloMosaic.Lib.ValueIdx
import Idealize.ShloMosaic.Lib.StableHlo.Predicate

namespace Cert.Lib.GatherRows

open Idealize.ShloMosaic Idealize.ShloMosaic.ValueIdx Idealize.ShloMosaic.StableHlo.Predicate

/-- On an axis the start index map does not name, the slice starts at 0. -/
private theorem start_unnamed {s si t : Shape} {w : Nat} (d : GatherDims s si t) (j : t.Idx) (idx : IVec si w)
    (a : Fin s.rank) (ha : a ∉ d.startIndexMap) : d.start j idx a = 0 := by
  unfold GatherDims.start; rw [dif_neg ha]

/-- On a kept operand axis, the offset coordinate is the result index's coordinate on the offset axis in the
    same position. -/
private theorem offCoord_kept {s si t : Shape} (d : GatherDims s si t) (j : t.Idx) (a : Fin s.rank) (c : Fin t.rank)
    (ha : a ∈ d.sKept) (hc : d.offsetDims[d.sKept.idxOf a]? = some c) : d.offCoord j a = (j c).val := by
  unfold GatherDims.offCoord
  rw [dif_pos ha]
  have h : d.offsetDims[d.sKept.idxOf a]'(by rw [d.offset_length]; exact List.idxOf_lt_length_iff.2 ha) = c :=
    (List.getElem_eq_iff _).2 hc
  rw [h]

/-- The coordinate a result index gives a start-indices axis is its coordinate on the batch axis in the same
    position. -/
private theorem siCoord_val {s si t : Shape} (d : GatherDims s si t) (j : t.Idx) (b : Fin si.rank) (hb : b ∈ d.siKept)
    (c : Fin t.rank) (hc : d.batchDims[d.siKept.idxOf b]? = some c) : (d.siCoord j b hb).val = (j c).val := by
  unfold GatherDims.siCoord
  have hp : d.siKept.idxOf b < d.siKept.length := List.idxOf_lt_length_iff.2 hb
  have h : d.batchDims[d.siKept.idxOf b]'(by rw [d.batch_length]; exact hp) = c := (List.getElem_eq_iff _).2 hc
  simp only [Fin.val_cast]
  rw [h]

theorem gather_rows_apply {α : Type} {B F D P w : Nat}
    (g : GatherDims ⟨3, ![B, F, D]⟩ ⟨2, ![P, 1]⟩ ⟨3, ![B, P, D]⟩)
    (hoff : g.offsetDims = [0, 2]) (hcoll : g.collapsedSliceDims = [1]) (hob : g.operandBatchingDims = [])
    (hsb : g.startIndicesBatchingDims = []) (hsim : g.startIndexMap = [1]) (hivd : g.indexVectorDim = 1)
    (hss : g.sliceSizes = ![B, 1, D])
    (x : (⟨3, ![B, F, D]⟩ : Shape).Idx → α) (idx : IVec ⟨2, ![P, 1]⟩ w)
    (b : Fin B) (p : Fin P) (e : Fin D) (hF : 0 < F) :
    Host.gather g x idx (ix3 b p e)
      = x (ix3 b ⟨min (idx (ixP p)).toInt.toNat (F - 1), by omega⟩ e) := by
  have hbn : ∀ a : Fin 3, a ∉ g.operandBatchingDims := fun a => by rw [hob]; exact List.not_mem_nil
  have hsk : g.sKept = [0, 2] := by
    show (⟨3, ![B, F, D]⟩ : Shape).kept (g.collapsedSliceDims ++ g.operandBatchingDims) = _
    rw [hcoll, hob]; rfl
  have hbd : g.batchDims = [1] := by
    show (⟨3, ![B, P, D]⟩ : Shape).kept g.offsetDims = _
    rw [hoff]; rfl
  have hsik : g.siKept = [0] := by
    show (List.finRange 2).filter (fun x => x.val ≠ g.indexVectorDim) = _
    rw [hivd]; rfl
  unfold Host.gather
  congr 1
  funext a
  apply Fin.ext
  show g.start (ix3 b p e) idx a + g.batchCoord (ix3 b p e) a + g.offCoord (ix3 b p e) a = _
  rw [GatherDims.batchCoord_eq_zero _ _ _ (hbn a), Nat.add_zero]
  match a with
  | ⟨0, _⟩ =>
    -- a kept axis: no start index, the offset coordinate is the result's coordinate on axis 0
    rw [start_unnamed g _ idx _ (by rw [hsim]; simp), Nat.zero_add,
      offCoord_kept g _ _ (0 : Fin 3) (by rw [hsk]; simp) (by rw [hsk, hoff]; rfl)]
  | ⟨1, _⟩ =>
    -- the collapsed axis: no offset, the start index clamped into [0, F - 1]
    have hm : (1 : Fin 3) ∈ g.startIndexMap := by rw [hsim]; exact List.mem_singleton.mpr rfl
    have hsl : g.sliceSizes (1 : Fin 3) = 1 := by rw [hss]; rfl
    show g.start (ix3 b p e) idx (1 : Fin 3) + g.offCoord (ix3 b p e) (1 : Fin 3) = min (idx (ixP p)).toInt.toNat (F - 1)
    rw [GatherDims.offCoord_eq_zero _ _ _ (by rw [hsk]; simp), Nat.add_zero]
    unfold GatherDims.start
    rw [dif_pos hm]
    have hsi : g.siIdx (ix3 b p e) ⟨List.idxOf (1 : Fin 3) g.startIndexMap, List.idxOf_lt_length_iff.2 hm⟩ = ixP p := by
      funext b'
      apply Fin.ext
      match b' with
      | ⟨0, _⟩ =>
        unfold GatherDims.siIdx
        rw [dif_neg (by rw [hivd]; simp)]
        rw [siCoord_val g _ _ _ (1 : Fin 3) (by rw [hsik, hbd]; rfl)]
      | ⟨1, _⟩ =>
        unfold GatherDims.siIdx
        rw [dif_pos (by rw [hivd])]
        show List.idxOf (1 : Fin 3) g.startIndexMap = 0
        rw [hsim]; simp
    show min (idx (g.siIdx (ix3 b p e) ⟨List.idxOf (1 : Fin 3) g.startIndexMap, _⟩)).toInt.toNat (F - g.sliceSizes (1 : Fin 3))
      = min (idx (ixP p)).toInt.toNat (F - 1)
    rw [hsi, hsl]
  | ⟨2, _⟩ =>
    -- a kept axis: no start index, the offset coordinate is the result's coordinate on axis 2
    rw [start_unnamed g _ idx _ (by rw [hsim]; simp), Nat.zero_add,
      offCoord_kept g _ _ (2 : Fin 3) (by rw [hsk]; simp) (by rw [hsk, hoff]; rfl)]

end Cert.Lib.GatherRows
-- ==== Proof.RefValue.lean ====
/-
  The reference's result at one entry. It takes row i of x and row j of the projection of x through W, where i and
  j are the p-th entries of the two index arrays, and multiplies them entry by entry. The index arrays hold the
  fields of the p-th pair, each inside [0, 39], so the clamp of the take leaves them alone.
-/
import proofs.«140554_j24747601560016_1_alg».proof.Proof.RefIndex
import proofs.«140554_j24747601560016_1_alg».proof.Proof.LibGatherRows
import proofs.«140554_j24747601560016_1_alg».proof.Proof.Projection

noncomputable section

open scoped BigOperators

namespace Cert.PairProducts.RefValue

open Cert.ReferenceIdeal Cert.ReferenceIdeal.Gen Cert.ReferenceIdeal.Listed
open Idealize.ShloMosaic Idealize.ShloMosaic.ValueIdx Idealize.ShloMosaic.StableHlo.Predicate
open Cert.PairProducts Cert.PairProducts.RefIndex

/-- A start index that is a field's number, read signed and clamped into [0, 39], is that field. -/
theorem clamp_field (w : BitVec 32) (f : Fin 40) (hw : w = BitVec.ofNat 32 f.val) (h : min w.toInt.toNat (40 - 1) < 40) :
    (⟨min w.toInt.toNat (40 - 1), h⟩ : Fin 40) = f := by
  apply Fin.ext
  have hf := f.isLt
  show min w.toInt.toNat (40 - 1) = f.val
  rw [hw, toInt_ofNat_small _ (by omega)]
  simp only [Int.toNat_natCast]
  omega

/-- Taking the rows the first index array names. -/
theorem take_first (x : FVec Ideal S2048x40x128 .f32) (b : Fin 2048) (p : Fin 780) (d : Fin 128) :
    val_main_v27 Ideal x (ix3 b p d) = x (ix3 b (fieldI p) d) := by
  have e : val_main_v27 Ideal x
      = Host.gather gather_S2048x40x128_S780x1_S2048x780x128_02_1_n_n_1_1_20481128 x (val_main_v26 Ideal) := rfl
  have e26 : val_main_v26 Ideal (ixP p) = BitVec.ofNat 32 (fieldI p).val := by
    show broadcastInDim S780x1 ![0] bcast_S780_S780x1_0 (val_main_v25 Ideal) (ixP p) = _
    rw [bcast_col1, ofFin_eq_ix1, firstIdx_apply]
  rw [e, Cert.Lib.GatherRows.gather_rows_apply gather_S2048x40x128_S780x1_S2048x780x128_02_1_n_n_1_1_20481128
    rfl rfl rfl rfl rfl rfl rfl x (val_main_v26 Ideal) b p d (by decide)]
  exact congrArg (fun f => x (ix3 b f d)) (clamp_field _ _ e26 _)

/-- Taking the rows the second index array names, out of any array of the same shape. -/
theorem take_second (y : FVec Ideal S2048x40x128 .f32) (b : Fin 2048) (p : Fin 780) (d : Fin 128) :
    Host.gather gather_S2048x40x128_S780x1_S2048x780x128_02_1_n_n_1_1_20481128 y (val_main_v33 Ideal) (ix3 b p d)
      = y (ix3 b (fieldJ p) d) := by
  have e33 : val_main_v33 Ideal (ixP p) = BitVec.ofNat 32 (fieldJ p).val := by
    show broadcastInDim S780x1 ![0] bcast_S780_S780x1_0 (val_main_v32 Ideal) (ixP p) = _
    rw [bcast_col1, ofFin_eq_ix1, secondIdx_apply]
  rw [Cert.Lib.GatherRows.gather_rows_apply gather_S2048x40x128_S780x1_S2048x780x128_02_1_n_n_1_1_20481128
    rfl rfl rfl rfl rfl rfl rfl y (val_main_v33 Ideal) b p d (by decide)]
  exact congrArg (fun f => y (ix3 b f d)) (clamp_field _ _ e33 _)

/-- The reference's result at sample b, pair p, column d is the specification's. -/
theorem ref_apply (x : FVec Ideal S2048x40x128 .f32) (W : FVec Ideal S128x128 .f32) (b : Fin 2048) (p : Fin 780) (d : Fin 128) :
    val_main_v35 Ideal x W (ix3 b p d) = pairProdAt x W b p d := by
  have e : val_main_v35 Ideal x W (ix3 b p d)
      = val_main_v27 Ideal x (ix3 b p d)
        * Host.gather gather_S2048x40x128_S780x1_S2048x780x128_02_1_n_n_1_1_20481128
            (Host.dotGeneral dot_S2048x40x128_S128x128_S2048x40x128_2_0_01_1_n_n none x W) (val_main_v33 Ideal) (ix3 b p d) := rfl
  rw [e, take_first, take_second, Projection.ref_proj]
  rfl

/-- The reference's whole result array is the specification's. -/
theorem ref_eq (x : FVec Ideal S2048x40x128 .f32) (W : FVec Ideal S128x128 .f32) :
    val_main_v35 Ideal x W = pairProd x W := by
  funext i
  rw [eq_ix3 i]
  exact ref_apply x W (i 0) (i 1) (i 2)

end Cert.PairProducts.RefValue

end
-- ==== Proof.lean ====
/-
  The kernel and its reference compute one function. For x[2048, 40, 128] and W[128, 128] both return, at sample b,
  pair p and column d, the product x[b, i, d] · Σ_e x[b, j, e] · W[e, d], where (i, j) is the p-th pair of distinct
  fields with i < j in lexicographic order. The kernel knows the pairs when it is traced and lays 780 products side
  by side; the reference finds them at run time, by counting the cells above the diagonal of a 40 × 40 grid, and takes
  the rows they name. Over the extended reals the kernel's narrowing of its product's operands is the identity, so
  the two projections are the same sum, and nothing in the argument needs the inputs to be finite.

  The three frames: both kernel programs' by their frame certificates (Proof/KernelFrame.lean,
  Proof/KernelIdealFrame.lean), the reference's by its run with the result dropped. The idealization rewrote nothing, so there is nothing to preserve. The value claim sets the kernel's
  run (its result array is the specification's: Proof/KernelArray.lean) beside the reference's (its result is the
  composed value of its listed operations, Proof/RefRun.lean, which is the specification's: Proof/RefValue.lean).
-/
import proofs.«140554_j24747601560016_1_alg».proof.Defs
import proofs.«140554_j24747601560016_1_alg».proof.Proof.Gen.Kernel
import proofs.«140554_j24747601560016_1_alg».proof.Proof.KernelFrame
import proofs.«140554_j24747601560016_1_alg».proof.Proof.Gen.KernelIdeal
import proofs.«140554_j24747601560016_1_alg».proof.Proof.KernelIdealFrame
import proofs.«140554_j24747601560016_1_alg».proof.Proof.Gen.ReferenceIdeal
import proofs.«140554_j24747601560016_1_alg».proof.Proof.Gen.Pre_finite_inputs
import proofs.«140554_j24747601560016_1_alg».proof.Proof.KernelArray
import proofs.«140554_j24747601560016_1_alg».proof.Proof.RefRun
import proofs.«140554_j24747601560016_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference terminates without a fault and leaves its arguments alone: its run, the result dropped. -/
theorem frame_referenceIdeal : Cert.frame_ReferenceIdeal := fun m ρ _ =>
  (θ_run Cert.ReferenceIdeal.defs _ _).mono (fun _ h c => (h c).2) (Cert.ReferenceIdeal.Listed.run (F := Ideal) m ρ)

theorem preserves : Cert.preserves_Kernel_KernelIdeal := trivial

/-- From memories that agree on x and W both programs end with the specification's array of them. -/
theorem algebraic : Cert.algebraic_KernelIdeal_ReferenceIdeal := by
  intro m ρ m' ρ' _ hagree
  refine ⟨fun c => Cert.PairProducts.pairProd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PairProducts.KernelArray.run m ρ, ?_⟩
  refine (θ_run Cert.ReferenceIdeal.defs _ _).mono (fun _ h c => ⟨(h c).1.trans ?_, (h c).2⟩)
    (Cert.ReferenceIdeal.Listed.run (F := Ideal) m' ρ')
  rw [(hagree c).1, (hagree c).2]
  exact Cert.PairProducts.RefValue.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
